-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S2x640000 : S_.BroadcastsInDim S2x640000 (![] : Fin 0 → Fin S2x640000.rank)
  reducesTo_S2x640000_S_d0_1 : S2x640000.ReducesTo [0, 1] S_

variable [Facts]

def fn_part1 {F : FTy → Type} [FloatOps F] (main_arg1 : IVec S2x640000 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_c_8 : IVec S_ 32 := constantI S_ 32 0#32
  let main_v24 : IVec S2x640000 32 := broadcastInDim S2x640000 ![] bcast_S_S2x640000 main_c_8
  let main_v25 : IVec S2x640000 1 := cmpi .sge main_arg1 main_v24
  let main_c_9 : IVec S_ 32 := constantI S_ 32 10000#32
  let main_v26 : IVec S2x640000 32 := broadcastInDim S2x640000 ![] bcast_S_S2x640000 main_c_9
  let main_v27 : IVec S2x640000 1 := cmpi .slt main_arg1 main_v26
  let main_v28 : IVec S2x640000 1 := andi main_v25 main_v27
  let main_c_10 : IVec S_ 1 := constantI S_ 1 1#1
  let main_v29 : IVec S_ 1 := (fun x v => Host.reduce IntOp.andi x v reducesTo_S2x640000_S_d0_1 h_S_) main_v28 main_c_10
  let main_v30 : IVec S_ 1 := andi main_v23 main_v29
  main_v30

def fn {F : FTy → Type} [FloatOps F] (main_arg0 : FVec F S10000x128 .f32) (main_arg1 : IVec S2x640000 32) (main_arg2 : FVec F S128x128 .f32) (main_arg3 : FVec F S128 .f32) (main_arg4 : FVec F S128x64 .f32) (main_arg5 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S10240x10240 : Shape := ⟨2, ![10240, 10240]⟩
abbrev S650000x2 : Shape := ⟨2, ![650000, 2]⟩
abbrev S10240x128 : Shape := ⟨2, ![10240, 128]⟩
abbrev S1 : Shape := ⟨1, ![1]⟩
abbrev S2560x2560 : Shape := ⟨2, ![2560, 2560]⟩
abbrev S2560x128 : Shape := ⟨2, ![2560, 128]⟩
abbrev S1x128 : Shape := ⟨2, ![1, 128]⟩
abbrev S10000x64 : Shape := ⟨2, ![10000, 64]⟩

abbrev nBuf : Space → Nat
  | .hbm => 88
  | .vmem => 17
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000, .i32⟩
  | .hbm, ⟨7, _⟩ => ⟨S1x640000, .i32⟩
  | .hbm, ⟨8, _⟩ => ⟨S640000, .i32⟩
  | .hbm, ⟨9, _⟩ => ⟨S650000, .i32⟩
  | .hbm, ⟨10, _⟩ => ⟨S1x640000, .i32⟩
  | .hbm, ⟨11, _⟩ => ⟨S640000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S_, .f32⟩
  | .hbm, ⟨47, _⟩ => ⟨S10240x10240, .f32⟩
  | .hbm, ⟨48, _⟩ => ⟨S_, .i32⟩
  | .hbm, ⟨49, _⟩ => ⟨S650000, .i32⟩
  | .hbm, ⟨50, _⟩ => ⟨S650000, .i1⟩
  | .hbm, ⟨51, _⟩ => ⟨S_, .i32⟩
  | .hbm, ⟨52, _⟩ => ⟨S650000, .i32⟩
  | .hbm, ⟨53, _⟩ => ⟨S650000, .i32⟩
  | .hbm, ⟨54, _⟩ => ⟨S650000, .i32⟩
  | .hbm, ⟨55, _⟩ => ⟨S_, .i32⟩
  | .hbm, ⟨56, _⟩ => ⟨S650000, .i32⟩
  | .hbm, ⟨57, _⟩ => ⟨S650000, .i1⟩
  | .hbm, ⟨58, _⟩ => ⟨S_, .i32⟩
  | .hbm, ⟨59, _⟩ => ⟨S650000, .i32⟩
  | .hbm, ⟨60, _⟩ => ⟨S650000, .i32⟩
  | .hbm, ⟨61, _⟩ => ⟨S650000, .i32⟩
  | .hbm, ⟨62, _⟩ => ⟨S650000x1, .i32⟩
  | .hbm, ⟨63, _⟩ => ⟨S650000x1, .i32⟩
  | .hbm, ⟨64, _⟩ => ⟨S650000x2, .i32⟩
  | .hbm, ⟨65, _⟩ => ⟨S10240x10240, .f32⟩
  | .hbm, ⟨66, _⟩ => ⟨S10240x10240, .bf16⟩
  | .hbm, ⟨67, _⟩ => ⟨S_, .f32⟩
  | .hbm, ⟨68, _⟩ => ⟨S10240x128, .f32⟩
  | .hbm, ⟨69, _⟩ => ⟨S_, .i32⟩
  | .hbm, ⟨70, _⟩ => ⟨S1, .i32⟩
  | .hbm, ⟨71, _⟩ => ⟨S10240x128, .f32⟩
  | .hbm, ⟨72, _⟩ => ⟨S10240x128, .f32⟩
  | .hbm, ⟨73, _⟩ => ⟨S10240x128, .bf16⟩
  | .hbm, ⟨74, _⟩ => ⟨S_, .f32⟩
  | .hbm, ⟨75, _⟩ => ⟨S128x128, .f32⟩
  | .hbm, ⟨76, _⟩ => ⟨S_, .i32⟩
  | .hbm, ⟨77, _⟩ => ⟨S1, .i32⟩
  | .hbm, ⟨78, _⟩ => ⟨S128x128, .f32⟩
  | .hbm, ⟨79, _⟩ => ⟨S128x128, .bf16⟩
  | .hbm, ⟨80, _⟩ => ⟨S10240x128, .bf16⟩
  | .hbm, ⟨81, _⟩ => ⟨S_, .f32⟩
  | .hbm, ⟨82, _⟩ => ⟨S128, .f32⟩
  | .hbm, ⟨83, _⟩ => ⟨S_, .i32⟩
  | .hbm, ⟨84, _⟩ => ⟨S1, .i32⟩
  | .hbm, ⟨85, _⟩ => ⟨S128, .f32⟩
  | .hbm, ⟨86, _⟩ => ⟨S10240x128, .f32⟩
  | .hbm, ⟨87, _⟩ => ⟨S10000x64, .f32⟩
  | .local _ .vmem, ⟨0, _⟩ => ⟨S2560x2560, .bf16⟩
  | .local _ .vmem, ⟨1, _⟩ => ⟨S2560x2560, .bf16⟩
  | .local _ .vmem, ⟨2, _⟩ => ⟨S2560x128, .bf16⟩
  | .local _ .vmem, ⟨3, _⟩ => ⟨S2560x128, .bf16⟩
  | .local _ .vmem, ⟨4, _⟩ => ⟨S128, .f32⟩
  | .local _ .vmem, ⟨5, _⟩ => ⟨S128x128, .bf16⟩
  | .local _ .vmem, ⟨6, _⟩ => ⟨S2560x128, .bf16⟩
  | .local _ .vmem, ⟨7, _⟩ => ⟨S2560x128, .bf16⟩
  | .local _ .vmem, ⟨8, _⟩ => ⟨S2560x128, .f32⟩
  | .local _ .vmem, ⟨9, _⟩ => ⟨S2560x2560, .bf16⟩
  | .local _ .vmem, ⟨10, _⟩ => ⟨S2560x2560, .bf16⟩
  | .local _ .vmem, ⟨11, _⟩ => ⟨S2560x128, .bf16⟩
  | .local _ .vmem, ⟨12, _⟩ => ⟨S2560x128, .bf16⟩
  | .local _ .vmem, ⟨13, _⟩ => ⟨S128, .f32⟩
  | .local _ .vmem, ⟨14, _⟩ => ⟨S2560x128, .f32⟩
  | .local _ .vmem, ⟨15, _⟩ => ⟨S2560x128, .f32⟩
  | .local _ .vmem, ⟨16, _⟩ => ⟨S2560x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_c_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_c_14 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_15 : Ref sig .tc := ⟨.hbm, 81, rfl⟩
abbrev main_v56 : Ref sig .tc := ⟨.hbm, 82, rfl⟩
abbrev main_c_16 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2560x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2560x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2560x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2560x2560 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2560x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2560x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S_S10240x10240 : S_.BroadcastsInDim S10240x10240 (![] : Fin 0 → Fin S10240x10240.rank)
  concatenates_S650000x1_S650000x1_S650000x2_d1 : Shape.Concatenates [S650000x1, S650000x1] S650000x2 1
  bitsLt_bf16_f32 : FTy.bits .bf16 < FTy.bits .f32
  bcast_S_S10240x128 : S_.BroadcastsInDim S10240x128 (![] : Fin 0 → Fin S10240x128.rank)
  bcast_S_S1 : S_.BroadcastsInDim S1 (![] : Fin 0 → Fin S1.rank)
  bcast_S_S128x128 : S_.BroadcastsInDim S128x128 (![] : Fin 0 → Fin S128x128.rank)
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  inb_S2560x2560_S2560x2560_0_0 : ∀ a, (![0, 0] : Fin 2 → Nat) a + S2560x2560.size a ≤ S2560x2560.size a
  h_S2560x2560 : 0 < S2560x2560.numel
  shapeCasts_S2560x2560_S2560x2560 : S2560x2560.ShapeCasts S2560x2560
  inb_S128_S128_0 : ∀ a, (![0] : Fin 1 → Nat) a + S128.size a ≤ S128.size a
  h_S128 : 0 < S128.numel
  shapeCasts_S128_S1x128 : S128.ShapeCasts S1x128
  broadcasts_S1x128_S2560x128 : S1x128.Broadcasts S2560x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S2560x128_S2560x128_0_0 : (Rect.unit (s := S2560x128) ![0, 0] S2560x128.size inb_S2560x128_S2560x128_0_0).PackedRows (EltTy.packing .bf16)
  bcast_S_S128 : S_.BroadcastsInDim S128 (![] : Fin 0 → Fin S128.rank)
  shapeCasts_S128_S128 : S128.ShapeCasts S128
  slices_S10240x128_S10000x64_0_0 : S10240x128.Slices ![0, 0] S10000x64
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  scatter_S10240x10240_S650000x2_S650000_n_01_01_1_wf : ScatterDims.WF S10240x10240 S650000x2 S650000 [] [0, 1] [0, 1] 1
  scatter_S10240x128_S1_S10000x128_01_n_0_0_wf : ScatterDims.WF S10240x128 S1 S10000x128 [0, 1] [] [0] 0
  dot_S10240x128_S128x128_S10240x128_1_0_0_1_n_n_wf : DotDims.WF S10240x128 S128x128 S10240x128 [1] [0] [0] [1] [] []
  scatter_S128x128_S1_S128x64_01_n_1_0_wf : ScatterDims.WF S128x128 S1 S128x64 [0, 1] [] [1] 0
  dot_S2560x2560_S2560x128_S2560x128_1_0_0_1_n_n_wf : DotDims.WF S2560x2560 S2560x128 S2560x128 [1] [0] [0] [1] [] []
  dot_S2560x128_S128x128_S2560x128_1_0_0_1_n_n_wf : DotDims.WF S2560x128 S128x128 S2560x128 [1] [0] [0] [1] [] []
  scatter_S128_S1_S64_0_n_0_0_wf : ScatterDims.WF S128 S1 S64 [0] [] [0] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x2560.size a ≤ S10240x10240.size a
  hwx0_0 : ∀ i : grid0.Coords, EltTy.bits .bf16 = 32 ∨ (Rect.block (s := S10240x10240) S2560x2560.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S10240x128.size a
  hwx0_1 : ∀ i : grid0.Coords, EltTy.bits .bf16 = 32 ∨ (Rect.block (s := S10240x128) S2560x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2560x128.size a ≤ S10240x128.size a
  hwx0_4 : ∀ i : grid0.Coords, EltTy.bits .bf16 = 32 ∨ (Rect.block (s := S10240x128) S2560x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2560x2560.size a ≤ S10240x10240.size a
  hwx1_0 : ∀ i : grid1.Coords, EltTy.bits .bf16 = 32 ∨ (Rect.block (s := S10240x10240) S2560x2560.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2560x128.size a ≤ S10240x128.size a
  hwx1_1 : ∀ i : grid1.Coords, EltTy.bits .bf16 = 32 ∨ (Rect.block (s := S10240x128) S2560x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2560x128.size a ≤ S10240x128.size a
  hwx1_3 : ∀ i : grid1.Coords, EltTy.bits .f32 = 32 ∨ (Rect.block (s := S10240x128) S2560x128.size (cc1_transform_3 i) (hinb1_3 i)).WholeWords (EltTy.packing .f32)

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def scatter_S10240x10240_S650000x2_S650000_n_01_01_1 : ScatterDims S10240x10240 S650000x2 S650000 where
  updateWindowDims := []
  insertedWindowDims := [0, 1]
  scatterDimsToOperandDims := [0, 1]
  indexVectorDim := 1
  wf := scatter_S10240x10240_S650000x2_S650000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S10240x128_S128x128_S10240x128_1_0_0_1_n_n : DotDims S10240x128 S128x128 S10240x128 where
  lhsContracting := [1]
  rhsContracting := [0]
  lhsNonContracting := [0]
  rhsNonContracting := [1]
  lhsBatch := []
  rhsBatch := []
  wf := dot_S10240x128_S128x128_S10240x128_1_0_0_1_n_n_wf
def scatter_S128x128_S1_S128x64_01_n_1_0 : ScatterDims S128x128 S1 S128x64 where
  updateWindowDims := [0, 1]
  insertedWindowDims := []
  scatterDimsToOperandDims := [1]
  indexVectorDim := 0
  wf := scatter_S128x128_S1_S128x64_01_n_1_0_wf
def dot_S2560x2560_S2560x128_S2560x128_1_0_0_1_n_n : DotDims S2560x2560 S2560x128 S2560x128 where
  lhsContracting := [1]
  rhsContracting := [0]
  lhsNonContracting := [0]
  rhsNonContracting := [1]
  lhsBatch := []
  rhsBatch := []
  wf := dot_S2560x2560_S2560x128_S2560x128_1_0_0_1_n_n_wf
def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf
def scatter_S128_S1_S64_0_n_0_0 : ScatterDims S128 S1 S64 where
  updateWindowDims := [0]
  insertedWindowDims := []
  scatterDimsToOperandDims := [0]
  indexVectorDim := 0
  wf := scatter_S128_S1_S64_0_n_0_0_wf

abbrev win0_0 : Pipeline.Window sig grid0 :=
  Pipeline.Window.ofSpec (Memref.whole main_v45) S2560x2560.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v54) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v55) S2560x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v45) S2560x2560.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S2560x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v58) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S2560x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S10000 : Shape := ⟨1, ![10000]⟩
abbrev S1x640000 : Shape := ⟨2, ![1, 640000]⟩
abbrev S640000 : Shape := ⟨1, ![640000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S10000x64 : Shape := ⟨2, ![10000, 64]⟩
abbrev S650000x64 : Shape := ⟨2, ![650000, 64]⟩
abbrev S1x64 : Shape := ⟨2, ![1, 64]⟩

abbrev nBuf : Space → Nat
  | .hbm => 89
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S10000, .i32⟩
  | .hbm, ⟨7, _⟩ => ⟨S1x640000, .i32⟩
  | .hbm, ⟨8, _⟩ => ⟨S640000, .i32⟩
  | .hbm, ⟨9, _⟩ => ⟨S650000, .i32⟩
  | .hbm, ⟨10, _⟩ => ⟨S1x640000, .i32⟩
  | .hbm, ⟨11, _⟩ => ⟨S640000, .i32⟩
  | .hbm, ⟨12, _⟩ => ⟨S650000, .i32⟩
  | .hbm, ⟨13, _⟩ => ⟨S_, .f32⟩
  | .hbm, ⟨14, _⟩ => ⟨S650000, .f32⟩
  | .hbm, ⟨15, _⟩ => ⟨S_, .f32⟩
  | .hbm, ⟨16, _⟩ => ⟨S10000, .f32⟩
  | .hbm, ⟨17, _⟩ => ⟨S650000x1, .i32⟩
  | .hbm, ⟨18, _⟩ => ⟨S10000, .f32⟩
  | .hbm, ⟨19, _⟩ => ⟨S_, .f32⟩
  | .hbm, ⟨20, _⟩ => ⟨S10000, .f32⟩
  | .hbm, ⟨21, _⟩ => ⟨S10000, .i1⟩
  | .hbm, ⟨22, _⟩ => ⟨S10000, .f32⟩
  | .hbm, ⟨23, _⟩ => ⟨S_, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S650000, .i32⟩
  | .hbm, ⟨29, _⟩ => ⟨S650000, .i1⟩
  | .hbm, ⟨30, _⟩ => ⟨S_, .i32⟩
  | .hbm, ⟨31, _⟩ => ⟨S650000, .i32⟩
  | .hbm, ⟨32, _⟩ => ⟨S650000, .i32⟩
  | .hbm, ⟨33, _⟩ => ⟨S650000, .i32⟩
  | .hbm, ⟨34, _⟩ => ⟨S650000x1, .i32⟩
  | .hbm, ⟨35, _⟩ => ⟨S650000, .f32⟩
  | .hbm, ⟨36, _⟩ => ⟨S_, .i32⟩
  | .hbm, ⟨37, _⟩ => ⟨S650000, .i32⟩
  | .hbm, ⟨38, _⟩ => ⟨S650000, .i1⟩
  | .hbm, ⟨39, _⟩ => ⟨S_, .i32⟩
  | .hbm, ⟨40, _⟩ => ⟨S650000, .i32⟩
  | .hbm, ⟨41, _⟩ => ⟨S650000, .i32⟩
  | .hbm, ⟨42, _⟩ => ⟨S650000, .i32⟩
  | .hbm, ⟨43, _⟩ => ⟨S650000x1, .i32⟩
  | .hbm, ⟨44, _⟩ => ⟨S650000, .f32⟩
  | .hbm, ⟨45, _⟩ => ⟨S650000, .f32⟩
  | .hbm, ⟨46, _⟩ => ⟨S10000x128, .f32⟩
  | .hbm, ⟨47, _⟩ => ⟨S_, .i32⟩
  | .hbm, ⟨48, _⟩ => ⟨S650000, .i32⟩
  | .hbm, ⟨49, _⟩ => ⟨S650000, .i1⟩
  | .hbm, ⟨50, _⟩ => ⟨S_, .i32⟩
  | .hbm, ⟨51, _⟩ => ⟨S650000, .i32⟩
  | .hbm, ⟨52, _⟩ => ⟨S650000, .i32⟩
  | .hbm, ⟨53, _⟩ => ⟨S650000, .i32⟩
  | .hbm, ⟨54, _⟩ => ⟨S650000x1, .i32⟩
  | .hbm, ⟨55, _⟩ => ⟨S650000x128, .f32⟩
  | .hbm, ⟨56, _⟩ => ⟨S650000x1, .f32⟩
  | .hbm, ⟨57, _⟩ => ⟨S650000x128, .f32⟩
  | .hbm, ⟨58, _⟩ => ⟨S650000x128, .f32⟩
  | .hbm, ⟨59, _⟩ => ⟨S_, .f32⟩
  | .hbm, ⟨60, _⟩ => ⟨S10000x128, .f32⟩
  | .hbm, ⟨61, _⟩ => ⟨S650000x1, .i32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S_, .f32⟩
  | .hbm, ⟨67, _⟩ => ⟨S10000x128, .f32⟩
  | .hbm, ⟨68, _⟩ => ⟨S10000x128, .f32⟩
  | .hbm, ⟨69, _⟩ => ⟨S10000x64, .f32⟩
  | .hbm, ⟨70, _⟩ => ⟨S_, .i32⟩
  | .hbm, ⟨71, _⟩ => ⟨S650000, .i32⟩
  | .hbm, ⟨72, _⟩ => ⟨S650000, .i1⟩
  | .hbm, ⟨73, _⟩ => ⟨S_, .i32⟩
  | .hbm, ⟨74, _⟩ => ⟨S650000, .i32⟩
  | .hbm, ⟨75, _⟩ => ⟨S650000, .i32⟩
  | .hbm, ⟨76, _⟩ => ⟨S650000, .i32⟩
  | .hbm, ⟨77, _⟩ => ⟨S650000x1, .i32⟩
  | .hbm, ⟨78, _⟩ => ⟨S650000x64, .f32⟩
  | .hbm, ⟨79, _⟩ => ⟨S650000x1, .f32⟩
  | .hbm, ⟨80, _⟩ => ⟨S650000x64, .f32⟩
  | .hbm, ⟨81, _⟩ => ⟨S650000x64, .f32⟩
  | .hbm, ⟨82, _⟩ => ⟨S_, .f32⟩
  | .hbm, ⟨83, _⟩ => ⟨S10000x64, .f32⟩
  | .hbm, ⟨84, _⟩ => ⟨S650000x1, .i32⟩
  | .hbm, ⟨85, _⟩ => ⟨S10000x64, .f32⟩
  | .hbm, ⟨86, _⟩ => ⟨S1x64, .f32⟩
  | .hbm, ⟨87, _⟩ => ⟨S10000x64, .f32⟩
  | .hbm, ⟨88, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S10000_S650000_d0 : Shape.Concatenates [S640000, S10000] S650000 0
  slices_S2x640000_S1x640000_1_0 : S2x640000.Slices ![1, 0] S1x640000
  bcast_S_S650000 : S_.BroadcastsInDim S650000 (![] : Fin 0 → Fin S650000.rank)
  bcast_S_S10000 : S_.BroadcastsInDim S10000 (![] : Fin 0 → Fin S10000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S650000x1_S650000x64_0_1 : S650000x1.BroadcastsInDim S650000x64 (![0, 1] : Fin 2 → Fin S650000x64.rank)
  bcast_S_S10000x64 : S_.BroadcastsInDim S10000x64 (![] : Fin 0 → Fin S10000x64.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S650000x1_S650000_n_0_0_1_wf : ScatterDims.WF S10000 S650000x1 S650000 [] [0] [0] 1
  gather_S10000_S650000x1_S650000_n_0_n_n_0_1_1_wf : GatherDims.WF S10000 S650000x1 S650000 [] [0] [] [0] [] 1 ![1]
  dot_S10000x128_S128x128_S10000x128_1_0_0_1_n_n_wf : DotDims.WF S10000x128 S128x128 S10000x128 [1] [0] [0] [1] [] []
  gather_S10000x128_S650000x1_S650000x128_1_0_n_n_0_1_1128_wf : GatherDims.WF S10000x128 S650000x1 S650000x128 [1] [0] [] [0] [] 1 ![1, 128]
  scatter_S10000x128_S650000x1_S650000x128_1_0_0_1_wf : ScatterDims.WF S10000x128 S650000x1 S650000x128 [1] [0] [0] 1
  dot_S10000x128_S128x64_S10000x64_1_0_0_1_n_n_wf : DotDims.WF S10000x128 S128x64 S10000x64 [1] [0] [0] [1] [] []
  gather_S10000x64_S650000x1_S650000x64_1_0_n_n_0_1_164_wf : GatherDims.WF S10000x64 S650000x1 S650000x64 [1] [0] [] [0] [] 1 ![1, 64]
  scatter_S10000x64_S650000x1_S650000x64_1_0_0_1_wf : ScatterDims.WF S10000x64 S650000x1 S650000x64 [1] [0] [0] 1

variable [Facts₀]

def scatter_S10000_S650000x1_S650000_n_0_0_1 : ScatterDims S10000 S650000x1 S650000 where
  updateWindowDims := []
  insertedWindowDims := [0]
  scatterDimsToOperandDims := [0]
  indexVectorDim := 1
  wf := scatter_S10000_S650000x1_S650000_n_0_0_1_wf
def gather_S10000_S650000x1_S650000_n_0_n_n_0_1_1 : GatherDims S10000 S650000x1 S650000 where
  offsetDims := []
  collapsedSliceDims := [0]
  operandBatchingDims := []
  startIndicesBatchingDims := []
  startIndexMap := [0]
  indexVectorDim := 1
  sliceSizes := ![1]
  wf := gather_S10000_S650000x1_S650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S650000x1_S650000x128_1_0_n_n_0_1_1128 : GatherDims S10000x128 S650000x1 S650000x128 where
  offsetDims := [1]
  collapsedSliceDims := [0]
  operandBatchingDims := []
  startIndicesBatchingDims := []
  startIndexMap := [0]
  indexVectorDim := 1
  sliceSizes := ![1, 128]
  wf := gather_S10000x128_S650000x1_S650000x128_1_0_n_n_0_1_1128_wf
def scatter_S10000x128_S650000x1_S650000x128_1_0_0_1 : ScatterDims S10000x128 S650000x1 S650000x128 where
  updateWindowDims := [1]
  insertedWindowDims := [0]
  scatterDimsToOperandDims := [0]
  indexVectorDim := 1
  wf := scatter_S10000x128_S650000x1_S650000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S10000x64_S650000x1_S650000x64_1_0_n_n_0_1_164 : GatherDims S10000x64 S650000x1 S650000x64 where
  offsetDims := [1]
  collapsedSliceDims := [0]
  operandBatchingDims := []
  startIndicesBatchingDims := []
  startIndexMap := [0]
  indexVectorDim := 1
  sliceSizes := ![1, 64]
  wf := gather_S10000x64_S650000x1_S650000x64_1_0_n_n_0_1_164_wf
def scatter_S10000x64_S650000x1_S650000x64_1_0_0_1 : ScatterDims S10000x64 S650000x1 S650000x64 where
  updateWindowDims := [1]
  insertedWindowDims := [0]
  scatterDimsToOperandDims := [0]
  indexVectorDim := 1
  wf := scatter_S10000x64_S650000x1_S650000x64_1_0_0_1_wf

class Facts : Prop extends Facts₀ where

variable [Facts]
-- ==== Proof.Kernel.R0Runs.lean ====
/- Region 0 of the program: what the three runs of its kernel body and its frame share — each window's block at a
   grid point read off the contents the region is entered with, the body's two branch conditions in closed form
   over the grid, where the output window is idle, the staging and scratch memrefs, and the region invariant with
   the carried scratch named. -/
import proofs.«411342_j57234734186920_3_alg».proof.Proof.Gen.Kernel.Launch
import proofs.«411342_j57234734186920_3_alg».proof.Proof.Gen.Kernel.Skeleton
import proofs.«411342_j57234734186920_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is the entry contents and whose body leaves the
    block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first `scf.if` (the reduction step is the first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4): decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second `scf.if` (the reduction step is the last). -/
abbrev cond0_1 (i : grid0.Coords) : Prop := k0_cond2 i = 1#1
/-- It holds at the points ≡ 3 (mod 4): decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the first reduction step the output window is idle, -/
theorem idleAt0_4_A : ∀ t : Fin cfg0.N, cond0_0 (grid0.coords t) → ¬cond0_1 (grid0.coords t) → cfg0.idle 4 (grid0.coords t) = true := by decide +kernel
/-- and its block is not written back. -/
theorem noFlush0_4_A : ∀ t : Fin cfg0.N, cond0_0 (grid0.coords t) → ¬cond0_1 (grid0.coords t) → (cfg0.win 4).flush t = false := by decide +kernel
/-- At the middle reduction steps the output window is idle, -/
theorem idleAt0_4_B : ∀ t : Fin cfg0.N, ¬cond0_0 (grid0.coords t) → ¬cond0_1 (grid0.coords t) → cfg0.idle 4 (grid0.coords t) = true := by decide +kernel
/-- and its block is not written back. -/
theorem noFlush0_4_B : ∀ t : Fin cfg0.N, ¬cond0_0 (grid0.coords t) → ¬cond0_1 (grid0.coords t) → (cfg0.win 4).flush t = false := by decide +kernel
/-- At the last reduction step the output window is live: the body stores into it. -/
theorem liveAt0_4_C : ∀ t : Fin cfg0.N, ¬cond0_0 (grid0.coords t) → cond0_1 (grid0.coords t) → cfg0.idle 4 (grid0.coords t) = false := by decide +kernel

/-! ## The memrefs the body runs on -/

/-- One staging buffer of the output window, through which its contents are stated. -/
abbrev VO0_4 : View sig .tc .vmem S2560x128 .bf16 := (Memref.whole cc0_stg4_0 : Memref sig .tc .vmem S2560x128 .bf16).view
/-- Each window's current staging memref at point `t`, spelled as the pipeline passes it, and its wholeness. -/
abbrev ms0_0 (t : Fin cfg0.N) : Memref sig .tc .vmem S2560x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2560x128 .bf16 := win0_4.stage (cfg0.slots t 4)
abbrev hs0_4 (t : Fin cfg0.N) : (ms0_4 t).IsWhole := hstage0_4 ((cfg0.slots t 4).cast nbuf0_4)
/-- The scratch operand: a whole scoped buffer of the kernel's own, passed beside the windows. -/
abbrev scM0_0 : Memref sig .tc .vmem S2560x128 .f32 := Memref.whole cc0_scratch0
/-- The scratch the kernel carries between points, as a view: what it holds is stated through it. -/
abbrev VS0_0 : View sig .tc .vmem S2560x128 .f32 := scM0_0.view

/-- The core's scoped buffers that are neither a staging buffer of this region nor its scratch (the other region's
    staging buffers and scratch), each whole at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region invariant with the scratch operand as a memref owned at some contents: what the body obligation hands
    the run and takes back. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.Kernel.Hand

end
-- ==== Proof.Kernel.R0RunA.lean ====
/- Region 0 of the program: the run of its kernel body at the FIRST reduction step (the first `scf.if` taken, the
   second not): the body's triple on any whole staging memrefs, the pieces its stores leave in the scratch being the
   witness the run finds. -/
import proofs.«411342_j57234734186920_3_alg».proof.Proof.Kernel.R0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- Case A (reduction step 0). On whole memrefs — the four inputs' at their contents `x·`, the output's (idle here: no
    store) at contents `xi4` handed back untouched, the scratch at anything — the body runs to the continuation
    holding the inputs' and the output's as they were and the scratch with its pieces `LS0` written. -/
noncomputable def kernelRun0_A (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : cond0_0 i) (hc1 : ¬cond0_1 i)
    (x0 : Vec F S2560x2560 .bf16) (x1 : Vec F S2560x128 .bf16) (x2 : Vec F S128 .f32) (x3 : Vec F S128x128 .bf16) :
    Σ' (L4 : List (View.Piece (Elt F) S2560x128 .bf16)), { LS0 : List (View.Piece (Elt F) S2560x128 .f32) //
      ∀ (xi4 : Vec F S2560x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__agg_fused_kernel i arg2 harg2 arg3 harg3 arg4 harg4 arg5 harg5 arg6 harg6 arg7 harg7) K } := by
  refine ⟨[], ?_, fun xi4 E K => ?run⟩
  case run =>
    simp only [cc0__agg_fused_kernel_eq_skeleton]; unfold cc0__agg_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.Kernel.R0RunB.lean ====
/- Region 0 of the program: the run of its kernel body at a MIDDLE reduction step (neither `scf.if` taken): the
   body's triple on any whole staging memrefs, the scratch entered at the contents the step before left. -/
import proofs.«411342_j57234734186920_3_alg».proof.Proof.Kernel.R0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- Case B (reduction steps 1, 2). On whole memrefs — the four inputs' at their contents `x·`, the output's (idle here)
    at contents `xi4` handed back untouched, the carried scratch at the contents `xs0` the step before left — the body
    runs to the continuation holding the inputs' and the output's as they were and the scratch with its pieces written. -/
noncomputable def kernelRun0_B (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : ¬cond0_1 i)
    (x0 : Vec F S2560x2560 .bf16) (x1 : Vec F S2560x128 .bf16) (x2 : Vec F S128 .f32) (x3 : Vec F S128x128 .bf16) (xs0 : Vec F S2560x128 .f32) :
    Σ' (L4 : List (View.Piece (Elt F) S2560x128 .bf16)), { LS0 : List (View.Piece (Elt F) S2560x128 .f32) //
      ∀ (xi4 : Vec F S2560x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__agg_fused_kernel i arg2 harg2 arg3 harg3 arg4 harg4 arg5 harg5 arg6 harg6 arg7 harg7) K } := by
  refine ⟨[], ?_, fun xi4 E K => ?run⟩
  case run =>
    simp only [cc0__agg_fused_kernel_eq_skeleton]; unfold cc0__agg_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Hand

end
-- ==== Proof.Kernel.R0RunC.lean ====
/- Region 0 of the program: the run of its kernel body at the LAST reduction step (the first `scf.if` not taken, the
   second taken): the body's triple on any whole staging memrefs, the scratch entered at the contents the step before
   left, the output's buffer ending with the epilogue's pieces. -/
import proofs.«411342_j57234734186920_3_alg».proof.Proof.Kernel.R0RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- Case C (reduction step 3). On whole memrefs — the four inputs' at their contents `x·`, the output's at anything,
    the carried scratch at the contents `xs0` the step before left — the body runs to the continuation holding the
    inputs' as they were, the output's buffer with its pieces `L4` written and the scratch with its pieces written. -/
noncomputable def kernelRun0_C (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : cond0_1 i)
    (x0 : Vec F S2560x2560 .bf16) (x1 : Vec F S2560x128 .bf16) (x2 : Vec F S128 .f32) (x3 : Vec F S128x128 .bf16) (xs0 : Vec F S2560x128 .f32) :
    Σ' (L4 : List (View.Piece (Elt F) S2560x128 .bf16)), { LS0 : List (View.Piece (Elt F) S2560x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__agg_fused_kernel i arg2 harg2 arg3 harg3 arg4 harg4 arg5 harg5 arg6 harg6 arg7 harg7) K } := by
  refine ⟨?_, ?_, fun E K => ?run⟩
  case run =>
    simp only [cc0__agg_fused_kernel_eq_skeleton]; unfold cc0__agg_fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Hand

end
-- ==== Proof.Kernel.R0Frame.lean ====
/- Region 0 of the program: its FRAME. What each case of the kernel body leaves in the output window's staging buffer
   and in the carried scratch (the pieces the runs found, with their covers), the same point by point along the grid
   (a recursion on the point: the scratch enters each reduction step at what the step before left), the pipeline's proof
   data at the contents the region is entered with, the body obligation at every point, and the invariant's two ends. -/
import proofs.«411342_j57234734186920_3_alg».proof.Proof.Kernel.R0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

/-- Case A stores nothing into the output window (idle at its points and not written back there): a placeholder
    nothing consults. -/
def out0_A_4 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : cond0_0 i) (hc1 : ¬cond0_1 i)
    (x0 : Vec F S2560x2560 .bf16) (x1 : Vec F S2560x128 .bf16) (x2 : Vec F S128 .f32) (x3 : Vec F S128x128 .bf16) : Vec F S2560x128 .bf16 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the carried scratch tile it, so they cover it. -/
theorem scover0_A_0 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : cond0_0 i) (hc1 : ¬cond0_1 i)
    (x0 : Vec F S2560x2560 .bf16) (x1 : Vec F S2560x128 .bf16) (x2 : Vec F S128 .f32) (x3 : Vec F S128x128 .bf16) (y : S2560x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S2560x128.size (by sl_kernel_rfl) y

/-- What case A leaves in the carried scratch: its pieces read back. -/
def sout0_A_0 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : cond0_0 i) (hc1 : ¬cond0_1 i)
    (x0 : Vec F S2560x2560 .bf16) (x1 : Vec F S2560x128 .bf16) (x2 : Vec F S128 .f32) (x3 : Vec F S128x128 .bf16) : Vec F S2560x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the output window (idle at its points and not written back there): a placeholder
    nothing consults. -/
def out0_B_4 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : ¬cond0_1 i)
    (x0 : Vec F S2560x2560 .bf16) (x1 : Vec F S2560x128 .bf16) (x2 : Vec F S128 .f32) (x3 : Vec F S128x128 .bf16) (xs0 : Vec F S2560x128 .f32) : Vec F S2560x128 .bf16 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the carried scratch tile it, so they cover it. -/
theorem scover0_B_0 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : ¬cond0_1 i)
    (x0 : Vec F S2560x2560 .bf16) (x1 : Vec F S2560x128 .bf16) (x2 : Vec F S128 .f32) (x3 : Vec F S128x128 .bf16) (xs0 : Vec F S2560x128 .f32) (y : S2560x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S2560x128.size (by sl_kernel_rfl) y

/-- What case B leaves in the carried scratch: its pieces read back. -/
def sout0_B_0 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : ¬cond0_1 i)
    (x0 : Vec F S2560x2560 .bf16) (x1 : Vec F S2560x128 .bf16) (x2 : Vec F S128 .f32) (x3 : Vec F S128x128 .bf16) (xs0 : Vec F S2560x128 .f32) : Vec F S2560x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's pieces for the output window tile its block, so they cover it. -/
theorem cover0_C_4 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : cond0_1 i)
    (x0 : Vec F S2560x2560 .bf16) (x1 : Vec F S2560x128 .bf16) (x2 : Vec F S128 .f32) (x3 : Vec F S128x128 .bf16) (xs0 : Vec F S2560x128 .f32) (y : S2560x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S2560x128.size (by sl_kernel_rfl) y

/-- What case C leaves in the output window's staging buffer: its pieces read back. -/
def out0_C_4 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : cond0_1 i)
    (x0 : Vec F S2560x2560 .bf16) (x1 : Vec F S2560x128 .bf16) (x2 : Vec F S128 .f32) (x3 : Vec F S128x128 .bf16) (xs0 : Vec F S2560x128 .f32) : Vec F S2560x128 .bf16 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the carried scratch tile it, so they cover it. -/
theorem scover0_C_0 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : cond0_1 i)
    (x0 : Vec F S2560x2560 .bf16) (x1 : Vec F S2560x128 .bf16) (x2 : Vec F S128 .f32) (x3 : Vec F S128x128 .bf16) (xs0 : Vec F S2560x128 .f32) (y : S2560x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S2560x128.size (by sl_kernel_rfl) y

/-- What case C leaves in the carried scratch: its pieces read back. -/
def sout0_C_0 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : cond0_1 i)
    (x0 : Vec F S2560x2560 .bf16) (x1 : Vec F S2560x128 .bf16) (x2 : Vec F S128 .f32) (x3 : Vec F S128x128 .bf16) (xs0 : Vec F S2560x128 .f32) : Vec F S2560x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

section Region0
-- the TensorCore's buffer contents when the region is entered
variable (V : (c : Dev nD) → (b : Ref sig .tc) → Buf (Elt F) ((c : Thread nD τ).loc b))

/-! ## What the output's buffer and the scratch hold after each point -/

/-- THE ACCUMULATION. What the output window's staging buffer and the carried scratch hold after the body at position
    `n`: the case the closed forms select there, run at the point's memrefs and input blocks, the scratch entered at
    what position `n - 1` left. -/
def outsAt0 (c : Dev nD) : (n : ℕ) → n < cfg0.N → Vec F S2560x128 .bf16 × Vec F S2560x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point of case B: that case's contents, over what the point before left in the scratch. -/
theorem outsAt0_B (c : Dev nD) (t : Fin cfg0.N) (h0 : ¬t.val % 4 = 0) (h1 : ¬t.val % 4 = 3) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the scratch. -/
theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging
    buffer at anything, the generator register at some state); afterwards the same with the carried scratch at what the
    point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the output's at `outsAt0`; the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; the
    invariant hands the body the carried scratch at what the point before left (at anything at the first point) and
    takes it back at this point's contents; the other scoped buffers, the generator register and the core's dues pass
    through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant before the first point is what the launch hands the region. -/
theorem Phi0_zero (c : Dev nD) : (dat0 V c).Φ 0 = Pipeline.ΦA spec0 c := by
  rw [show (dat0 V c).Φ 0 = PhiS0 V c 0 (Nat.zero_le _) from rfl, PhiS0_zero V c 0 _ rfl]

/-- After any point but the first the invariant gives the class's back: the carried scratch's named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem Phi0_last (c : Dev nD) : (dat0 V c).Φ (Fin.last cfg0.N) ⊢ Pipeline.ΦA spec0 c :=
  Phi0_out V c _ (by rw [Fin.val_last]; have : cfg0.N = 16 := N_0; omega)

end Region0

end Cert.Kernel.Hand

end
-- ==== Proof.Kernel.R1Runs.lean ====
/- Region 1 of the program (the aggregation kernel with a carried accumulator): what the three runs of its
   body share. The windows' blocks read off the region-entry contents, the body's two branch conditions in
   closed form over the grid, where the output window is idle, the staging and scratch memrefs, and the
   region invariant spelled conjunct by conjunct. -/
import proofs.«411342_j57234734186920_3_alg».proof.Proof.Gen.Kernel.Launch
import proofs.«411342_j57234734186920_3_alg».proof.Proof.Gen.Kernel.Skeleton
import proofs.«411342_j57234734186920_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (fetched at the first point only: its block index never moves). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reduction step is the first one), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the reduction step is the last one). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first reduction step the output window is idle: nothing is stored into it. -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- At the middle reduction steps the output window is idle, -/
theorem idleAt1_3_B : ∀ t : Fin cfg1.N, ¬cond1_0 (grid1.coords t) → ¬cond1_1 (grid1.coords t) → cfg1.idle 3 (grid1.coords t) = true := by decide +kernel
/-- and its block is not written back there. -/
theorem noFlush1_3_B : ∀ t : Fin cfg1.N, ¬cond1_0 (grid1.coords t) → ¬cond1_1 (grid1.coords t) → (cfg1.win 3).flush t = false := by decide +kernel
/-- At the last reduction step the output window is live: the body stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of output window 3, through which its contents are stated. -/
abbrev VO1_3 : View sig .tc .vmem S2560x128 .f32 := (Memref.whole cc1_stg3_0 : Memref sig .tc .vmem S2560x128 .f32).view
/-- Each window's current staging memref at point `t`, spelled as the pipeline passes it, and its wholeness. -/
abbrev ms1_0 (t : Fin cfg1.N) : Memref sig .tc .vmem S2560x2560 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2560x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2560x128 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S2560x128 .f32 := Memref.whole cc1_scratch0
/-- The scratch the kernel carries between points, as a view. -/
abbrev VS1_0 : View sig .tc .vmem S2560x128 .f32 := scM1_0.view

/-- The core's scoped buffers that the region never touches (the other region's staging buffers and scratch), each whole
    at some contents. -/
abbrev Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region invariant before the first point, conjunct by conjunct: the untouched scoped buffers, the scratch operand
    owned at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.Kernel.R1RunA.lean ====
/- Region 1, the body's run at the first reduction step: the accumulator is zeroed, then accumulated into; the
   output window is left untouched. -/
import proofs.«411342_j57234734186920_3_alg».proof.Proof.Kernel.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- What the body's stores leave in the output's staging memref and in the scratch, as pieces (last first), at the first
    reduction step (first conditional taken, second not), with the proof that on whole memrefs — the inputs' at their
    contents, the idle output's at contents handed back untouched, the scratch at anything — the body runs to the
    continuation holding the inputs' and the output's as they were and the scratch with its pieces written. -/
noncomputable def kernelRun1_A (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : cond1_0 i) (hc1 : ¬cond1_1 i)
    (x0 : Vec F S2560x2560 .bf16) (x1 : Vec F S2560x128 .bf16) (x2 : Vec F S128 .f32) :
    Σ' (L3 : List (View.Piece (Elt F) S2560x128 .f32)), { LS0 : List (View.Piece (Elt F) S2560x128 .f32) //
      ∀ (xi3 : Vec F S2560x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Kernel.R1RunB.lean ====
/- Region 1, the body's run at a middle reduction step: the accumulator the step before left is accumulated into;
   the output window is left untouched. -/
import proofs.«411342_j57234734186920_3_alg».proof.Proof.Kernel.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- The pieces and the run at a middle reduction step (neither conditional taken): the scratch goes in at the contents
    `xs0` the point before left and comes back with its pieces written; the idle output is handed back untouched. -/
noncomputable def kernelRun1_B (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : ¬cond1_1 i)
    (x0 : Vec F S2560x2560 .bf16) (x1 : Vec F S2560x128 .bf16) (x2 : Vec F S128 .f32) (xs0 : Vec F S2560x128 .f32) :
    Σ' (L3 : List (View.Piece (Elt F) S2560x128 .f32)), { LS0 : List (View.Piece (Elt F) S2560x128 .f32) //
      ∀ (xi3 : Vec F S2560x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.Kernel.R1RunC.lean ====
/- Region 1, the body's run at the last reduction step: the accumulator the step before left is accumulated into,
   then the epilogue is computed from it and stored into the output window. -/
import proofs.«411342_j57234734186920_3_alg».proof.Proof.Kernel.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- The pieces and the run at the last reduction step (first conditional not taken, second taken): the scratch goes in
    at the contents `xs0` the point before left; the output's buffer goes in at anything and comes back with its pieces
    written, as does the scratch. -/
noncomputable def kernelRun1_C (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : cond1_1 i)
    (x0 : Vec F S2560x2560 .bf16) (x1 : Vec F S2560x128 .bf16) (x2 : Vec F S128 .f32) (xs0 : Vec F S2560x128 .f32) :
    Σ' (L3 : List (View.Piece (Elt F) S2560x128 .f32)), { LS0 : List (View.Piece (Elt F) S2560x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.Kernel.R1Frame.lean ====
/- Region 1: what each case of the body leaves in the output's buffer and in the carried scratch, point by point;
   the proof data of its pipeline; the body obligation; the invariant at the first and after the last point. -/
import proofs.«411342_j57234734186920_3_alg».proof.Proof.Kernel.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
/-- Case A stores nothing into the output's buffer (the window is idle at its points and not written back there):
    no pieces, a placeholder that nothing consults. -/
def out1_A_3 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : cond1_0 i) (hc1 : ¬cond1_1 i)
    (x0 : Vec F S2560x2560 .bf16) (x1 : Vec F S2560x128 .bf16) (x2 : Vec F S128 .f32) : Vec F S2560x128 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the carried scratch cover it. -/
theorem scover1_A_0 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : cond1_0 i) (hc1 : ¬cond1_1 i)
    (x0 : Vec F S2560x2560 .bf16) (x1 : Vec F S2560x128 .bf16) (x2 : Vec F S128 .f32) (y : S2560x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2560x128.size (by sl_kernel_rfl) y

/-- What case A leaves in the carried scratch: its pieces read back over junk. -/
def sout1_A_0 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : cond1_0 i) (hc1 : ¬cond1_1 i)
    (x0 : Vec F S2560x2560 .bf16) (x1 : Vec F S2560x128 .bf16) (x2 : Vec F S128 .f32) : Vec F S2560x128 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output's buffer (the window is idle at its points and not written back there):
    no pieces, a placeholder that nothing consults. -/
def out1_B_3 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : ¬cond1_1 i)
    (x0 : Vec F S2560x2560 .bf16) (x1 : Vec F S2560x128 .bf16) (x2 : Vec F S128 .f32) (xs0 : Vec F S2560x128 .f32) : Vec F S2560x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the carried scratch cover it. -/
theorem scover1_B_0 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : ¬cond1_1 i)
    (x0 : Vec F S2560x2560 .bf16) (x1 : Vec F S2560x128 .bf16) (x2 : Vec F S128 .f32) (xs0 : Vec F S2560x128 .f32) (y : S2560x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2560x128.size (by sl_kernel_rfl) y

/-- What case B leaves in the carried scratch: its pieces read back over junk. -/
def sout1_B_0 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : ¬cond1_1 i)
    (x0 : Vec F S2560x2560 .bf16) (x1 : Vec F S2560x128 .bf16) (x2 : Vec F S128 .f32) (xs0 : Vec F S2560x128 .f32) : Vec F S2560x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- The pieces case C stores into the output's buffer tile its block, so they cover it. -/
theorem cover1_C_3 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : cond1_1 i)
    (x0 : Vec F S2560x2560 .bf16) (x1 : Vec F S2560x128 .bf16) (x2 : Vec F S128 .f32) (xs0 : Vec F S2560x128 .f32) (y : S2560x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2560x128.size (by sl_kernel_rfl) y

/-- What case C leaves in the output's staging buffer: its pieces read back over junk. -/
def out1_C_3 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : cond1_1 i)
    (x0 : Vec F S2560x2560 .bf16) (x1 : Vec F S2560x128 .bf16) (x2 : Vec F S128 .f32) (xs0 : Vec F S2560x128 .f32) : Vec F S2560x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the carried scratch cover it. -/
theorem scover1_C_0 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : cond1_1 i)
    (x0 : Vec F S2560x2560 .bf16) (x1 : Vec F S2560x128 .bf16) (x2 : Vec F S128 .f32) (xs0 : Vec F S2560x128 .f32) (y : S2560x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2560x128.size (by sl_kernel_rfl) y

/-- What case C leaves in the carried scratch: its pieces read back over junk. -/
def sout1_C_0 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : cond1_1 i)
    (x0 : Vec F S2560x2560 .bf16) (x1 : Vec F S2560x128 .bf16) (x2 : Vec F S128 .f32) (xs0 : Vec F S2560x128 .f32) : Vec F S2560x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the scratch hold after each point -/

/-- THE ACCUMULATION. What the output's staging buffer and the carried scratch hold after the body at position `n`: the
    case the closed forms select at `n`, run at the point's memrefs and input blocks, the scratch read at what this leaves
    at `n - 1`. An assignment of the conditions no point meets is no case. -/
def outsAt1 (c : Dev nD) : (n : ℕ) → n < cfg1.N → Vec F S2560x128 .f32 × Vec F S2560x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer outside the
    windows at anything); afterwards the same with the carried scratch at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`; the invariant `PhiS1`; nothing owed;
    full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the closed forms say which case the point is in; so that
    case's run applies; the invariant hands the body the carried scratch at what the point before left (at anything at
    the first point) and takes it back at this point's contents; the untouched scoped buffers, the generator register and
    what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HS0 Hg]
        · isplitl [HR0 HR1 HR2 HR3 HR4 HR5 HR6 HR7 HR8 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HR5 HR6 HR7 HR8 HS0 Hg]
        · isplitl [HR0 HR1 HR2 HR3 HR4 HR5 HR6 HR7 HR8 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HR5 HR6 HR7 HR8 HS0 Hg]
        · isplitl [HR0 HR1 HR2 HR3 HR4 HR5 HR6 HR7 HR8 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HS0 Hg]
        · isplitl [HR0 HR1 HR2 HR3 HR4 HR5 HR6 HR7 HR8 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_zero (c : Dev nD) : (dat1 V c).Φ 0 = Pipeline.ΦA spec1 c := by
  rw [show (dat1 V c).Φ 0 = PhiS1 V c 0 (Nat.zero_le _) from rfl, PhiS1_zero V c 0 _ rfl]

/-- After any point but the first the invariant gives the class's back: the carried scratch's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HS0⟩, Hg⟩
  isplitl [HR0 HR1 HR2 HR3 HR4 HR5 HR6 HR7 HR8 HS0]
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  iexists _; iexact HS0
  iexact Hg

/-- The same after the last point. -/
theorem Phi1_last (c : Dev nD) : (dat1 V c).Φ (Fin.last cfg1.N) ⊢ Pipeline.ΦA spec1 c :=
  Phi1_out V c _ (by rw [Fin.val_last]; have : cfg1.N = 16 := N_1; omega)

end Cert.Kernel.Hand

end
-- ==== Proof.Kernel.Main.lean ====
/- THE RUN OF THE WHOLE PROGRAM. @main is seven segments in order: three stretches of host operations, the first kernel
   region, a host stretch, the second kernel region, a last host stretch. Here: the contents of every unscoped buffer at
   each boundary between two segments, a fold from the launch memory (a host stretch takes the contents to what its
   operations leave; a region takes its windows' arrays to what its write-backs leave and keeps every other buffer);
   each argument array read back through the fold to its launch contents; both pipelines' proof data, each at the
   contents its region is entered with; the two regions as segments over the thread state "every unscoped buffer at the
   boundary's contents, the generator register at some state, nothing owed"; and the run itself: from any memory with
   zero counters every weakly fair execution of @main terminates, nothing faulting, and the final memory holds every
   unscoped buffer at the last boundary's contents — in particular every argument array as launched. -/
import proofs.«411342_j57234734186920_3_alg».proof.Proof.Kernel.R0Frame
import proofs.«411342_j57234734186920_3_alg».proof.Proof.Kernel.R1Frame
import proofs.«411342_j57234734186920_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers' contents at each boundary: a fold through @main -/

/-- A boundary's contents read at the TensorCore's references: what a region's proof data take. -/
abbrev Vat (W : Dev nD → Valuation τ sig (Elt F)) : (c : Dev nD) → (b : Ref sig .tc) → Buf (Elt F) ((c : Thread nD τ).loc b) :=
  fun c b => W c b

/-- Core `c`'s unscoped buffers when region 0 is entered: the launch memory after the first three host stretches. -/
abbrev W3 (c : Dev nD) : Valuation τ sig (Elt F) := Gen.V3 m c
/-- At region 0's exit: its windows' arrays at what the pipeline leaves (an input as entered, the output's write-backs
    folded), every other buffer as entered. -/
def W4 (c : Dev nD) : Valuation τ sig (Elt F) :=
  Pipeline.withArrays spec0 c (W3 m c) fun w => (dat0 (Vat (W3 m)) c).arrAt w cfg0.N
/-- After the host stretch between the regions: region 1's entry. -/
def W5 (c : Dev nD) : Valuation τ sig (Elt F) := StableHlo.after hostOps1 (W4 m c)
/-- At region 1's exit: its windows' arrays at what the pipeline leaves, every other buffer as entered. -/
def W6 (c : Dev nD) : Valuation τ sig (Elt F) :=
  Pipeline.withArrays spec1 c (W5 m c) fun w => (dat1 (Vat (W5 m)) c).arrAt w cfg1.N
/-- After the last host stretch: what @main returns with. -/
def W7 (c : Dev nD) : Valuation τ sig (Elt F) := StableHlo.after hostOps2 (W6 m c)

theorem W4_arr (c : Dev nD) (w : Fin cfg0.W) :
    W4 m c (Proc.devRef .tc (Pipeline.arrRef spec0 w)) = (dat0 (Vat (W3 m)) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (Vat (W5 m)) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb

/-- At region 0's exit each of its arrays holds what the pipeline leaves, and every other buffer what it held at entry. -/
theorem hF0 (c : Dev nD) (w : Fin cfg0.W) : (dat0 (Vat (W3 m)) c).arrAt w cfg0.N = Vat (W4 m) c (Pipeline.arrRef spec0 w) :=
  (W4_arr m c w).symm
theorem hrest0 (c : Dev nD) : ∀ b, b ∉ Finset.univ.image (Pipeline.arrRef spec0) → Vat (W4 m) c b = Vat (W3 m) c b :=
  fun b hb => W4_of_ne m c b fun w e => hb (Finset.mem_image.mpr ⟨w, Finset.mem_univ _, e⟩)
/-- The same at region 1's exit. -/
theorem hF1 (c : Dev nD) (w : Fin cfg1.W) : (dat1 (Vat (W5 m)) c).arrAt w cfg1.N = Vat (W6 m) c (Pipeline.arrRef spec1 w) :=
  (W6_arr m c w).symm
theorem hrest1 (c : Dev nD) : ∀ b, b ∉ Finset.univ.image (Pipeline.arrRef spec1) → Vat (W6 m) c b = Vat (W5 m) c b :=
  fun b hb => W6_of_ne m c b fun w e => hb (Finset.mem_image.mpr ⟨w, Finset.mem_univ _, e⟩)

/-- A host stretch keeps every buffer it does not write. -/
theorem W5_of (c : Dev nD) (r : Ref sig .tc) (h : r ∉ hostOps1_W) : W5 m c (Proc.devRef .tc r) = W4 m c (Proc.devRef .tc r) := by
  unfold W5; exact StableHlo.after_of_writes_sub hostOps1 _ hostOps1_writes h
theorem W7_of (c : Dev nD) (r : Ref sig .tc) (h : r ∉ hostOps2_W) : W7 m c (Proc.devRef .tc r) = W6 m c (Proc.devRef .tc r) := by
  unfold W7; exact StableHlo.after_of_writes_sub hostOps2 _ hostOps2_writes h
/-- The first three host stretches write no argument: region 0 finds an argument as launched. -/
theorem W3_of (c : Dev nD) (r : Ref sig .tc) (h0 : r ∉ hostOps0_W) (h1 : r ∉ hostOps0_1_W) (h2 : r ∉ hostOps0_2_W) :
    W3 m c (Proc.devRef .tc r) = m ((c : Thread nD τ).loc r) :=
  (V3_of m c r h2).trans <| (V2_of m c r h1).trans <| (V1_of m c r h0).trans rfl

/-! ### The arguments end as launched: no host operation writes one, and a region reads it through an input window or
    does not touch it, so the fold at an argument's buffer walks back to the launch memory -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = m ((c : Thread nD τ).loc main_arg0) := W3_of m c main_arg0 (by decide) (by decide) (by decide)
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = m ((c : Thread nD τ).loc main_arg1) := W3_of m c main_arg1 (by decide) (by decide) (by decide)
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = m ((c : Thread nD τ).loc main_arg2) := W3_of m c main_arg2 (by decide) (by decide) (by decide)
/-- The fourth argument is region 0's third window's array, an input: the region leaves it as entered. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) :=
        (W4_arr m c 2).trans (((dat0 (Vat (W3 m)) c).arrAt_in 2 rfl _).trans (A_eq0 (Vat (W3 m)) c 2))
    _ = m ((c : Thread nD τ).loc main_arg3) := W3_of m c main_arg3 (by decide) (by decide) (by decide)
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = m ((c : Thread nD τ).loc main_arg4) := W3_of m c main_arg4 (by decide) (by decide) (by decide)
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_of_ne m c main_arg5 (by decide)
    _ = m ((c : Thread nD τ).loc main_arg5) := W3_of m c main_arg5 (by decide) (by decide) (by decide)

/-! ## The proof data family and the thread state -/

/-- Both pipelines' proof data, each at its region's entry contents — a literal match on the pipeline's index, so that
    the configuration pinned at a numeral reduces to the printed one. -/
def pdats : (p : Fin 2) → (c : Dev nD) → Dat τ (Elt F) Unit ℕ (Pipeline.UD sig nD τ) ℕ (Pipeline.pin (pcfgs (F := F)) adm p) c
  | ⟨0, _⟩ => fun c => dat0 (Vat (W3 m)) c
  | ⟨1, _⟩ => fun c => dat1 (Vat (W5 m)) c
abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every segment: the core's generator register at some state (a region's
    invariant takes it in and gives it back) and what the core owes, nothing. -/
abbrev Ride (c : Dev nD) : sProp 𝕄 := iprop((∃ r, prngReg c r) ∗ ∃ W, owes (c : Thread nD τ) (0 : CellTallies nD τ sig Unit) W)
/-- A host stretch as a segment: its operations over the unscoped references from the contents `W`, `Ride` beside
    them; it leaves those references at what the operations make of `W c` — the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes (the chain ends at it beside the core owing nothing): every
    unscoped buffer at the last boundary's contents, the generator register at some state. -/
abbrev Tₙ (c : Dev nD) : sProp 𝕄 := iprop(StableHlo.held (c : Thread nD τ) (Pipeline.ucRefs τ sig) (W7 m c) ∗ ∃ r, prngReg c r)

/-- The last host stretch's exit state is the last thread state beside the core owing nothing. -/
theorem ride_end (c : Dev nD) :
    iprop(StableHlo.held (c : Thread nD τ) (Pipeline.ucRefs τ sig) (W7 m c) ∗ Ride c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as segments -/

set_option backward.isDefEq.respectTransparency.types false in
/-- REGION 0 over the thread state: entered from every unscoped buffer at `W3`, left at `W4`. Its arrays are split out
    of the unscoped buffers and put back at the exit contents; the generator register goes into the invariant and comes
    back (the invariant's last point forgets what the carried scratch holds); nothing owed; the kernel has no semaphore
    of its own. -/
def reg0 : Pipeline.RegionSeg (pcfgs (F := F)) adm (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (Vat (W3 m)) c).loose
  hwaits := Pipeline.hwaits_of_owed_zero _ _ _ _ L₀ lv₀ 0 fun _ _ => rfl
  pre c := iprop(StableHlo.held (c : Thread nD τ) (Pipeline.ucRefs τ sig) (W3 m c) ∗ Ride c)
  post c := iprop(StableHlo.held (c : Thread nD τ) (Pipeline.ucRefs τ sig) (W4 m c) ∗ Ride c)
  X c := iprop(∃ r, prngReg c r)
  Y c := iprop(∃ r, prngReg c r)
  Z c := Pipeline.unscopedRest (Ix := Unit) (Name := ℕ) (U := Pipeline.UD sig nD τ) (Lvl := ℕ) spec0 c (Vat (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vat (W3 m) c) fun w => A_eq0 (Vat (W3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_zero (Vat (W3 m)) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (Vat (W3 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vat (W3 m) c) (Vat (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`; as region 0. -/
def reg1 : Pipeline.RegionSeg (pcfgs (F := F)) adm (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (Vat (W5 m)) c).loose
  hwaits := Pipeline.hwaits_of_owed_zero _ _ _ _ L₀ lv₀ 1 fun _ _ => rfl
  pre c := iprop(StableHlo.held (c : Thread nD τ) (Pipeline.ucRefs τ sig) (W5 m c) ∗ Ride c)
  post c := iprop(StableHlo.held (c : Thread nD τ) (Pipeline.ucRefs τ sig) (W6 m c) ∗ Ride c)
  X c := iprop(∃ r, prngReg c r)
  Y c := iprop(∃ r, prngReg c r)
  Z c := Pipeline.unscopedRest (Ix := Unit) (Name := ℕ) (U := Pipeline.UD sig nD τ) (Lvl := ℕ) spec1 c (Vat (W5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vat (W5 m) c) fun w => A_eq1 (Vat (W5 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_zero (Vat (W5 m)) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (Vat (W5 m)) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vat (W5 m) c) (Vat (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per stretch from its boundary's contents, a region per kernel. -/
abbrev mainSegs : List (Pipeline.Seg (pcfgs (F := F)) adm (pdats m) () defs₀ 𝒱₀ L₀ lv₀) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .host (hseg hostOps1 hostOps1_sub hostOps1_fresh (W4 m)),
    .region (reg1 m),
    .host (hseg hostOps2 hostOps2_sub hostOps2_fresh (W6 m)) ]

variable (ρ : Dev nD → PrngReg)

set_option backward.isDefEq.respectTransparency.types false in
/-- THE RUN. From any memory with zero counters, every weakly fair execution of @main on the TensorCores terminates,
    nothing faulting, and the final memory holds every unscoped buffer at the last boundary's contents `W7`: the
    launch over the seven segments, each entered from what the one before it left, the last thread state read against
    the final state. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj embL defs₀ 𝒱₀ L₀ lv₀ m ρ main (mainSegs m)
    (fun c Q => by
      rewrite [main_chain c, Pipeline.Seg.run_eq_chain,
        show (mainSegs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride c)) (Tₙ := Tₙ m)
    (hch := ⟨fun _ => .rfl, fun _ => .rfl, fun _ => .rfl, fun _ => .rfl, fun _ => .rfl, fun _ => .rfl, fun _ => .rfl,
      fun c => ride_end m c⟩)
    (hinit := by
      refine Pipeline.initEach L₀ lv₀ fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME, at any float family: every argument array ends as launched — the run's final contents read at each
    argument's buffer, walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_main m ρ)

end Cert.Kernel.Hand

end
-- ==== Proof.KernelIdeal.R0Runs.lean ====
/- Region 0 of the program: what the three runs of its kernel body and its frame share — each window's block at a
   grid point read off the contents the region is entered with, the body's two branch conditions in closed form
   over the grid, where the output window is idle, the staging and scratch memrefs, and the region invariant with
   the carried scratch named. -/
import proofs.«411342_j57234734186920_3_alg».proof.Proof.Gen.KernelIdeal.Launch
import proofs.«411342_j57234734186920_3_alg».proof.Proof.Gen.KernelIdeal.Skeleton
import proofs.«411342_j57234734186920_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is the entry contents and whose body leaves the
    block in place. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The body's branch conditions -/

/-- The condition of the body's first `scf.if` (the reduction step is the first), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 4): decided over the grid. -/
theorem hcond0_0 : ∀ t : Fin cfg0.N, cond0_0 (grid0.coords t) ↔ t.val % 4 = 0 :=
  (by decide +kernel : ∀ t : Fin grid0.N, cond0_0 (grid0.coords t) ↔ t.val % 4 = 0)

/-- The condition of the body's second `scf.if` (the reduction step is the last). -/
abbrev cond0_1 (i : grid0.Coords) : Prop := k0_cond2 i = 1#1
/-- It holds at the points ≡ 3 (mod 4): decided over the grid. -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- At the first reduction step the output window is idle, -/
theorem idleAt0_4_A : ∀ t : Fin cfg0.N, cond0_0 (grid0.coords t) → ¬cond0_1 (grid0.coords t) → cfg0.idle 4 (grid0.coords t) = true := by decide +kernel
/-- and its block is not written back. -/
theorem noFlush0_4_A : ∀ t : Fin cfg0.N, cond0_0 (grid0.coords t) → ¬cond0_1 (grid0.coords t) → (cfg0.win 4).flush t = false := by decide +kernel
/-- At the middle reduction steps the output window is idle, -/
theorem idleAt0_4_B : ∀ t : Fin cfg0.N, ¬cond0_0 (grid0.coords t) → ¬cond0_1 (grid0.coords t) → cfg0.idle 4 (grid0.coords t) = true := by decide +kernel
/-- and its block is not written back. -/
theorem noFlush0_4_B : ∀ t : Fin cfg0.N, ¬cond0_0 (grid0.coords t) → ¬cond0_1 (grid0.coords t) → (cfg0.win 4).flush t = false := by decide +kernel
/-- At the last reduction step the output window is live: the body stores into it. -/
theorem liveAt0_4_C : ∀ t : Fin cfg0.N, ¬cond0_0 (grid0.coords t) → cond0_1 (grid0.coords t) → cfg0.idle 4 (grid0.coords t) = false := by decide +kernel

/-! ## The memrefs the body runs on -/

/-- One staging buffer of the output window, through which its contents are stated. -/
abbrev VO0_4 : View sig .tc .vmem S2560x128 .bf16 := (Memref.whole cc0_stg4_0 : Memref sig .tc .vmem S2560x128 .bf16).view
/-- Each window's current staging memref at point `t`, spelled as the pipeline passes it, and its wholeness. -/
abbrev ms0_0 (t : Fin cfg0.N) : Memref sig .tc .vmem S2560x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2560x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2560x128 .bf16 := win0_4.stage (cfg0.slots t 4)
abbrev hs0_4 (t : Fin cfg0.N) : (ms0_4 t).IsWhole := hstage0_4 ((cfg0.slots t 4).cast nbuf0_4)
/-- The scratch operand: a whole scoped buffer of the kernel's own, passed beside the windows. -/
abbrev scM0_0 : Memref sig .tc .vmem S2560x128 .f32 := Memref.whole cc0_scratch0
/-- The scratch the kernel carries between points, as a view: what it holds is stated through it. -/
abbrev VS0_0 : View sig .tc .vmem S2560x128 .f32 := scM0_0.view

/-- The core's scoped buffers that are neither a staging buffer of this region nor its scratch (the other region's
    staging buffers and scratch), each whole at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- The region invariant with the scratch operand as a memref owned at some contents: what the body obligation hands
    the run and takes back. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.KernelIdeal.Hand

end
-- ==== Proof.KernelIdeal.R0RunA.lean ====
/- Region 0 of the program: the run of its kernel body at the FIRST reduction step (the first `scf.if` taken, the
   second not): the body's triple on any whole staging memrefs, the pieces its stores leave in the scratch being the
   witness the run finds. -/
import proofs.«411342_j57234734186920_3_alg».proof.Proof.KernelIdeal.R0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- Case A (reduction step 0). On whole memrefs — the four inputs' at their contents `x·`, the output's (idle here: no
    store) at contents `xi4` handed back untouched, the scratch at anything — the body runs to the continuation
    holding the inputs' and the output's as they were and the scratch with its pieces `LS0` written. -/
noncomputable def kernelRun0_A (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : cond0_0 i) (hc1 : ¬cond0_1 i)
    (x0 : Vec F S2560x2560 .bf16) (x1 : Vec F S2560x128 .bf16) (x2 : Vec F S128 .f32) (x3 : Vec F S128x128 .bf16) :
    Σ' (L4 : List (View.Piece (Elt F) S2560x128 .bf16)), { LS0 : List (View.Piece (Elt F) S2560x128 .f32) //
      ∀ (xi4 : Vec F S2560x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__agg_fused_kernel i arg2 harg2 arg3 harg3 arg4 harg4 arg5 harg5 arg6 harg6 arg7 harg7) K } := by
  refine ⟨[], ?_, fun xi4 E K => ?run⟩
  case run =>
    simp only [cc0__agg_fused_kernel_eq_skeleton]; unfold cc0__agg_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KernelIdeal.R0RunB.lean ====
/- Region 0 of the program: the run of its kernel body at a MIDDLE reduction step (neither `scf.if` taken): the
   body's triple on any whole staging memrefs, the scratch entered at the contents the step before left. -/
import proofs.«411342_j57234734186920_3_alg».proof.Proof.KernelIdeal.R0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- Case B (reduction steps 1, 2). On whole memrefs — the four inputs' at their contents `x·`, the output's (idle here)
    at contents `xi4` handed back untouched, the carried scratch at the contents `xs0` the step before left — the body
    runs to the continuation holding the inputs' and the output's as they were and the scratch with its pieces written. -/
noncomputable def kernelRun0_B (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : ¬cond0_1 i)
    (x0 : Vec F S2560x2560 .bf16) (x1 : Vec F S2560x128 .bf16) (x2 : Vec F S128 .f32) (x3 : Vec F S128x128 .bf16) (xs0 : Vec F S2560x128 .f32) :
    Σ' (L4 : List (View.Piece (Elt F) S2560x128 .bf16)), { LS0 : List (View.Piece (Elt F) S2560x128 .f32) //
      ∀ (xi4 : Vec F S2560x128 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__agg_fused_kernel i arg2 harg2 arg3 harg3 arg4 harg4 arg5 harg5 arg6 harg6 arg7 harg7) K } := by
  refine ⟨[], ?_, fun xi4 E K => ?run⟩
  case run =>
    simp only [cc0__agg_fused_kernel_eq_skeleton]; unfold cc0__agg_fused_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Hand

end
-- ==== Proof.KernelIdeal.R0RunC.lean ====
/- Region 0 of the program: the run of its kernel body at the LAST reduction step (the first `scf.if` not taken, the
   second taken): the body's triple on any whole staging memrefs, the scratch entered at the contents the step before
   left, the output's buffer ending with the epilogue's pieces. -/
import proofs.«411342_j57234734186920_3_alg».proof.Proof.KernelIdeal.R0RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- Case C (reduction step 3). On whole memrefs — the four inputs' at their contents `x·`, the output's at anything,
    the carried scratch at the contents `xs0` the step before left — the body runs to the continuation holding the
    inputs' as they were, the output's buffer with its pieces `L4` written and the scratch with its pieces written. -/
noncomputable def kernelRun0_C (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : cond0_1 i)
    (x0 : Vec F S2560x2560 .bf16) (x1 : Vec F S2560x128 .bf16) (x2 : Vec F S128 .f32) (x3 : Vec F S128x128 .bf16) (xs0 : Vec F S2560x128 .f32) :
    Σ' (L4 : List (View.Piece (Elt F) S2560x128 .bf16)), { LS0 : List (View.Piece (Elt F) S2560x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__agg_fused_kernel i arg2 harg2 arg3 harg3 arg4 harg4 arg5 harg5 arg6 harg6 arg7 harg7) K } := by
  refine ⟨?_, ?_, fun E K => ?run⟩
  case run =>
    simp only [cc0__agg_fused_kernel_eq_skeleton]; unfold cc0__agg_fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Hand

end
-- ==== Proof.KernelIdeal.R0Frame.lean ====
/- Region 0 of the program: its FRAME. What each case of the kernel body leaves in the output window's staging buffer
   and in the carried scratch (the pieces the runs found, with their covers), the same point by point along the grid
   (a recursion on the point: the scratch enters each reduction step at what the step before left), the pipeline's proof
   data at the contents the region is entered with, the body obligation at every point, and the invariant's two ends. -/
import proofs.«411342_j57234734186920_3_alg».proof.Proof.KernelIdeal.R0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What each case leaves -/

/-- Case A stores nothing into the output window (idle at its points and not written back there): a placeholder
    nothing consults. -/
def out0_A_4 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : cond0_0 i) (hc1 : ¬cond0_1 i)
    (x0 : Vec F S2560x2560 .bf16) (x1 : Vec F S2560x128 .bf16) (x2 : Vec F S128 .f32) (x3 : Vec F S128x128 .bf16) : Vec F S2560x128 .bf16 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's pieces for the carried scratch tile it, so they cover it. -/
theorem scover0_A_0 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : cond0_0 i) (hc1 : ¬cond0_1 i)
    (x0 : Vec F S2560x2560 .bf16) (x1 : Vec F S2560x128 .bf16) (x2 : Vec F S128 .f32) (x3 : Vec F S128x128 .bf16) (y : S2560x128.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S2560x128.size (by sl_kernel_rfl) y

/-- What case A leaves in the carried scratch: its pieces read back. -/
def sout0_A_0 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : cond0_0 i) (hc1 : ¬cond0_1 i)
    (x0 : Vec F S2560x2560 .bf16) (x1 : Vec F S2560x128 .bf16) (x2 : Vec F S128 .f32) (x3 : Vec F S128x128 .bf16) : Vec F S2560x128 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the output window (idle at its points and not written back there): a placeholder
    nothing consults. -/
def out0_B_4 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : ¬cond0_1 i)
    (x0 : Vec F S2560x2560 .bf16) (x1 : Vec F S2560x128 .bf16) (x2 : Vec F S128 .f32) (x3 : Vec F S128x128 .bf16) (xs0 : Vec F S2560x128 .f32) : Vec F S2560x128 .bf16 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

/-- Case B's pieces for the carried scratch tile it, so they cover it. -/
theorem scover0_B_0 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : ¬cond0_1 i)
    (x0 : Vec F S2560x2560 .bf16) (x1 : Vec F S2560x128 .bf16) (x2 : Vec F S128 .f32) (x3 : Vec F S128x128 .bf16) (xs0 : Vec F S2560x128 .f32) (y : S2560x128.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S2560x128.size (by sl_kernel_rfl) y

/-- What case B leaves in the carried scratch: its pieces read back. -/
def sout0_B_0 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : ¬cond0_1 i)
    (x0 : Vec F S2560x2560 .bf16) (x1 : Vec F S2560x128 .bf16) (x2 : Vec F S128 .f32) (x3 : Vec F S128x128 .bf16) (xs0 : Vec F S2560x128 .f32) : Vec F S2560x128 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's pieces for the output window tile its block, so they cover it. -/
theorem cover0_C_4 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : cond0_1 i)
    (x0 : Vec F S2560x2560 .bf16) (x1 : Vec F S2560x128 .bf16) (x2 : Vec F S128 .f32) (x3 : Vec F S128x128 .bf16) (xs0 : Vec F S2560x128 .f32) (y : S2560x128.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S2560x128.size (by sl_kernel_rfl) y

/-- What case C leaves in the output window's staging buffer: its pieces read back. -/
def out0_C_4 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : cond0_1 i)
    (x0 : Vec F S2560x2560 .bf16) (x1 : Vec F S2560x128 .bf16) (x2 : Vec F S128 .f32) (x3 : Vec F S128x128 .bf16) (xs0 : Vec F S2560x128 .f32) : Vec F S2560x128 .bf16 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- Case C's pieces for the carried scratch tile it, so they cover it. -/
theorem scover0_C_0 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : cond0_1 i)
    (x0 : Vec F S2560x2560 .bf16) (x1 : Vec F S2560x128 .bf16) (x2 : Vec F S128 .f32) (x3 : Vec F S128x128 .bf16) (xs0 : Vec F S2560x128 .f32) (y : S2560x128.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S2560x128.size (by sl_kernel_rfl) y

/-- What case C leaves in the carried scratch: its pieces read back. -/
def sout0_C_0 (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : cond0_1 i)
    (x0 : Vec F S2560x2560 .bf16) (x1 : Vec F S2560x128 .bf16) (x2 : Vec F S128 .f32) (x3 : Vec F S128x128 .bf16) (xs0 : Vec F S2560x128 .f32) : Vec F S2560x128 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

section Region0
-- the TensorCore's buffer contents when the region is entered
variable (V : (c : Dev nD) → (b : Ref sig .tc) → Buf (Elt F) ((c : Thread nD τ).loc b))

/-! ## What the output's buffer and the scratch hold after each point -/

/-- THE ACCUMULATION. What the output window's staging buffer and the carried scratch hold after the body at position
    `n`: the case the closed forms select there, run at the point's memrefs and input blocks, the scratch entered at
    what position `n - 1` left. -/
def outsAt0 (c : Dev nD) : (n : ℕ) → n < cfg0.N → Vec F S2560x128 .bf16 × Vec F S2560x128 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 4 = 0 then
      if h1 : (n + 1) % 4 = 3 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 4 = 3 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` at a point of case A: that case's contents. -/
theorem outsAt0_A (c : Dev nD) (t : Fin cfg0.N) (h0 : t.val % 4 = 0) (h1 : ¬t.val % 4 = 3) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at a point of case B: that case's contents, over what the point before left in the scratch. -/
theorem outsAt0_B (c : Dev nD) (t : Fin cfg0.N) (h0 : ¬t.val % 4 = 0) (h1 : ¬t.val % 4 = 3) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left in the scratch. -/
theorem outsAt0_C (c : Dev nD) (t : Fin cfg0.N) (h0 : ¬t.val % 4 = 0) (h1 : t.val % 4 = 3) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer that is no staging
    buffer at anything, the generator register at some state); afterwards the same with the carried scratch at what the
    point before left in it. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2) ∗ rest0 (F := F) c) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of pipeline 0 on core `c`: the arrays as the region finds them; after the body at point `t` each
    input's buffer at its block and the output's at `outsAt0`; the invariant `PhiS0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' memrefs hold their blocks; the closed forms say which case the point is in; the
    invariant hands the body the carried scratch at what the point before left (at anything at the first point) and
    takes it back at this point's contents; the other scoped buffers, the generator register and the core's dues pass
    through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 4 = 0
  · by_cases h1 : t.val % 4 = 3
    · exfalso; omega
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4
  · by_cases h1 : t.val % 4 = 3
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover0_C_4 c _ _ _ _ _ _ _ _ _ _ _ _ _ _ _ _ _ _ _ _)
    ·
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The invariant before the first point is what the launch hands the region. -/
theorem Phi0_zero (c : Dev nD) : (dat0 V c).Φ 0 = Pipeline.ΦA spec0 c := by
  rw [show (dat0 V c).Φ 0 = PhiS0 V c 0 (Nat.zero_le _) from rfl, PhiS0_zero V c 0 _ rfl]

/-- After any point but the first the invariant gives the class's back: the carried scratch's named contents are forgotten. -/
theorem Phi0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem Phi0_last (c : Dev nD) : (dat0 V c).Φ (Fin.last cfg0.N) ⊢ Pipeline.ΦA spec0 c :=
  Phi0_out V c _ (by rw [Fin.val_last]; have : cfg0.N = 16 := N_0; omega)

end Region0

end Cert.KernelIdeal.Hand

end
-- ==== Proof.KernelIdeal.R1Runs.lean ====
/- Region 1 of the program (the aggregation kernel with a carried accumulator): what the three runs of its
   body share. The windows' blocks read off the region-entry contents, the body's two branch conditions in
   closed form over the grid, where the output window is idle, the staging and scratch memrefs, and the
   region invariant spelled conjunct by conjunct. -/
import proofs.«411342_j57234734186920_3_alg».proof.Proof.Gen.KernelIdeal.Launch
import proofs.«411342_j57234734186920_3_alg».proof.Proof.Gen.KernelIdeal.Skeleton
import proofs.«411342_j57234734186920_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for input window 1. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for input window 2 (fetched at the first point only: its block index never moves). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the reduction step is the first one), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- The condition of the body's second conditional (the reduction step is the last one). -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first reduction step the output window is idle: nothing is stored into it. -/
theorem idleAt1_3_A : ∀ t : Fin cfg1.N, cond1_0 (grid1.coords t) → ¬cond1_1 (grid1.coords t) → cfg1.idle 3 (grid1.coords t) = true := by decide +kernel
/-- and its block is not written back there. -/
theorem noFlush1_3_A : ∀ t : Fin cfg1.N, cond1_0 (grid1.coords t) → ¬cond1_1 (grid1.coords t) → (cfg1.win 3).flush t = false := by decide +kernel
/-- At the middle reduction steps the output window is idle, -/
theorem idleAt1_3_B : ∀ t : Fin cfg1.N, ¬cond1_0 (grid1.coords t) → ¬cond1_1 (grid1.coords t) → cfg1.idle 3 (grid1.coords t) = true := by decide +kernel
/-- and its block is not written back there. -/
theorem noFlush1_3_B : ∀ t : Fin cfg1.N, ¬cond1_0 (grid1.coords t) → ¬cond1_1 (grid1.coords t) → (cfg1.win 3).flush t = false := by decide +kernel
/-- At the last reduction step the output window is live: the body stores into it. -/
theorem liveAt1_3_C : ∀ t : Fin cfg1.N, ¬cond1_0 (grid1.coords t) → cond1_1 (grid1.coords t) → cfg1.idle 3 (grid1.coords t) = false := by decide +kernel

/-! ## The staging and scratch memrefs -/

/-- One staging buffer of output window 3, through which its contents are stated. -/
abbrev VO1_3 : View sig .tc .vmem S2560x128 .f32 := (Memref.whole cc1_stg3_0 : Memref sig .tc .vmem S2560x128 .f32).view
/-- Each window's current staging memref at point `t`, spelled as the pipeline passes it, and its wholeness. -/
abbrev ms1_0 (t : Fin cfg1.N) : Memref sig .tc .vmem S2560x2560 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2560x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2560x128 .f32 := win1_3.stage (cfg1.slots t 3)
abbrev hs1_3 (t : Fin cfg1.N) : (ms1_3 t).IsWhole := hstage1_3 ((cfg1.slots t 3).cast nbuf1_3)
/-- The scratch operand: a whole scoped buffer of the kernel's own, passed beside the windows. -/
abbrev scM1_0 : Memref sig .tc .vmem S2560x128 .f32 := Memref.whole cc1_scratch0
/-- The scratch the kernel carries between points, as a view. -/
abbrev VS1_0 : View sig .tc .vmem S2560x128 .f32 := scM1_0.view

/-- The core's scoped buffers that the region never touches (the other region's staging buffers and scratch), each whole
    at some contents. -/
abbrev Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f))

/-- The region invariant before the first point, conjunct by conjunct: the untouched scoped buffers, the scratch operand
    owned at some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.KernelIdeal.R1RunA.lean ====
/- Region 1, the body's run at the first reduction step: the accumulator is zeroed, then accumulated into; the
   output window is left untouched. -/
import proofs.«411342_j57234734186920_3_alg».proof.Proof.KernelIdeal.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- What the body's stores leave in the output's staging memref and in the scratch, as pieces (last first), at the first
    reduction step (first conditional taken, second not), with the proof that on whole memrefs — the inputs' at their
    contents, the idle output's at contents handed back untouched, the scratch at anything — the body runs to the
    continuation holding the inputs' and the output's as they were and the scratch with its pieces written. -/
noncomputable def kernelRun1_A (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : cond1_0 i) (hc1 : ¬cond1_1 i)
    (x0 : Vec F S2560x2560 .bf16) (x1 : Vec F S2560x128 .bf16) (x2 : Vec F S128 .f32) :
    Σ' (L3 : List (View.Piece (Elt F) S2560x128 .f32)), { LS0 : List (View.Piece (Elt F) S2560x128 .f32) //
      ∀ (xi3 : Vec F S2560x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdeal.R1RunB.lean ====
/- Region 1, the body's run at a middle reduction step: the accumulator the step before left is accumulated into;
   the output window is left untouched. -/
import proofs.«411342_j57234734186920_3_alg».proof.Proof.KernelIdeal.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- The pieces and the run at a middle reduction step (neither conditional taken): the scratch goes in at the contents
    `xs0` the point before left and comes back with its pieces written; the idle output is handed back untouched. -/
noncomputable def kernelRun1_B (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : ¬cond1_1 i)
    (x0 : Vec F S2560x2560 .bf16) (x1 : Vec F S2560x128 .bf16) (x2 : Vec F S128 .f32) (xs0 : Vec F S2560x128 .f32) :
    Σ' (L3 : List (View.Piece (Elt F) S2560x128 .f32)), { LS0 : List (View.Piece (Elt F) S2560x128 .f32) //
      ∀ (xi3 : Vec F S2560x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨[], ?_, fun xi3 E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdeal.R1RunC.lean ====
/- Region 1, the body's run at the last reduction step: the accumulator the step before left is accumulated into,
   then the epilogue is computed from it and stored into the output window. -/
import proofs.«411342_j57234734186920_3_alg».proof.Proof.KernelIdeal.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

set_option maxHeartbeats 4000000 in
/-- The pieces and the run at the last reduction step (first conditional not taken, second taken): the scratch goes in
    at the contents `xs0` the point before left; the output's buffer goes in at anything and comes back with its pieces
    written, as does the scratch. -/
noncomputable def kernelRun1_C (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : cond1_1 i)
    (x0 : Vec F S2560x2560 .bf16) (x1 : Vec F S2560x128 .bf16) (x2 : Vec F S128 .f32) (xs0 : Vec F S2560x128 .f32) :
    Σ' (L3 : List (View.Piece (Elt F) S2560x128 .f32)), { LS0 : List (View.Piece (Elt F) S2560x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__agg_kernel i arg2 harg2 arg3 harg3 arg4 harg4 arg5 harg5 arg6 harg6) K } := by
  refine ⟨?_, ?_, fun E K => ?run⟩
  case run =>
    simp only [cc1__agg_kernel_eq_skeleton]; unfold cc1__agg_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KernelIdeal.R1Frame.lean ====
/- Region 1: what each case of the body leaves in the output's buffer and in the carried scratch, point by point;
   the proof data of its pipeline; the body obligation; the invariant at the first and after the last point. -/
import proofs.«411342_j57234734186920_3_alg».proof.Proof.KernelIdeal.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
/-- Case A stores nothing into the output's buffer (the window is idle at its points and not written back there):
    no pieces, a placeholder that nothing consults. -/
def out1_A_3 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : cond1_0 i) (hc1 : ¬cond1_1 i)
    (x0 : Vec F S2560x2560 .bf16) (x1 : Vec F S2560x128 .bf16) (x2 : Vec F S128 .f32) : Vec F S2560x128 .f32 :=
  VO1_3.read (Elt F) (VO1_3.writes (Elt F) VO1_3.junk (kernelRun1_A c i arg2 harg2 arg3 harg3 arg4 harg4 arg5 harg5 arg6 harg6 hc0 hc1 x0 x1 x2).1)

/-- Case A's pieces for the carried scratch cover it. -/
theorem scover1_A_0 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : cond1_0 i) (hc1 : ¬cond1_1 i)
    (x0 : Vec F S2560x2560 .bf16) (x1 : Vec F S2560x128 .bf16) (x2 : Vec F S128 .f32) (y : S2560x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2560x128.size (by sl_kernel_rfl) y

/-- What case A leaves in the carried scratch: its pieces read back over junk. -/
def sout1_A_0 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : cond1_0 i) (hc1 : ¬cond1_1 i)
    (x0 : Vec F S2560x2560 .bf16) (x1 : Vec F S2560x128 .bf16) (x2 : Vec F S128 .f32) : Vec F S2560x128 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output's buffer (the window is idle at its points and not written back there):
    no pieces, a placeholder that nothing consults. -/
def out1_B_3 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : ¬cond1_1 i)
    (x0 : Vec F S2560x2560 .bf16) (x1 : Vec F S2560x128 .bf16) (x2 : Vec F S128 .f32) (xs0 : Vec F S2560x128 .f32) : Vec F S2560x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for the carried scratch cover it. -/
theorem scover1_B_0 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : ¬cond1_1 i)
    (x0 : Vec F S2560x2560 .bf16) (x1 : Vec F S2560x128 .bf16) (x2 : Vec F S128 .f32) (xs0 : Vec F S2560x128 .f32) (y : S2560x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2560x128.size (by sl_kernel_rfl) y

/-- What case B leaves in the carried scratch: its pieces read back over junk. -/
def sout1_B_0 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : ¬cond1_1 i)
    (x0 : Vec F S2560x2560 .bf16) (x1 : Vec F S2560x128 .bf16) (x2 : Vec F S128 .f32) (xs0 : Vec F S2560x128 .f32) : Vec F S2560x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- The pieces case C stores into the output's buffer tile its block, so they cover it. -/
theorem cover1_C_3 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : cond1_1 i)
    (x0 : Vec F S2560x2560 .bf16) (x1 : Vec F S2560x128 .bf16) (x2 : Vec F S128 .f32) (xs0 : Vec F S2560x128 .f32) (y : S2560x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2560x128.size (by sl_kernel_rfl) y

/-- What case C leaves in the output's staging buffer: its pieces read back over junk. -/
def out1_C_3 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : cond1_1 i)
    (x0 : Vec F S2560x2560 .bf16) (x1 : Vec F S2560x128 .bf16) (x2 : Vec F S128 .f32) (xs0 : Vec F S2560x128 .f32) : Vec F S2560x128 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for the carried scratch cover it. -/
theorem scover1_C_0 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : cond1_1 i)
    (x0 : Vec F S2560x2560 .bf16) (x1 : Vec F S2560x128 .bf16) (x2 : Vec F S128 .f32) (xs0 : Vec F S2560x128 .f32) (y : S2560x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2560x128.size (by sl_kernel_rfl) y

/-- What case C leaves in the carried scratch: its pieces read back over junk. -/
def sout1_C_0 (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : cond1_1 i)
    (x0 : Vec F S2560x2560 .bf16) (x1 : Vec F S2560x128 .bf16) (x2 : Vec F S128 .f32) (xs0 : Vec F S2560x128 .f32) : Vec F S2560x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the output's buffer and the scratch hold after each point -/

/-- THE ACCUMULATION. What the output's staging buffer and the carried scratch hold after the body at position `n`: the
    case the closed forms select at `n`, run at the point's memrefs and input blocks, the scratch read at what this leaves
    at `n - 1`. An assignment of the conditions no point meets is no case. -/
def outsAt1 (c : Dev nD) : (n : ℕ) → n < cfg1.N → Vec F S2560x128 .f32 × Vec F S2560x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer outside the
    windows at anything); afterwards the same with the carried scratch at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt1`; the invariant `PhiS1`; nothing owed;
    full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; the closed forms say which case the point is in; so that
    case's run applies; the invariant hands the body the carried scratch at what the point before left (at anything at
    the first point) and takes it back at this point's contents; the untouched scoped buffers, the generator register and
    what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HS0 Hg]
        · isplitl [HR0 HR1 HR2 HR3 HR4 HR5 HR6 HR7 HR8 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HR0 HR1 HR2 HR3 HR4 HR5 HR6 HR7 HR8 HS0 Hg]
        · isplitl [HR0 HR1 HR2 HR3 HR4 HR5 HR6 HR7 HR8 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HR0 HR1 HR2 HR3 HR4 HR5 HR6 HR7 HR8 HS0 Hg]
        · isplitl [HR0 HR1 HR2 HR3 HR4 HR5 HR6 HR7 HR8 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HR0, HR1, HR2, HR3, HR4, HR5, HR6, HR7, HR8, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HR0 HR1 HR2 HR3 HR4 HR5 HR6 HR7 HR8 HS0 Hg]
        · isplitl [HR0 HR1 HR2 HR3 HR4 HR5 HR6 HR7 HR8 HS0]
          isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          unfold owns; iexists _; isplitr
          swap; · iexact HS0
          ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_zero (c : Dev nD) : (dat1 V c).Φ 0 = Pipeline.ΦA spec1 c := by
  rw [show (dat1 V c).Φ 0 = PhiS1 V c 0 (Nat.zero_le _) from rfl, PhiS1_zero V c 0 _ rfl]

/-- After any point but the first the invariant gives the class's back: the carried scratch's named contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HS0⟩, Hg⟩
  isplitl [HR0 HR1 HR2 HR3 HR4 HR5 HR6 HR7 HR8 HS0]
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  iexists _; iexact HS0
  iexact Hg

/-- The same after the last point. -/
theorem Phi1_last (c : Dev nD) : (dat1 V c).Φ (Fin.last cfg1.N) ⊢ Pipeline.ΦA spec1 c :=
  Phi1_out V c _ (by rw [Fin.val_last]; have : cfg1.N = 16 := N_1; omega)

end Cert.KernelIdeal.Hand

end
-- ==== Proof.KernelIdeal.Main.lean ====
/- THE RUN OF THE WHOLE PROGRAM. @main is seven segments in order: three stretches of host operations, the first kernel
   region, a host stretch, the second kernel region, a last host stretch. Here: the contents of every unscoped buffer at
   each boundary between two segments, a fold from the launch memory (a host stretch takes the contents to what its
   operations leave; a region takes its windows' arrays to what its write-backs leave and keeps every other buffer);
   each argument array read back through the fold to its launch contents; both pipelines' proof data, each at the
   contents its region is entered with; the two regions as segments over the thread state "every unscoped buffer at the
   boundary's contents, the generator register at some state, nothing owed"; and the run itself: from any memory with
   zero counters every weakly fair execution of @main terminates, nothing faulting, and the final memory holds every
   unscoped buffer at the last boundary's contents — in particular every argument array as launched. -/
import proofs.«411342_j57234734186920_3_alg».proof.Proof.KernelIdeal.R0Frame
import proofs.«411342_j57234734186920_3_alg».proof.Proof.KernelIdeal.R1Frame
import proofs.«411342_j57234734186920_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The buffers' contents at each boundary: a fold through @main -/

/-- A boundary's contents read at the TensorCore's references: what a region's proof data take. -/
abbrev Vat (W : Dev nD → Valuation τ sig (Elt F)) : (c : Dev nD) → (b : Ref sig .tc) → Buf (Elt F) ((c : Thread nD τ).loc b) :=
  fun c b => W c b

/-- Core `c`'s unscoped buffers when region 0 is entered: the launch memory after the first three host stretches. -/
abbrev W3 (c : Dev nD) : Valuation τ sig (Elt F) := Gen.V3 m c
/-- At region 0's exit: its windows' arrays at what the pipeline leaves (an input as entered, the output's write-backs
    folded), every other buffer as entered. -/
def W4 (c : Dev nD) : Valuation τ sig (Elt F) :=
  Pipeline.withArrays spec0 c (W3 m c) fun w => (dat0 (Vat (W3 m)) c).arrAt w cfg0.N
/-- After the host stretch between the regions: region 1's entry. -/
def W5 (c : Dev nD) : Valuation τ sig (Elt F) := StableHlo.after hostOps1 (W4 m c)
/-- At region 1's exit: its windows' arrays at what the pipeline leaves, every other buffer as entered. -/
def W6 (c : Dev nD) : Valuation τ sig (Elt F) :=
  Pipeline.withArrays spec1 c (W5 m c) fun w => (dat1 (Vat (W5 m)) c).arrAt w cfg1.N
/-- After the last host stretch: what @main returns with. -/
def W7 (c : Dev nD) : Valuation τ sig (Elt F) := StableHlo.after hostOps2 (W6 m c)

theorem W4_arr (c : Dev nD) (w : Fin cfg0.W) :
    W4 m c (Proc.devRef .tc (Pipeline.arrRef spec0 w)) = (dat0 (Vat (W3 m)) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
theorem W6_arr (c : Dev nD) (w : Fin cfg1.W) :
    W6 m c (Proc.devRef .tc (Pipeline.arrRef spec1 w)) = (dat1 (Vat (W5 m)) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb

/-- At region 0's exit each of its arrays holds what the pipeline leaves, and every other buffer what it held at entry. -/
theorem hF0 (c : Dev nD) (w : Fin cfg0.W) : (dat0 (Vat (W3 m)) c).arrAt w cfg0.N = Vat (W4 m) c (Pipeline.arrRef spec0 w) :=
  (W4_arr m c w).symm
theorem hrest0 (c : Dev nD) : ∀ b, b ∉ Finset.univ.image (Pipeline.arrRef spec0) → Vat (W4 m) c b = Vat (W3 m) c b :=
  fun b hb => W4_of_ne m c b fun w e => hb (Finset.mem_image.mpr ⟨w, Finset.mem_univ _, e⟩)
/-- The same at region 1's exit. -/
theorem hF1 (c : Dev nD) (w : Fin cfg1.W) : (dat1 (Vat (W5 m)) c).arrAt w cfg1.N = Vat (W6 m) c (Pipeline.arrRef spec1 w) :=
  (W6_arr m c w).symm
theorem hrest1 (c : Dev nD) : ∀ b, b ∉ Finset.univ.image (Pipeline.arrRef spec1) → Vat (W6 m) c b = Vat (W5 m) c b :=
  fun b hb => W6_of_ne m c b fun w e => hb (Finset.mem_image.mpr ⟨w, Finset.mem_univ _, e⟩)

/-- A host stretch keeps every buffer it does not write. -/
theorem W5_of (c : Dev nD) (r : Ref sig .tc) (h : r ∉ hostOps1_W) : W5 m c (Proc.devRef .tc r) = W4 m c (Proc.devRef .tc r) := by
  unfold W5; exact StableHlo.after_of_writes_sub hostOps1 _ hostOps1_writes h
theorem W7_of (c : Dev nD) (r : Ref sig .tc) (h : r ∉ hostOps2_W) : W7 m c (Proc.devRef .tc r) = W6 m c (Proc.devRef .tc r) := by
  unfold W7; exact StableHlo.after_of_writes_sub hostOps2 _ hostOps2_writes h
/-- The first three host stretches write no argument: region 0 finds an argument as launched. -/
theorem W3_of (c : Dev nD) (r : Ref sig .tc) (h0 : r ∉ hostOps0_W) (h1 : r ∉ hostOps0_1_W) (h2 : r ∉ hostOps0_2_W) :
    W3 m c (Proc.devRef .tc r) = m ((c : Thread nD τ).loc r) :=
  (V3_of m c r h2).trans <| (V2_of m c r h1).trans <| (V1_of m c r h0).trans rfl

/-! ### The arguments end as launched: no host operation writes one, and a region reads it through an input window or
    does not touch it, so the fold at an argument's buffer walks back to the launch memory -/

theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of m c main_arg0 (by decide)
    _ = W5 m c (Proc.devRef .tc main_arg0) := W6_of_ne m c main_arg0 (by decide)
    _ = W4 m c (Proc.devRef .tc main_arg0) := W5_of m c main_arg0 (by decide)
    _ = W3 m c (Proc.devRef .tc main_arg0) := W4_of_ne m c main_arg0 (by decide)
    _ = m ((c : Thread nD τ).loc main_arg0) := W3_of m c main_arg0 (by decide) (by decide) (by decide)
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of m c main_arg1 (by decide)
    _ = W5 m c (Proc.devRef .tc main_arg1) := W6_of_ne m c main_arg1 (by decide)
    _ = W4 m c (Proc.devRef .tc main_arg1) := W5_of m c main_arg1 (by decide)
    _ = W3 m c (Proc.devRef .tc main_arg1) := W4_of_ne m c main_arg1 (by decide)
    _ = m ((c : Thread nD τ).loc main_arg1) := W3_of m c main_arg1 (by decide) (by decide) (by decide)
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of m c main_arg2 (by decide)
    _ = W5 m c (Proc.devRef .tc main_arg2) := W6_of_ne m c main_arg2 (by decide)
    _ = W4 m c (Proc.devRef .tc main_arg2) := W5_of m c main_arg2 (by decide)
    _ = W3 m c (Proc.devRef .tc main_arg2) := W4_of_ne m c main_arg2 (by decide)
    _ = m ((c : Thread nD τ).loc main_arg2) := W3_of m c main_arg2 (by decide) (by decide) (by decide)
/-- The fourth argument is region 0's third window's array, an input: the region leaves it as entered. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of m c main_arg3 (by decide)
    _ = W5 m c (Proc.devRef .tc main_arg3) := W6_of_ne m c main_arg3 (by decide)
    _ = W4 m c (Proc.devRef .tc main_arg3) := W5_of m c main_arg3 (by decide)
    _ = W3 m c (Proc.devRef .tc main_arg3) :=
        (W4_arr m c 2).trans (((dat0 (Vat (W3 m)) c).arrAt_in 2 rfl _).trans (A_eq0 (Vat (W3 m)) c 2))
    _ = m ((c : Thread nD τ).loc main_arg3) := W3_of m c main_arg3 (by decide) (by decide) (by decide)
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of m c main_arg4 (by decide)
    _ = W5 m c (Proc.devRef .tc main_arg4) := W6_of_ne m c main_arg4 (by decide)
    _ = W4 m c (Proc.devRef .tc main_arg4) := W5_of m c main_arg4 (by decide)
    _ = W3 m c (Proc.devRef .tc main_arg4) := W4_of_ne m c main_arg4 (by decide)
    _ = m ((c : Thread nD τ).loc main_arg4) := W3_of m c main_arg4 (by decide) (by decide) (by decide)
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of m c main_arg5 (by decide)
    _ = W5 m c (Proc.devRef .tc main_arg5) := W6_of_ne m c main_arg5 (by decide)
    _ = W4 m c (Proc.devRef .tc main_arg5) := W5_of m c main_arg5 (by decide)
    _ = W3 m c (Proc.devRef .tc main_arg5) := W4_of_ne m c main_arg5 (by decide)
    _ = m ((c : Thread nD τ).loc main_arg5) := W3_of m c main_arg5 (by decide) (by decide) (by decide)

/-! ## The proof data family and the thread state -/

/-- Both pipelines' proof data, each at its region's entry contents — a literal match on the pipeline's index, so that
    the configuration pinned at a numeral reduces to the printed one. -/
def pdats : (p : Fin 2) → (c : Dev nD) → Dat τ (Elt F) Unit ℕ (Pipeline.UD sig nD τ) ℕ (Pipeline.pin (pcfgs (F := F)) adm p) c
  | ⟨0, _⟩ => fun c => dat0 (Vat (W3 m)) c
  | ⟨1, _⟩ => fun c => dat1 (Vat (W5 m)) c
abbrev 𝒱₀ : Variants := Variants.none
/-- No core owes another anything: no level is assigned. -/
abbrev L₀ : GSem nD τ sig → Finset Unit := fun _ => ∅
abbrev lv₀ : GSem nD τ sig → Unit → ℕ := fun _ _ => 0
/-- What rides beside the buffers through every segment: the core's generator register at some state (a region's
    invariant takes it in and gives it back) and what the core owes, nothing. -/
abbrev Ride (c : Dev nD) : sProp 𝕄 := iprop((∃ r, prngReg c r) ∗ ∃ W, owes (c : Thread nD τ) (0 : CellTallies nD τ sig Unit) W)
/-- A host stretch as a segment: its operations over the unscoped references from the contents `W`, `Ride` beside
    them; it leaves those references at what the operations make of `W c` — the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes (the chain ends at it beside the core owing nothing): every
    unscoped buffer at the last boundary's contents, the generator register at some state. -/
abbrev Tₙ (c : Dev nD) : sProp 𝕄 := iprop(StableHlo.held (c : Thread nD τ) (Pipeline.ucRefs τ sig) (W7 m c) ∗ ∃ r, prngReg c r)

/-- The last host stretch's exit state is the last thread state beside the core owing nothing. -/
theorem ride_end (c : Dev nD) :
    iprop(StableHlo.held (c : Thread nD τ) (Pipeline.ucRefs τ sig) (W7 m c) ∗ Ride c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as segments -/

set_option backward.isDefEq.respectTransparency.types false in
/-- REGION 0 over the thread state: entered from every unscoped buffer at `W3`, left at `W4`. Its arrays are split out
    of the unscoped buffers and put back at the exit contents; the generator register goes into the invariant and comes
    back (the invariant's last point forgets what the carried scratch holds); nothing owed; the kernel has no semaphore
    of its own. -/
def reg0 : Pipeline.RegionSeg (pcfgs (F := F)) adm (pdats m) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (Vat (W3 m)) c).loose
  hwaits := Pipeline.hwaits_of_owed_zero _ _ _ _ L₀ lv₀ 0 fun _ _ => rfl
  pre c := iprop(StableHlo.held (c : Thread nD τ) (Pipeline.ucRefs τ sig) (W3 m c) ∗ Ride c)
  post c := iprop(StableHlo.held (c : Thread nD τ) (Pipeline.ucRefs τ sig) (W4 m c) ∗ Ride c)
  X c := iprop(∃ r, prngReg c r)
  Y c := iprop(∃ r, prngReg c r)
  Z c := Pipeline.unscopedRest (Ix := Unit) (Name := ℕ) (U := Pipeline.UD sig nD τ) (Lvl := ℕ) spec0 c (Vat (W3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vat (W3 m) c) fun w => A_eq0 (Vat (W3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_zero (Vat (W3 m)) c]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (Vat (W3 m)) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (Vat (W3 m) c) (Vat (W4 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W5`, left at `W6`; as region 0. -/
def reg1 : Pipeline.RegionSeg (pcfgs (F := F)) adm (pdats m) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (Vat (W5 m)) c).loose
  hwaits := Pipeline.hwaits_of_owed_zero _ _ _ _ L₀ lv₀ 1 fun _ _ => rfl
  pre c := iprop(StableHlo.held (c : Thread nD τ) (Pipeline.ucRefs τ sig) (W5 m c) ∗ Ride c)
  post c := iprop(StableHlo.held (c : Thread nD τ) (Pipeline.ucRefs τ sig) (W6 m c) ∗ Ride c)
  X c := iprop(∃ r, prngReg c r)
  Y c := iprop(∃ r, prngReg c r)
  Z c := Pipeline.unscopedRest (Ix := Unit) (Name := ℕ) (U := Pipeline.UD sig nD τ) (Lvl := ℕ) spec1 c (Vat (W5 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vat (W5 m) c) fun w => A_eq1 (Vat (W5 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_zero (Vat (W5 m)) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (Vat (W5 m)) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (Vat (W5 m) c) (Vat (W6 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order: a host segment per stretch from its boundary's contents, a region per kernel. -/
abbrev mainSegs : List (Pipeline.Seg (pcfgs (F := F)) adm (pdats m) () defs₀ 𝒱₀ L₀ lv₀) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .region (reg0 m),
    .host (hseg hostOps1 hostOps1_sub hostOps1_fresh (W4 m)),
    .region (reg1 m),
    .host (hseg hostOps2 hostOps2_sub hostOps2_fresh (W6 m)) ]

variable (ρ : Dev nD → PrngReg)

set_option backward.isDefEq.respectTransparency.types false in
/-- THE RUN. From any memory with zero counters, every weakly fair execution of @main on the TensorCores terminates,
    nothing faulting, and the final memory holds every unscoped buffer at the last boundary's contents `W7`: the
    launch over the seven segments, each entered from what the one before it left, the last thread state read against
    the final state. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W7 m c b) :=
  Pipeline.θ_run_regions_kit (pcfgs (F := F)) adm (pdats m) () cellOf_inj embL defs₀ 𝒱₀ L₀ lv₀ m ρ main (mainSegs m)
    (fun c Q => by
      rewrite [main_chain c, Pipeline.Seg.run_eq_chain,
        show (mainSegs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Ride c)) (Tₙ := Tₙ m)
    (hch := ⟨fun _ => .rfl, fun _ => .rfl, fun _ => .rfl, fun _ => .rfl, fun _ => .rfl, fun _ => .rfl, fun _ => .rfl,
      fun c => ride_end m c⟩)
    (hinit := by
      refine Pipeline.initEach L₀ lv₀ fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

/-- THE FRAME, at any float family: every argument array ends as launched — the run's final contents read at each
    argument's buffer, walked back through the fold. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c),
     (h c _ (mem_uc main_arg4 (by decide))).trans (W7_main_arg4 m c),
     (h c _ (mem_uc main_arg5 (by decide))).trans (W7_main_arg5 m c)⟩) (run_main m ρ)

end Cert.KernelIdeal.Hand

end
-- ==== Proof.HostRead.lean ====
/-
  Host operations of the two programs read at one index, at the extended reals, for the dimension numbers the
  programs use: an accumulating scatter is the operand's element plus the sum of the updates whose start index
  names it; a take is the operand at the start index.
  All stated at any extents, over start indices read as SIGNED integers.
-/
import Idealize.ShloMosaic.PureOps.Ideal
import Idealize.ShloMosaic.Lib.ValueIdx
import Idealize.ShloMosaic.Lib.ValueIdxRank1
import Idealize.ShloMosaic.Lib.Pipeline.Value
import Idealize.ShloMosaic.Lib.StableHlo.Predicate

noncomputable section

namespace Cert.HostRead

open Idealize.ShloMosaic Idealize.ShloMosaic.ValueIdx

/-! ## Where an update lands -/

/-- An update lands at operand index `i` exactly when, on every axis, its start plus its window coordinate is
    `i`'s coordinate. -/
theorem resultIdx?_eq_some_iff {s si u : Shape} (d : ScatterDims s si u) {w : ℕ} (j : u.Idx) (idx : IVec si w) (i : s.Idx) :
    d.resultIdx? j idx = some i ↔ ∀ a, d.start j idx a + d.window j a = ((i a).val : Int) := by
  unfold ScatterDims.resultIdx?
  split
  · next h =>
    constructor
    · intro heq a
      have h1 := congrFun (Option.some.inj heq) a
      have h2 := congrArg Fin.val h1
      simp only at h2
      have := h a
      omega
    · intro hall
      congr 1
      funext a
      apply Fin.ext
      show (d.start j idx a + d.window j a).toNat = (i a).val
      have := hall a
      omega
  · next h =>
    constructor
    · intro heq; cases heq
    · intro hall
      exfalso; apply h
      intro a
      have h1 := hall a
      have h2 : (i a).val < s.size a := (i a).isLt
      constructor <;> omega

/-- The place in an [E × C] table of start indices where an update reads component `c` of its start index: row `e`
    (the update's coordinate on its scatter axes), column `c`. -/
theorem siIdx_eq {s u : Shape} {E C : ℕ} (d : ScatterDims s ⟨2, ![E, C]⟩ u) (hiv : d.indexVectorDim = 1) (j : u.Idx)
    (c : Fin d.scatterDimsToOperandDims.length) (e : Fin E) (c' : Fin C) (hc : c.val = c'.val)
    (he : ∀ a : Fin u.rank, a ∈ d.uScatter → (j a).val = e.val) : d.siIdx j c = ix2 e c' := by
  funext b
  match b with
  | ⟨0, _⟩ =>
    unfold ScatterDims.siIdx
    rw [dif_neg (by rw [hiv]; simp)]
    unfold ScatterDims.siCoord
    apply Fin.ext
    simp only [Fin.val_cast]
    exact he _ (List.getElem_mem _)
  | ⟨1, _⟩ =>
    unfold ScatterDims.siIdx
    rw [dif_pos (by rw [hiv])]
    apply Fin.ext
    exact hc

/-! ## Accumulating scatters -/

/-- Into a vector (a segment sum): entry `k` gains every update whose start index is `k`. -/
theorem scatterAdd_vec {N E w : ℕ} (d : ScatterDims ⟨1, ![N]⟩ ⟨2, ![E, 1]⟩ ⟨1, ![E]⟩)
    (huw : d.updateWindowDims = []) (hin : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal) (k : Fin N) :
    Ideal.hostScatterAdd d x idx upd (ix1 k)
      = x (ix1 k) + ∑ e ∈ Finset.univ.filter (fun e : Fin E => (idx (ix2 e (0 : Fin 1))).toInt = (k.val : Int)), upd (ix1 e) := by
  classical
  have hm : (0 : Fin 1) ∈ d.scatterDimsToOperandDims := by rw [hsd]; exact List.mem_singleton.mpr rfl
  have hnk : (0 : Fin 1) ∉ d.sKept := by simp [ScatterDims.sKept, Shape.kept, hin]
  have hstart : ∀ e : Fin E, d.start (ix1 e) idx 0 = (idx (ix2 e (0 : Fin 1))).toInt := by
    intro e
    unfold ScatterDims.start
    rw [dif_pos hm]
    congr 2
    refine siIdx_eq d hiv _ _ e 0 ?_ ?_
    · show List.idxOf (0 : Fin 1) d.scatterDimsToOperandDims = 0
      rw [hsd]; simp
    · intro a _
      have ha : a = 0 := Subsingleton.elim _ _
      subst ha; rfl
  have hwin : ∀ e : Fin E, d.window (ix1 e) 0 = 0 := by
    intro e; unfold ScatterDims.window; rw [dif_neg hnk]
  have hkey : ∀ e : Fin E, d.resultIdx? (ix1 e) idx = some (ix1 k) ↔ (idx (ix2 e (0 : Fin 1))).toInt = (k.val : Int) := by
    intro e
    rw [resultIdx?_eq_some_iff]
    constructor
    · intro h
      have h0 := h 0
      rw [hstart, hwin, Nat.cast_zero, add_zero] at h0
      exact h0
    · intro h a
      have ha : a = 0 := Subsingleton.elim _ _
      subst ha
      rw [hstart, hwin, Nat.cast_zero, add_zero]
      exact h
  unfold Ideal.hostScatterAdd
  congr 1
  refine Finset.sum_equiv idxEquiv1 ?_ ?_
  · intro j
    obtain ⟨e, rfl⟩ : ∃ e : Fin E, j = ix1 e := ⟨j 0, eq_ix1 j⟩
    simp only [Finset.mem_filter, Finset.mem_univ, true_and]
    exact hkey e
  · intro j _
    obtain ⟨e, rfl⟩ : ∃ e : Fin E, j = ix1 e := ⟨j 0, eq_ix1 j⟩
    rfl

/-- Into the rows of a matrix (a segment sum of rows): row `k`, column `q` gains column `q` of every update row
    whose start index is `k`. -/
theorem scatterAdd_rows {N D E w : ℕ} (d : ScatterDims ⟨2, ![N, D]⟩ ⟨2, ![E, 1]⟩ ⟨2, ![E, D]⟩)
    (huw : d.updateWindowDims = [1]) (hin : d.insertedWindowDims = [0]) (hsd : d.scatterDimsToOperandDims = [0])
    (hiv : d.indexVectorDim = 1)
    (x : (⟨2, ![N, D]⟩ : Shape).Idx → EReal) (idx : IVec ⟨2, ![E, 1]⟩ w) (upd : (⟨2, ![E, D]⟩ : Shape).Idx → EReal)
    (k : Fin N) (q : Fin D) :
    Ideal.hostScatterAdd d x idx upd (ix2 k q)
      = x (ix2 k q) + ∑ e ∈ Finset.univ.filter (fun e : Fin E => (idx (ix2 e (0 : Fin 1))).toInt = (k.val : Int)), upd (ix2 e q) := by
  classical
  have hm0 : (0 : Fin 2) ∈ d.scatterDimsToOperandDims := by rw [hsd]; exact List.mem_singleton.mpr rfl
  have hm1 : (1 : Fin 2) ∉ d.scatterDimsToOperandDims := by rw [hsd]; simp
  have hnk0 : (0 : Fin 2) ∉ d.sKept := by simp [ScatterDims.sKept, Shape.kept, hin]
  have hk1 : (1 : Fin 2) ∈ d.sKept := by simp [ScatterDims.sKept, Shape.kept, hin]
  have huw1 : ∀ a ∈ d.updateWindowDims, a = 1 := by intro a ha; rw [huw] at ha; exact List.mem_singleton.mp ha
  have husc : ∀ a : Fin 2, a ∈ d.uScatter → a = 0 := by
    intro a ha
    simp only [ScatterDims.uScatter, Shape.kept, huw, List.mem_filter, List.mem_singleton, decide_not,
      Bool.not_eq_eq_eq_not, Bool.not_true, decide_eq_false_iff_not] at ha
    have := ha.2
    match a with
    | ⟨0, _⟩ => rfl
    | ⟨1, _⟩ => exact absurd rfl this
  have hstart0 : ∀ (e : Fin E) (q' : Fin D), d.start (ix2 e q') idx 0 = (idx (ix2 e (0 : Fin 1))).toInt := by
    intro e q'
    unfold ScatterDims.start
    rw [dif_pos hm0]
    congr 2
    refine siIdx_eq d hiv _ _ e 0 ?_ ?_
    · show List.idxOf (0 : Fin 2) d.scatterDimsToOperandDims = 0
      rw [hsd]; simp
    · intro a ha
      rw [husc a ha]
  have hstart1 : ∀ (e : Fin E) (q' : Fin D), d.start (ix2 e q') idx 1 = 0 := by
    intro e q'; unfold ScatterDims.start; rw [dif_neg hm1]
  have hwin0 : ∀ (e : Fin E) (q' : Fin D), d.window (ix2 e q') 0 = 0 := by
    intro e q'; unfold ScatterDims.window; rw [dif_neg hnk0]
  have hwin1 : ∀ (e : Fin E) (q' : Fin D), d.window (ix2 e q') 1 = q'.val := by
    intro e q'; unfold ScatterDims.window; rw [dif_pos hk1, huw1 _ (List.getElem_mem _)]
    rfl
  have hkey : ∀ (e : Fin E) (q' : Fin D), d.resultIdx? (ix2 e q') idx = some (ix2 k q)
      ↔ (idx (ix2 e (0 : Fin 1))).toInt = (k.val : Int) ∧ q' = q := by
    intro e q'
    rw [resultIdx?_eq_some_iff]
    constructor
    · intro h
      have h0 := h 0
      have h1 := h 1
      rw [hstart0, hwin0, Nat.cast_zero, add_zero] at h0
      rw [hstart1, hwin1, zero_add] at h1
      refine ⟨h0, Fin.ext ?_⟩
      have h1' : (q'.val : Int) = (q.val : Int) := h1
      exact_mod_cast h1'
    · rintro ⟨h0, rfl⟩ a
      match a with
      | ⟨0, _⟩ =>
        show d.start (ix2 e q') idx 0 + (d.window (ix2 e q') 0 : Int) = (k.val : Int)
        rw [hstart0, hwin0, Nat.cast_zero, add_zero]; exact h0
      | ⟨1, _⟩ =>
        show d.start (ix2 e q') idx 1 + (d.window (ix2 e q') 1 : Int) = (q'.val : Int)
        rw [hstart1, hwin1, zero_add]
  unfold Ideal.hostScatterAdd
  congr 1
  refine Finset.sum_bij' (fun j _ => (idxEquiv2 j).1) (fun e _ => ix2 e q) ?_ ?_ ?_ ?_ ?_
  · intro j hj
    obtain ⟨e, q', rfl⟩ : ∃ (e : Fin E) (q' : Fin D), j = ix2 e q' := ⟨j 0, j 1, eq_ix2 j⟩
    simp only [Finset.mem_filter, Finset.mem_univ, true_and] at hj ⊢
    exact ((hkey e q').1 hj).1
  · intro e he
    simp only [Finset.mem_filter, Finset.mem_univ, true_and] at he ⊢
    exact (hkey e q).2 ⟨he, rfl⟩
  · intro j hj
    obtain ⟨e, q', rfl⟩ : ∃ (e : Fin E) (q' : Fin D), j = ix2 e q' := ⟨j 0, j 1, eq_ix2 j⟩
    simp only [Finset.mem_filter, Finset.mem_univ, true_and] at hj
    obtain ⟨_, rfl⟩ := (hkey e q').1 hj
    rfl
  · intro e _; rfl
  · intro j hj
    obtain ⟨e, q', rfl⟩ : ∃ (e : Fin E) (q' : Fin D), j = ix2 e q' := ⟨j 0, j 1, eq_ix2 j⟩
    simp only [Finset.mem_filter, Finset.mem_univ, true_and] at hj
    obtain ⟨_, rfl⟩ := (hkey e q').1 hj
    rfl

/-- Into the entries of a matrix, each update carrying a (row, column) pair of start indices. -/
theorem scatterAdd_pairs {P Q E w : ℕ} (d : ScatterDims ⟨2, ![P, Q]⟩ ⟨2, ![E, 2]⟩ ⟨1, ![E]⟩)
    (huw : d.updateWindowDims = []) (hin : d.insertedWindowDims = [0, 1]) (hsd : d.scatterDimsToOperandDims = [0, 1])
    (hiv : d.indexVectorDim = 1)
    (x : (⟨2, ![P, Q]⟩ : Shape).Idx → EReal) (idx : IVec ⟨2, ![E, 2]⟩ w) (upd : (⟨1, ![E]⟩ : Shape).Idx → EReal)
    (a : Fin P) (b : Fin Q) :
    Ideal.hostScatterAdd d x idx upd (ix2 a b)
      = x (ix2 a b) + ∑ e ∈ Finset.univ.filter (fun e : Fin E =>
          (idx (ix2 e (0 : Fin 2))).toInt = (a.val : Int) ∧ (idx (ix2 e (1 : Fin 2))).toInt = (b.val : Int)), upd (ix1 e) := by
  classical
  have hm0 : (0 : Fin 2) ∈ d.scatterDimsToOperandDims := by rw [hsd]; simp
  have hm1 : (1 : Fin 2) ∈ d.scatterDimsToOperandDims := by rw [hsd]; simp
  have hnk : ∀ c : Fin 2, c ∉ d.sKept := by
    intro c
    match c with
    | ⟨0, _⟩ => simp [ScatterDims.sKept, Shape.kept, hin]
    | ⟨1, _⟩ => simp [ScatterDims.sKept, Shape.kept, hin]
  have hrank1 : ∀ (e : Fin E) (c : Fin 1), c ∈ d.uScatter → ((ix1 e : (⟨1, ![E]⟩ : Shape).Idx) c).val = e.val := by
    intro e c _
    have hc : c = 0 := Subsingleton.elim _ _
    subst hc; rfl
  have hstart0 : ∀ e : Fin E, d.start (ix1 e) idx 0 = (idx (ix2 e (0 : Fin 2))).toInt := by
    intro e
    unfold ScatterDims.start
    rw [dif_pos hm0]
    congr 2
    refine siIdx_eq d hiv _ _ e 0 ?_ (hrank1 e)
    show List.idxOf (0 : Fin 2) d.scatterDimsToOperandDims = 0
    rw [hsd]; simp
  have hstart1 : ∀ e : Fin E, d.start (ix1 e) idx 1 = (idx (ix2 e (1 : Fin 2))).toInt := by
    intro e
    unfold ScatterDims.start
    rw [dif_pos hm1]
    congr 2
    refine siIdx_eq d hiv _ _ e 1 ?_ (hrank1 e)
    show List.idxOf (1 : Fin 2) d.scatterDimsToOperandDims = 1
    rw [hsd]; rfl
  have hwin : ∀ (e : Fin E) (c : Fin 2), d.window (ix1 e) c = 0 := by
    intro e c; unfold ScatterDims.window; rw [dif_neg (hnk c)]
  have hkey : ∀ e : Fin E, d.resultIdx? (ix1 e) idx = some (ix2 a b)
      ↔ (idx (ix2 e (0 : Fin 2))).toInt = (a.val : Int) ∧ (idx (ix2 e (1 : Fin 2))).toInt = (b.val : Int) := by
    intro e
    rw [resultIdx?_eq_some_iff]
    constructor
    · intro h
      have h0 := h 0
      have h1 := h 1
      rw [hstart0, hwin, Nat.cast_zero, add_zero] at h0
      rw [hstart1, hwin, Nat.cast_zero, add_zero] at h1
      exact ⟨h0, h1⟩
    · rintro ⟨h0, h1⟩ c
      match c with
      | ⟨0, _⟩ =>
        show d.start (ix1 e) idx 0 + (d.window (ix1 e) 0 : Int) = (a.val : Int)
        rw [hstart0, hwin, Nat.cast_zero, add_zero]; exact h0
      | ⟨1, _⟩ =>
        show d.start (ix1 e) idx 1 + (d.window (ix1 e) 1 : Int) = (b.val : Int)
        rw [hstart1, hwin, Nat.cast_zero, add_zero]; exact h1
  unfold Ideal.hostScatterAdd
  congr 1
  refine Finset.sum_equiv idxEquiv1 ?_ ?_
  · intro j
    obtain ⟨e, rfl⟩ : ∃ e : Fin E, j = ix1 e := ⟨j 0, eq_ix1 j⟩
    simp only [Finset.mem_filter, Finset.mem_univ, true_and]
    exact hkey e
  · intro j _
    obtain ⟨e, rfl⟩ : ∃ e : Fin E, j = ix1 e := ⟨j 0, eq_ix1 j⟩
    rfl

/-! ## Takes -/

/-- The place in an [E × C] table of start indices where a result index reads component `c` of its start index: row
    `e` (the result's coordinate on its batch axes), column `c`. -/
theorem gather_siIdx_eq {s t : Shape} {E C : ℕ} (d : GatherDims s ⟨2, ![E, C]⟩ t) (hivd : d.indexVectorDim = 1) (j : t.Idx)
    (c : Fin d.startIndexMap.length) (e : Fin E) (c' : Fin C) (hc : c.val = c'.val)
    (he : ∀ a : Fin t.rank, a ∈ d.batchDims → (j a).val = e.val) : d.siIdx j c = ix2 e c' := by
  funext b
  match b with
  | ⟨0, _⟩ =>
    unfold GatherDims.siIdx
    rw [dif_neg (by rw [hivd]; simp)]
    unfold GatherDims.siCoord
    apply Fin.ext
    simp only [Fin.val_cast]
    exact he _ (List.getElem_mem _)
  | ⟨1, _⟩ =>
    unfold GatherDims.siIdx
    rw [dif_pos (by rw [hivd])]
    apply Fin.ext
    exact hc

/-- A take out of a vector at a start index inside it. -/
theorem gather_vec {α : Type} {N E w : ℕ} (d : GatherDims ⟨1, ![N]⟩ ⟨2, ![E, 1]⟩ ⟨1, ![E]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![E, 1]⟩ w) (e : Fin E) (k : Fin N)
    (hk : (idx (ix2 e (0 : Fin 1))).toInt = (k.val : Int)) :
    Host.gather d x idx (ix1 e) = x (ix1 k) := by
  have hN : 0 < N := Nat.lt_of_le_of_lt (Nat.zero_le _) k.isLt
  have h1 : (ix1 e : (⟨1, ![E]⟩ : Shape).Idx) = Shape.Idx.ofFin e := by
    funext a; match a with | ⟨0, _⟩ => rfl
  have h2 : (StableHlo.Predicate.ixP e : (⟨2, ![E, 1]⟩ : Shape).Idx) = ix2 e (0 : Fin 1) := by
    funext a; match a with | ⟨0, _⟩ => rfl | ⟨1, _⟩ => rfl
  rw [h1, StableHlo.Predicate.gather_take d hcoll hob hsim hivd x idx e hN]
  congr 1
  funext a
  match a with
  | ⟨0, _⟩ =>
    apply Fin.ext
    show min (idx (StableHlo.Predicate.ixP e)).toInt.toNat (N - 1) = k.val
    rw [h2, hk]
    have := k.isLt
    simp only [Int.toNat_natCast]
    omega

/-- A take of whole rows of a matrix at a start index inside it. -/
theorem gather_rows {α : Type} {N D E w : ℕ} (d : GatherDims ⟨2, ![N, D]⟩ ⟨2, ![E, 1]⟩ ⟨2, ![E, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![E, 1]⟩ w) (e : Fin E) (q : Fin D) (k : Fin N)
    (hk : (idx (ix2 e (0 : Fin 1))).toInt = (k.val : Int)) :
    Host.gather d x idx (ix2 e q) = x (ix2 k q) := by
  have hb : ∀ a : Fin 2, a ∉ d.operandBatchingDims := by intro a; rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hoff1 : ∀ a ∈ d.offsetDims, a = 1 := by intro a ha; rw [hoff] at ha; exact List.mem_singleton.mp ha
  have hbatch : ∀ a : Fin 2, a ∈ d.batchDims → a = 0 := by
    intro a ha
    simp only [GatherDims.batchDims, Shape.kept, hoff, List.mem_filter, List.mem_singleton, decide_not,
      Bool.not_eq_eq_eq_not, Bool.not_true, decide_eq_false_iff_not] at ha
    have := ha.2
    match a with
    | ⟨0, _⟩ => rfl
    | ⟨1, _⟩ => exact absurd rfl this
  have h0 : d.operandIdx (ix2 e q) idx 0 = k := by
    apply Fin.ext
    simp only [GatherDims.operandIdx, GatherDims.batchCoord_eq_zero _ _ _ (hb _), GatherDims.offCoord_eq_zero _ _ _ hk0,
      Nat.add_zero, GatherDims.start, dif_pos hm0]
    show min (idx _).toInt.toNat (N - d.sliceSizes 0) = k.val
    have hsi : d.siIdx (ix2 e q) ⟨List.idxOf (0 : Fin 2) d.startIndexMap, List.idxOf_lt_length_iff.2 hm0⟩ = ix2 e (0 : Fin 1) := by
      refine gather_siIdx_eq d hivd _ _ e 0 ?_ ?_
      · show List.idxOf (0 : Fin 2) d.startIndexMap = 0
        rw [hsim]; simp
      · intro a ha
        rw [hbatch a ha]
    rw [hsi, hk, hss]
    have := k.isLt
    show min ((k.val : Int)).toNat (N - 1) = k.val
    simp only [Int.toNat_natCast]
    omega
  have h1 : d.operandIdx (ix2 e q) idx 1 = q := by
    apply Fin.ext
    simp only [GatherDims.operandIdx, GatherDims.batchCoord_eq_zero _ _ _ (hb _), Nat.add_zero, GatherDims.start, dif_neg hm1,
      Nat.zero_add, GatherDims.offCoord, dif_pos hk1]
    rw [hoff1 _ (List.getElem_mem _)]
    rfl
  unfold Host.gather
  rw [eq_ix2 (d.operandIdx (ix2 e q) idx), h0, h1]
  rfl

end Cert.HostRead

end
-- ==== Proof.Spec.lean ====
/-
  The mathematics of the statement, over plain finite index types.

  A graph on 10000 nodes is given by 650000 directed edges `src e → dst e` (the 640000 listed ones followed by one
  self-loop per node), each carrying a weight `nrm e` (the symmetric normalisation `deg^{-1/2} · deg^{-1/2}`; all that
  is used of it below is that it is nonnegative). A two-layer graph convolution maps node features `x` to

    hid = relu (Agg (x · W1) + b1),   out = Agg (hid · W2) + b2,   (Agg g) i = ∑ over edges e into i of g (src e) · nrm e.

  `refOut` is that, edge by edge. The other form first collects the weights into a dense matrix over 10240 padded
  nodes, `adj i j = ∑ over edges e from j into i of nrm e`, and aggregates by matrix products (`layer1`, `layer2`),
  on features padded with rows and columns that do not matter (`kerOut`). `kerOut_eq_refOut` says the two agree
  on the extended reals: regrouping the edges into i by their source is distributivity of `·` over a sum of
  NONNEGATIVE weights, which holds at the infinities too; a padded node has no edge, so its row of `adj` is zero.
-/
import Idealize.ShloMosaic.PureOps.Ideal
import Mathlib.Data.EReal.Operations

noncomputable section

namespace Cert.Spec

/-- Edges (listed edges, then self-loops), nodes, padded nodes. -/
abbrev nE : ℕ := 650000
abbrev nN : ℕ := 10000
abbrev nP : ℕ := 10240

/-- A node as a padded node. -/
def padN (i : Fin nN) : Fin nP := Fin.castLE (by decide) i
/-- An output column as a padded column. -/
def padC (c : Fin 64) : Fin 128 := Fin.castLE (by decide) c

section Reference

variable (src dst : Fin nE → Fin nN) (nrm : Fin nE → EReal)
  (x : Fin nN → Fin 128 → EReal) (W1 : Fin 128 → Fin 128 → EReal) (b1 : Fin 128 → EReal)
  (W2 : Fin 128 → Fin 64 → EReal) (b2 : Fin 64 → EReal)

/-- The first linear map, node by node. -/
def lin1 (j : Fin nN) (d : Fin 128) : EReal := ∑ q : Fin 128, x j q * W1 q d
/-- Its aggregation over the edges into `i`. -/
def agg1 (i : Fin nN) (d : Fin 128) : EReal :=
  ∑ e ∈ Finset.univ.filter (fun e => dst e = i), lin1 x W1 (src e) d * nrm e
/-- The hidden layer. -/
def hid (i : Fin nN) (d : Fin 128) : EReal := max (agg1 src dst nrm x W1 i d + b1 d) 0
/-- The second linear map. -/
def lin2 (j : Fin nN) (c : Fin 64) : EReal := ∑ d : Fin 128, hid src dst nrm x W1 b1 j d * W2 d c
/-- The output, edge by edge. -/
def refOut (i : Fin nN) (c : Fin 64) : EReal :=
  (∑ e ∈ Finset.univ.filter (fun e => dst e = i), lin2 src dst nrm x W1 b1 W2 (src e) c * nrm e) + b2 c

/-- The dense weight matrix over padded nodes: entry `(i, j)` sums the weights of the edges from `j` into `i`. -/
def adj (i j : Fin nP) : EReal :=
  ∑ e ∈ Finset.univ.filter (fun e => (dst e).val = i.val ∧ (src e).val = j.val), nrm e

end Reference

/-- One aggregation by a dense matrix followed by bias, relu and a linear map: row `p`, column `q`. -/
def layer1 (A : Fin nP → Fin nP → EReal) (h : Fin nP → Fin 128 → EReal) (b : Fin 128 → EReal)
    (w : Fin 128 → Fin 128 → EReal) (p : Fin nP) (q : Fin 128) : EReal :=
  ∑ d : Fin 128, max ((∑ j : Fin nP, A p j * h j d) + b d) 0 * w d q

/-- One aggregation by a dense matrix followed by a bias. -/
def layer2 (A : Fin nP → Fin nP → EReal) (h : Fin nP → Fin 128 → EReal) (b : Fin 128 → EReal)
    (p : Fin nP) (q : Fin 128) : EReal :=
  (∑ j : Fin nP, A p j * h j q) + b q

/-- The first linear map on padded features. -/
def lin1p (xp : Fin nP → Fin 128 → EReal) (W1 : Fin 128 → Fin 128 → EReal) (j : Fin nP) (d : Fin 128) : EReal :=
  ∑ q : Fin 128, xp j q * W1 q d

/-- The output by dense aggregation, read at a real node and a real column. -/
def kerOut (A : Fin nP → Fin nP → EReal) (xp : Fin nP → Fin 128 → EReal) (W1 : Fin 128 → Fin 128 → EReal)
    (b1 : Fin 128 → EReal) (W2p : Fin 128 → Fin 128 → EReal) (b2p : Fin 128 → EReal) (i : Fin nN) (c : Fin 64) : EReal :=
  layer2 A (layer1 A (lin1p xp W1) b1 W2p) b2p (padN i) (padC c)

/-- A sum of nonnegative terms times any extended real distributes term by term. -/
theorem sum_mul_of_nonneg {ι : Type} (s : Finset ι) (f : ι → EReal) (hf : ∀ a ∈ s, 0 ≤ f a) (c : EReal) :
    (∑ a ∈ s, f a) * c = ∑ a ∈ s, f a * c := by
  classical
  induction s using Finset.induction_on with
  | empty => simp
  | insert a s ha ih =>
    have hs : ∀ b ∈ s, 0 ≤ f b := fun b hb => hf b (Finset.mem_insert_of_mem hb)
    rw [Finset.sum_insert ha, Finset.sum_insert ha,
      EReal.right_distrib_of_nonneg (hf a (Finset.mem_insert_self a s)) (Finset.sum_nonneg hs), ih hs]

/-- Regrouping the edges into `i` by their source: the dense row against `G` is the edge-by-edge sum. -/
theorem regroup {E J I : Type} [Fintype E] [Fintype J] [DecidableEq J] [DecidableEq I]
    (nrm : E → EReal) (hn : ∀ e, 0 ≤ nrm e) (s : E → J) (d : E → I) (G : J → EReal) (i : I) :
    ∑ j : J, (∑ e ∈ Finset.univ.filter (fun e => d e = i ∧ s e = j), nrm e) * G j
      = ∑ e ∈ Finset.univ.filter (fun e => d e = i), G (s e) * nrm e := by
  classical
  have h1 : ∀ j : J, (∑ e ∈ Finset.univ.filter (fun e => d e = i ∧ s e = j), nrm e) * G j
      = ∑ e : E, if d e = i then (if s e = j then nrm e * G j else 0) else 0 := by
    intro j
    rw [sum_mul_of_nonneg _ _ (fun e _ => hn e), Finset.sum_filter]
    refine Finset.sum_congr rfl (fun e _ => ?_)
    by_cases h1 : d e = i <;> by_cases h2 : s e = j <;> simp [h1, h2]
  rw [Finset.sum_congr rfl (fun j _ => h1 j), Finset.sum_comm, Finset.sum_filter]
  refine Finset.sum_congr rfl (fun e _ => ?_)
  by_cases h : d e = i
  · rw [if_pos h, Finset.sum_congr rfl (fun j _ => if_pos h), Finset.sum_ite_eq, if_pos (Finset.mem_univ _), mul_comm]
  · rw [if_neg h, Finset.sum_congr rfl (fun j _ => if_neg h), Finset.sum_const_zero]

/-- A row of the dense matrix at a real node against padded values `G` that restrict to `g`. -/
theorem adj_row (src dst : Fin nE → Fin nN) (nrm : Fin nE → EReal) (hn : ∀ e, 0 ≤ nrm e)
    (G : Fin nP → EReal) (g : Fin nN → EReal) (hG : ∀ j, G (padN j) = g j) (i : Fin nN) :
    ∑ j : Fin nP, adj src dst nrm (padN i) j * G j
      = ∑ e ∈ Finset.univ.filter (fun e => dst e = i), g (src e) * nrm e := by
  have hadj : ∀ j : Fin nP, adj src dst nrm (padN i) j
      = ∑ e ∈ Finset.univ.filter (fun e => dst e = i ∧ padN (src e) = j), nrm e := by
    intro j
    unfold adj
    refine Finset.sum_congr (Finset.filter_congr (fun e _ => ?_)) (fun _ _ => rfl)
    exact ⟨fun h => ⟨Fin.ext h.1, Fin.ext h.2⟩, fun h => ⟨congrArg Fin.val h.1, congrArg Fin.val h.2⟩⟩
  rw [Finset.sum_congr rfl (fun j _ => by rw [hadj j])]
  rw [regroup nrm hn (fun e => padN (src e)) dst G i]
  exact Finset.sum_congr rfl (fun e _ => by rw [hG])

/-- THE LAW. With nonnegative edge weights, dense aggregation over padded nodes is aggregation edge by edge,
    whatever the padding rows of the features, the padding columns of the second weight and of the second bias hold. -/
theorem kerOut_eq_refOut (src dst : Fin nE → Fin nN) (nrm : Fin nE → EReal) (hn : ∀ e, 0 ≤ nrm e)
    (x : Fin nN → Fin 128 → EReal) (xp : Fin nP → Fin 128 → EReal) (hx : ∀ j q, xp (padN j) q = x j q)
    (W1 : Fin 128 → Fin 128 → EReal) (b1 : Fin 128 → EReal)
    (W2 : Fin 128 → Fin 64 → EReal) (W2p : Fin 128 → Fin 128 → EReal) (hW : ∀ d c, W2p d (padC c) = W2 d c)
    (b2 : Fin 64 → EReal) (b2p : Fin 128 → EReal) (hb : ∀ c, b2p (padC c) = b2 c)
    (i : Fin nN) (c : Fin 64) :
    kerOut (adj src dst nrm) xp W1 b1 W2p b2p i c = refOut src dst nrm x W1 b1 W2 b2 i c := by
  have h1 : ∀ (j' : Fin nN) (d : Fin 128),
      ∑ j : Fin nP, adj src dst nrm (padN j') j * lin1p xp W1 j d = agg1 src dst nrm x W1 j' d := by
    intro j' d
    unfold agg1
    refine adj_row src dst nrm hn (fun j => lin1p xp W1 j d) (fun j => lin1 x W1 j d) (fun j => ?_) j'
    unfold lin1p lin1
    exact Finset.sum_congr rfl (fun q _ => by rw [hx])
  have h2 : ∀ j' : Fin nN, layer1 (adj src dst nrm) (lin1p xp W1) b1 W2p (padN j') (padC c)
      = lin2 src dst nrm x W1 b1 W2 j' c := by
    intro j'
    unfold layer1 lin2 hid
    exact Finset.sum_congr rfl (fun d _ => by rw [h1 j' d, hW])
  unfold kerOut layer2 refOut
  rw [hb, adj_row src dst nrm hn (fun j => layer1 (adj src dst nrm) (lin1p xp W1) b1 W2p j (padC c))
    (fun j => lin2 src dst nrm x W1 b1 W2 j c) h2 i]

end Cert.Spec

end
-- ==== Proof.Edges.lean ====
/-
  The edge list of the graph as the two programs spell it, and what the precondition says of it.

  Row 0 of the [2 × 640000] index array holds the listed edges' sources, row 1 their targets; both programs append
  one self-loop per node (an iota over the 10000 nodes) to each row, getting 650000 sources and 650000 targets as
  32-bit words. Under the precondition every listed endpoint is a node, `0 ≤ · < 10000` read signed, and so is every
  appended one: each word is then a node (`endF`), the "negative index wraps around" select the programs put in
  front of a take or a scatter changes nothing (`wrap_eq`), and the normalisation weight of an edge, a product of two
  entries of `where (deg > 0) (rsqrt deg) 0`, is nonnegative whatever the degrees are (`norm_nonneg`).
-/
import Idealize.ShloMosaic.PureOps.Ideal
import Idealize.ShloMosaic.Lib.ValueIdx
import Idealize.ShloMosaic.Lib.ValueIdxRank1
import Idealize.ShloMosaic.Lib.Pipeline.Value
import Idealize.ShloMosaic.Lib.StableHlo.Predicate
import proofs.«411342_j57234734186920_3_alg».proof.Proof.Spec

noncomputable section

namespace Cert.Edges

open Idealize.ShloMosaic Idealize.ShloMosaic.ValueIdx Cert.Spec

abbrev S2x640000 : Shape := ⟨2, ![2, 640000]⟩
abbrev S1x640000 : Shape := ⟨2, ![1, 640000]⟩
abbrev S640000 : Shape := ⟨1, ![640000]⟩
abbrev S10000 : Shape := ⟨1, ![10000]⟩
abbrev S650000 : Shape := ⟨1, ![650000]⟩
abbrev S650000x1 : Shape := ⟨2, ![650000, 1]⟩
abbrev S_ : Shape := ⟨0, ![]⟩

/-- Every listed endpoint is a node. -/
def InRange (ei : IVec S2x640000 32) : Prop := ∀ i, 0 ≤ (ei i).toInt ∧ (ei i).toInt < 10000

/-- Row `r` of the edge list followed by the self-loops: all 650000 sources (`r = 0`) or targets (`r = 1`), as words. -/
def endW (ei : IVec S2x640000 32) (r : ℕ) (hs : S2x640000.Slices ![r, 0] S1x640000) (hc : S1x640000.ShapeCasts S640000)
    (hk : Shape.Concatenates [S640000, S10000] S650000 0) : IVec S650000 32 :=
  concatenate S650000 0 [⟨S640000, shapeCast S640000 (extractStridedSlice S1x640000 ![r, 0] ei hs) hc⟩,
    ⟨S10000, iotaInDim S10000 32 0⟩] hk

/-- The word of edge `e`: the listed endpoint for a listed edge, the node itself for a self-loop. -/
theorem endW_eq (ei : IVec S2x640000 32) (r : ℕ) (hr : r < 2) (hs : S2x640000.Slices ![r, 0] S1x640000)
    (hc : S1x640000.ShapeCasts S640000) (hk : Shape.Concatenates [S640000, S10000] S650000 0) (e : Fin nE) :
    endW ei r hs hc hk (ix1 e)
      = if h : e.val < 640000 then ei (ix2 (⟨r, hr⟩ : Fin 2) (⟨e.val, h⟩ : Fin 640000))
        else BitVec.ofNat 32 (e.val - 640000) := by
  unfold endW
  by_cases h : e.val < 640000
  · rw [dif_pos h]
    rw [concatenate_pair_apply_left (0 : Fin S650000.rank) _ _ hk (ix1 e) rfl (ix1 (⟨e.val, h⟩ : Fin 640000))
      (fun b => by have hb : b = 0 := Subsingleton.elim _ _; subst hb; rfl)]
    rw [shapeCast_apply _ hc (ix1 (⟨e.val, h⟩ : Fin 640000)) (ix2 (0 : Fin 1) (⟨e.val, h⟩ : Fin 640000))
      (by rw [Shape.rowMajor_val_two, Shape.rowMajor_val_one]; show 0 * 640000 + e.val = e.val; omega)]
    refine extractStridedSlice_apply _ ei hs _ (ix2 (⟨r, hr⟩ : Fin 2) (⟨e.val, h⟩ : Fin 640000)) (fun a => ?_)
    match a with
    | ⟨0, _⟩ => show r = r + 0; omega
    | ⟨1, _⟩ => show e.val = 0 + e.val; omega
  · rw [dif_neg h]
    have he : e.val < 650000 := e.isLt
    rw [concatenate_pair_apply_right (0 : Fin S650000.rank) _ _ hk (ix1 e) rfl rfl
      (ix1 (⟨e.val - 640000, by omega⟩ : Fin 10000))
      (fun b hb => absurd (Subsingleton.elim _ _) hb)
      (by show (e.val - 640000) + 640000 = e.val; omega)]
    rfl

/-- Under the precondition every one of those words is a node. -/
theorem endW_range (ei : IVec S2x640000 32) (h : InRange ei) (r : ℕ) (hr : r < 2) (hs : S2x640000.Slices ![r, 0] S1x640000)
    (hc : S1x640000.ShapeCasts S640000) (hk : Shape.Concatenates [S640000, S10000] S650000 0) (e : Fin nE) :
    0 ≤ (endW ei r hs hc hk (ix1 e)).toInt ∧ (endW ei r hs hc hk (ix1 e)).toInt < 10000 := by
  rw [endW_eq ei r hr hs hc hk e]
  by_cases h1 : e.val < 640000
  · rw [dif_pos h1]; exact h _
  · rw [dif_neg h1]
    have he : e.val < 650000 := e.isLt
    rw [StableHlo.Predicate.toInt_ofNat_small _ (by omega)]
    omega

/-- Edge `e`'s endpoint as a node. -/
def endF (ei : IVec S2x640000 32) (h : InRange ei) (r : ℕ) (hr : r < 2) (hs : S2x640000.Slices ![r, 0] S1x640000)
    (hc : S1x640000.ShapeCasts S640000) (hk : Shape.Concatenates [S640000, S10000] S650000 0) (e : Fin nE) : Fin nN :=
  ⟨(endW ei r hs hc hk (ix1 e)).toInt.toNat, by
    have := endW_range ei h r hr hs hc hk e
    show _ < 10000
    omega⟩

/-- The word of an edge's endpoint, read signed, is that node. -/
theorem endW_toInt (ei : IVec S2x640000 32) (h : InRange ei) (r : ℕ) (hr : r < 2) (hs : S2x640000.Slices ![r, 0] S1x640000)
    (hc : S1x640000.ShapeCasts S640000) (hk : Shape.Concatenates [S640000, S10000] S650000 0) (e : Fin nE) :
    (endW ei r hs hc hk (ix1 e)).toInt = ((endF ei h r hr hs hc hk e).val : Int) := by
  exact (Int.toNat_of_nonneg (endW_range ei h r hr hs hc hk e).1).symm

/-- "A negative index counts from the end": on words that are nonnegative read signed the select is the identity,
    whatever extent `n` is added. -/
theorem wrap_eq (v : IVec S650000 32) (hb : S_.BroadcastsInDim S650000 (![] : Fin 0 → Fin S650000.rank)) (n : BitVec 32)
    (hv : ∀ i, 0 ≤ (v i).toInt) :
    select (cmpi .slt v (broadcastInDim S650000 ![] hb (constantI S_ 32 0#32)))
      (addi v (broadcastInDim S650000 ![] hb (constantI S_ 32 n))) v = v := by
  funext i
  rw [select_apply]
  have hc : cmpi .slt v (broadcastInDim S650000 ![] hb (constantI S_ 32 0#32)) i = 0#1 := by
    show BitVec.ofBool ((v i).slt 0#32) = 0#1
    have hf : (v i).slt 0#32 = false := by
      simp only [BitVec.slt, BitVec.toInt_zero, decide_eq_false_iff_not, not_lt]
      exact hv i
    rw [hf]; rfl
  rw [hc, select_zero]

/-- An [n] vector kept as an [n × 1] column reads back the vector. -/
theorem column_apply {α : Type} (v : S650000.Idx → α) (hb : S650000.BroadcastsInDim S650000x1 (![0] : Fin 1 → Fin S650000x1.rank))
    (e : Fin nE) : broadcastInDim S650000x1 ![0] hb v (ix2 e (0 : Fin 1)) = v (ix1 e) := by
  refine broadcastInDim_apply _ hb v _ (ix1 e) (fun a => ?_)
  have ha : a = 0 := Subsingleton.elim _ _
  subst ha
  rw [if_neg (by decide)]
  rfl

/-- The inverse square root of a positive extended real is nonnegative (zero at `+∞`). -/
theorem rsqrt_nonneg_of_pos (x : EReal) (hx : 0 < x) : 0 ≤ Ideal.rsqrt x := by
  induction x using EReal.rec with
  | bot => exact absurd hx (by simp)
  | top => rw [Ideal.rsqrt_top]
  | coe r =>
    have hr : 0 < r := by exact_mod_cast hx
    rw [Ideal.rsqrt_coe, if_neg (not_lt.mpr hr.le), if_neg hr.ne']
    exact_mod_cast inv_nonneg.mpr (Real.sqrt_nonneg r)

/-- The normalisation weights are nonnegative: each is a product of two entries of `where (deg > 0) (rsqrt deg) 0`,
    and the inverse square root of a positive extended real is nonnegative (zero at `+∞`). -/
theorem norm_nonneg {N n : ℕ} (g : GatherDims ⟨1, ![N]⟩ ⟨2, ![n, 1]⟩ ⟨1, ![n]⟩)
    (deg zero1 zero2 : FVec Ideal ⟨1, ![N]⟩ .f32) (hz1 : ∀ i, zero1 i = (0 : EReal)) (hz2 : ∀ i, zero2 i = (0 : EReal))
    (i1 i2 : IVec ⟨2, ![n, 1]⟩ 32) (e : (⟨1, ![n]⟩ : Shape).Idx) :
    (0 : EReal) ≤ mulf (Host.gather g (select (cmpf (F := Ideal) .ogt deg zero1) (Host.rsqrt deg) zero2) i1)
      (Host.gather g (select (cmpf (F := Ideal) .ogt deg zero1) (Host.rsqrt deg) zero2) i2) e := by
  have hd : ∀ k, (0 : EReal) ≤ select (cmpf (F := Ideal) .ogt deg zero1) (Host.rsqrt deg) zero2 k := by
    intro k
    rw [select_apply]
    by_cases hc : cmpf (F := Ideal) .ogt deg zero1 k = 1#1
    · rw [hc, select_one]
      have hpos : (0 : EReal) < deg k := by
        have h2 : Ideal.cmp .ogt (deg k) (zero1 k) = 1#1 := hc
        rw [hz1] at h2
        unfold Ideal.cmp at h2
        simpa [StableHlo.Predicate.ofBool_eq_one_iff] using h2
      show (0 : EReal) ≤ Ideal.rsqrt (deg k)
      exact rsqrt_nonneg_of_pos _ hpos
    · rw [eq_zero_of_ne_one hc, select_zero, hz2]
  rw [mulf_apply]
  exact mul_nonneg (hd _) (hd _)

/-! ## The normalisation weights, as both programs spell them -/

section Norm

variable (ei : IVec S2x640000 32)
  (hs0 : S2x640000.Slices ![0, 0] S1x640000) (hs1 : S2x640000.Slices ![1, 0] S1x640000)
  (hc : S1x640000.ShapeCasts S640000) (hk : Shape.Concatenates [S640000, S10000] S650000 0)
  (hbE : S_.BroadcastsInDim S650000 (![] : Fin 0 → Fin S650000.rank))
  (hbN : S_.BroadcastsInDim S10000 (![] : Fin 0 → Fin S10000.rank))
  (hbC : S650000.BroadcastsInDim S650000x1 (![0] : Fin 1 → Fin S650000x1.rank))
  (sd : ScatterDims S10000 S650000x1 S650000) (gd : GatherDims S10000 S650000x1 S650000)

/-- The in-degree of every node, self-loop included: ones summed by target. -/
def degW : FVec Ideal S10000 .f32 :=
  Host.scatterAdd (F := Ideal) sd (broadcastInDim S10000 ![] hbN (constant (F := Ideal) S_ .f32 0x00000000#32))
    (broadcastInDim S650000x1 ![0] hbC (endW ei 1 hs1 hc hk))
    (broadcastInDim S650000 ![] hbE (constant (F := Ideal) S_ .f32 0x3F800000#32))

/-- `where (deg > 0) (rsqrt deg) 0`, node by node. -/
def dinvW : FVec Ideal S10000 .f32 :=
  select (cmpf (F := Ideal) .ogt (degW ei hs1 hc hk hbE hbN hbC sd)
      (broadcastInDim S10000 ![] hbN (constant (F := Ideal) S_ .f32 0x00000000#32)))
    (Host.rsqrt (F := Ideal) (degW ei hs1 hc hk hbE hbN hbC sd))
    (broadcastInDim S10000 ![] hbN (constant (F := Ideal) S_ .f32 0x00000000#32))

/-- A word list with "negative counts from the end" applied at extent 10000. -/
def wrapW (v : IVec S650000 32) : IVec S650000 32 :=
  select (cmpi .slt v (broadcastInDim S650000 ![] hbE (constantI S_ 32 0#32)))
    (addi v (broadcastInDim S650000 ![] hbE (constantI S_ 32 10000#32))) v

/-- The weight of every edge: the entry of `dinvW` at its source times the entry at its target. -/
def normW : FVec Ideal S650000 .f32 :=
  mulf (Host.gather gd (dinvW ei hs1 hc hk hbE hbN hbC sd) (broadcastInDim S650000x1 ![0] hbC (wrapW hbE (endW ei 0 hs0 hc hk))))
    (Host.gather gd (dinvW ei hs1 hc hk hbE hbN hbC sd) (broadcastInDim S650000x1 ![0] hbC (wrapW hbE (endW ei 1 hs1 hc hk))))

/-- Every edge's weight is nonnegative. -/
theorem normW_nonneg (e : S650000.Idx) : (0 : EReal) ≤ normW ei hs0 hs1 hc hk hbE hbN hbC sd gd e := by
  have hz : ∀ i, broadcastInDim S10000 ![] hbN (constant (F := Ideal) S_ .f32 0x00000000#32) i = (0 : EReal) := by
    intro i
    show Ideal.ofBits .f32 0x00000000#32 = 0
    simp [Ideal.ofBits, Ideal.ieee]
  unfold normW dinvW
  exact norm_nonneg gd _ _ _ hz hz _ _ e

end Norm

end Cert.Edges

end
-- ==== Proof.KernelIdeal.HostAdj.lean ====
/-
  Two readings of the program's first host stretch: the vector of normalisation weights it computes is the
  one both programs spell, and the dense matrix it hands to the first kernel holds, at (a, b), the sum of the weights
  of the edges from b into a.
-/
import proofs.«411342_j57234734186920_3_alg».proof.Proof.Gen.KernelIdeal.Regions
import proofs.«411342_j57234734186920_3_alg».proof.Proof.HostRead
import proofs.«411342_j57234734186920_3_alg».proof.Proof.Edges
import proofs.«411342_j57234734186920_3_alg».proof.Proof.Spec
import Idealize.ShloMosaic.Lib.StableHlo.Run
import Idealize.ShloMosaic.Lib.Pipeline.Value
import Idealize.ShloMosaic.Lib.ValueIdx

noncomputable section

namespace Cert.KernelIdeal.HostVal

open Cert.KernelIdeal Cert.KernelIdeal.Gen Idealize.ShloMosaic Idealize.ShloMosaic.TcCoe Idealize.ShloMosaic.ValueIdx
open Idealize.ShloMosaic.StableHlo Idealize.SL.Sem Cert.Spec

variable (m : (ℓ : Loc nD τ sig) → Buf (Elt Ideal) ℓ) (c : Dev nD)

/-! ## The edges and their weights, as the program's first host stretch spells them -/

/-- The edge list as launched. -/
abbrev edges : IVec S2x640000 32 := m ((c : Thread nD τ).loc main_arg1)

/-- Edge `e`'s source node. -/
abbrev srcF (h : Cert.Edges.InRange (edges m c)) : Fin nE → Fin nN :=
  Cert.Edges.endF (edges m c) h 0 (by decide) Facts₀.slices_S2x640000_S1x640000_0_0 Facts₀.shapeCasts_S1x640000_S640000
    Facts₀.concatenates_S640000_S10000_S650000_d0

/-- Edge `e`'s target node. -/
abbrev dstF (h : Cert.Edges.InRange (edges m c)) : Fin nE → Fin nN :=
  Cert.Edges.endF (edges m c) h 1 (by decide) Facts₀.slices_S2x640000_S1x640000_1_0 Facts₀.shapeCasts_S1x640000_S640000
    Facts₀.concatenates_S640000_S10000_S650000_d0

/-- All the edges' weights, as one vector. -/
abbrev nrmV : FVec Ideal S650000 .f32 :=
  Cert.Edges.normW (edges m c) Facts₀.slices_S2x640000_S1x640000_0_0 Facts₀.slices_S2x640000_S1x640000_1_0
    Facts₀.shapeCasts_S1x640000_S640000 Facts₀.concatenates_S640000_S10000_S650000_d0 Facts₀.bcast_S_S650000 Facts₀.bcast_S_S10000
    Facts₀.bcast_S650000_S650000x1_0 scatter_S10000_S650000x1_S650000_n_0_0_1 gather_S10000_S650000x1_S650000_n_0_n_n_0_1_1

/-- Edge `e`'s weight. -/
abbrev nrm : Fin nE → EReal := fun e => nrmV m c (ix1 e)

/-- The results of the operations still standing inside a concatenation's operand list, one rewrite per operation. -/
local macro "results_rw" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

set_option maxRecDepth 65536 in
set_option maxHeartbeats 1000000 in
/-- The weights the program computes are the weights of the edges: the program's first host stretch, operation by
    operation, is the spelling of them shared by both programs. -/
theorem norm_eq : (V3 m c main_v29 : S650000.Idx → EReal) = nrmV m c := by
  dsimp only [Gen.V3, Gen.V2, Gen.V1, Gen.V0]
  after_results_simp
  results_rw
  simp only [TRef.ofBuf, TRef.toBuf, cast_eq, id_eq]
  dsimp only [nrmV, edges]
  unfold Cert.Edges.normW Cert.Edges.dinvW Cert.Edges.degW Cert.Edges.wrapW Cert.Edges.endW
  rfl

/-! ## The dense matrix of weights -/

/-- The targets and the sources of all the edges, as words. -/
abbrev dstW : IVec S650000 32 :=
  Cert.Edges.endW (edges m c) 1 Facts₀.slices_S2x640000_S1x640000_1_0 Facts₀.shapeCasts_S1x640000_S640000
    Facts₀.concatenates_S640000_S10000_S650000_d0
abbrev srcW : IVec S650000 32 :=
  Cert.Edges.endW (edges m c) 0 Facts₀.slices_S2x640000_S1x640000_0_0 Facts₀.shapeCasts_S1x640000_S640000
    Facts₀.concatenates_S640000_S10000_S650000_d0

/-- "A negative index counts from the end" at the padded extent, as the program spells it. -/
abbrev wrapP (v : IVec S650000 32) : IVec S650000 32 :=
  select (cmpi .slt v (broadcastInDim S650000 ![] Facts₀.bcast_S_S650000 (constantI S_ 32 0#32)))
    (addi v (broadcastInDim S650000 ![] Facts₀.bcast_S_S650000 (constantI S_ 32 10240#32))) v

/-- The table of start-index pairs: column 0 the targets, column 1 the sources. -/
abbrev pairIdx : IVec S650000x2 32 :=
  concatenate S650000x2 1
    [⟨S650000x1, broadcastInDim S650000x1 ![0] Facts₀.bcast_S650000_S650000x1_0 (wrapP (dstW m c))⟩,
     ⟨S650000x1, broadcastInDim S650000x1 ![0] Facts₀.bcast_S650000_S650000x1_0 (wrapP (srcW m c))⟩]
    Facts₀.concatenates_S650000x1_S650000x1_S650000x2_d1

/-- The last stretch before the first kernel, over whatever it finds: the converted matrix is the scatter of the
    weights it leaves, at the pair table it leaves, into the matrix it leaves. -/
theorem v45_after (W : Valuation τ sig (Elt Ideal)) :
    (StableHlo.after (hostOps0_2 (F := Ideal)) W main_v45 : S10240x10240.Idx → EReal) =
    truncf (F := Ideal) .bf16 (Host.scatterAdd (F := Ideal) scatter_S10240x10240_S650000x2_S650000_n_01_01_1
      (StableHlo.after (hostOps0_2 (F := Ideal)) W main_v30 : S10240x10240.Idx → EReal)
      (StableHlo.after (hostOps0_2 (F := Ideal)) W main_v43 : S650000x2.Idx → BitVec 32)
      (StableHlo.after (hostOps0_2 (F := Ideal)) W main_v29 : S650000.Idx → EReal)) Facts₀.bitsLt_bf16_f32 := by
  after_results_simp

/-- The matrix the scatter accumulates into is zero. -/
theorem v30_after (W : Valuation τ sig (Elt Ideal)) :
    (StableHlo.after (hostOps0_2 (F := Ideal)) W main_v30 : S10240x10240.Idx → EReal) =
    broadcastInDim S10240x10240 ![] Facts₀.bcast_S_S10240x10240 (constant (F := Ideal) S_ .f32 0x00000000#32) := by
  after_results_simp

set_option maxHeartbeats 1000000 in
/-- The pair table: the wrapped targets beside the wrapped sources. -/
theorem v43_after (W : Valuation τ sig (Elt Ideal)) :
    (StableHlo.after (hostOps0_2 (F := Ideal)) W main_v43 : S650000x2.Idx → BitVec 32) =
    concatenate S650000x2 1
      [⟨S650000x1, broadcastInDim S650000x1 ![0] Facts₀.bcast_S650000_S650000x1_0 (wrapP (W main_v6 : S650000.Idx → BitVec 32))⟩,
       ⟨S650000x1, broadcastInDim S650000x1 ![0] Facts₀.bcast_S650000_S650000x1_0 (wrapP (W main_v3 : S650000.Idx → BitVec 32))⟩]
      Facts₀.concatenates_S650000x1_S650000x1_S650000x2_d1 := by
  after_results_simp
  results_rw

set_option maxRecDepth 65536 in
/-- The word list of the sources, as the first stretch leaves it. -/
theorem srcW_eq : (V2 m c main_v3 : S650000.Idx → BitVec 32) = srcW m c := by
  rw [V2_of m c main_v3 (by decide)]
  dsimp only [Gen.V1, Gen.V0]
  after_results_simp
  results_rw
  dsimp only [srcW, edges]
  unfold Cert.Edges.endW
  rfl

set_option maxRecDepth 65536 in
/-- The word list of the targets, as the first stretch leaves it. -/
theorem dstW_eq : (V2 m c main_v6 : S650000.Idx → BitVec 32) = dstW m c := by
  rw [V2_of m c main_v6 (by decide)]
  dsimp only [Gen.V1, Gen.V0]
  after_results_simp
  results_rw
  dsimp only [dstW, edges]
  unfold Cert.Edges.endW
  rfl

/-- The matrix the program hands to the first kernel, as its operations spell it: the weights scattered, by
    accumulation, into a zero matrix at the (target, source) pairs, then converted. -/
theorem adjW_eq : (V3 m c main_v45 : S10240x10240.Idx → EReal) =
    truncf (F := Ideal) .bf16 (Host.scatterAdd (F := Ideal) scatter_S10240x10240_S650000x2_S650000_n_01_01_1
      (broadcastInDim S10240x10240 ![] Facts₀.bcast_S_S10240x10240 (constant (F := Ideal) S_ .f32 0x00000000#32))
      (pairIdx m c) (nrmV m c)) Facts₀.bitsLt_bf16_f32 := by
  have h := v45_after (V2 m c)
  rw [v30_after, v43_after, srcW_eq m c, dstW_eq m c] at h
  rw [← norm_eq m c]
  exact h

/-- On the words of edges' endpoints the wrap-around select changes nothing. -/
theorem wrapP_end (h : Cert.Edges.InRange (edges m c)) (r : ℕ) (hr : r < 2) (hs : S2x640000.Slices ![r, 0] S1x640000) :
    wrapP (Cert.Edges.endW (edges m c) r hs Facts₀.shapeCasts_S1x640000_S640000 Facts₀.concatenates_S640000_S10000_S650000_d0)
      = Cert.Edges.endW (edges m c) r hs Facts₀.shapeCasts_S1x640000_S640000 Facts₀.concatenates_S640000_S10000_S650000_d0 := by
  refine Cert.Edges.wrap_eq _ Facts₀.bcast_S_S650000 10240#32 (fun i => ?_)
  obtain ⟨e, rfl⟩ : ∃ e : Fin nE, i = ix1 e := ⟨i 0, eq_ix1 i⟩
  exact (Cert.Edges.endW_range (edges m c) h r hr hs _ _ e).1

/-- Column 0 of the pair table at edge `e`, read signed, is the edge's target. -/
theorem pairIdx_0 (h : Cert.Edges.InRange (edges m c)) (e : Fin nE) :
    (pairIdx m c (ix2 e (0 : Fin 2))).toInt = ((dstF m c h e).val : Int) := by
  have h1 : pairIdx m c (ix2 e (0 : Fin 2)) = dstW m c (ix1 e) := by
    show concatenate S650000x2 1 _ _ _ = _
    rw [concatenate_pair_apply_left (1 : Fin S650000x2.rank) _ _ Facts₀.concatenates_S650000x1_S650000x1_S650000x2_d1
      (ix2 e (0 : Fin 2)) rfl (ix2 e (0 : Fin 1)) (fun b => by match b with | ⟨0, _⟩ => rfl | ⟨1, _⟩ => rfl)]
    rw [Cert.Edges.column_apply, wrapP_end m c h 1 (by decide)]
  rw [h1]
  exact Cert.Edges.endW_toInt (edges m c) h 1 (by decide) _ _ _ e

/-- Column 1 of the pair table at edge `e`, read signed, is the edge's source. -/
theorem pairIdx_1 (h : Cert.Edges.InRange (edges m c)) (e : Fin nE) :
    (pairIdx m c (ix2 e (1 : Fin 2))).toInt = ((srcF m c h e).val : Int) := by
  have h1 : pairIdx m c (ix2 e (1 : Fin 2)) = srcW m c (ix1 e) := by
    show concatenate S650000x2 1 _ _ _ = _
    rw [concatenate_pair_apply_right (1 : Fin S650000x2.rank) _ _ Facts₀.concatenates_S650000x1_S650000x1_S650000x2_d1
      (ix2 e (1 : Fin 2)) rfl rfl (ix2 e (0 : Fin 1))
      (fun b hb => by match b with | ⟨0, _⟩ => rfl | ⟨1, _⟩ => exact absurd rfl hb) rfl]
    rw [Cert.Edges.column_apply, wrapP_end m c h 0 (by decide)]
  rw [h1]
  exact Cert.Edges.endW_toInt (edges m c) h 0 (by decide) _ _ _ e

/-- The accumulating scatter, whatever the instance, is the instance's. -/
theorem scatterAdd_unfold {F : FTy → Type} [FloatOps F] {s si u : Shape} {φ : FTy} {w : ℕ} (d : ScatterDims s si u)
    (x : FVec F s φ) (idx : IVec si w) (upd : FVec F u φ) :
    Host.scatterAdd d x idx upd = FloatOps.hostScatterAdd d .single x idx upd := rfl

/-- THE MATRIX. Entry `(a, b)` of the matrix the first kernel reads is the sum of the weights of the edges from `b`
    into `a`. -/
theorem adj_apply (h : Cert.Edges.InRange (edges m c)) (a b : Fin nP) :
    V3 m c main_v45 (ix2 a b) = adj (srcF m c h) (dstF m c h) (nrm m c) a b := by
  rw [adjW_eq, truncf_apply]
  show Ideal.hostScatterAdd scatter_S10240x10240_S650000x2_S650000_n_01_01_1 _ (pairIdx m c) (nrmV m c) (ix2 a b) = _
  rw [Cert.HostRead.scatterAdd_pairs scatter_S10240x10240_S650000x2_S650000_n_01_01_1 rfl rfl rfl rfl]
  have hz : broadcastInDim S10240x10240 ![] Facts₀.bcast_S_S10240x10240 (constant (F := Ideal) S_ .f32 0x00000000#32) (ix2 a b)
      = (0 : EReal) := by
    show Ideal.ofBits .f32 0x00000000#32 = 0
    simp [Ideal.ofBits, Ideal.ieee]
  rw [hz, zero_add]
  unfold adj
  refine Finset.sum_congr (Finset.filter_congr (fun e _ => ?_)) (fun _ _ => rfl)
  rw [pairIdx_0 m c h e, pairIdx_1 m c h e]
  constructor
  · rintro ⟨h1, h2⟩
    exact ⟨by exact_mod_cast h1, by exact_mod_cast h2⟩
  · rintro ⟨h1, h2⟩
    exact ⟨by exact_mod_cast h1, by exact_mod_cast h2⟩

end Cert.KernelIdeal.HostVal

end
-- ==== Proof.KernelIdeal.R0Pieces.lean ====
/- Region 0 of the program: what the pieces the runs found ARE, as the kernel's payloads of the input blocks — at the
   first reduction step the scratch ends with the update of the zero block, at the later steps with the update of what
   the step before left, and at the last step the output's buffer ends with the epilogue of the scratch. -/
import proofs.«411342_j57234734186920_3_alg».proof.Proof.KernelIdeal.R0Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The zero offsets of a rank-2 buffer, however spelt. -/
theorem hz2 : (![0, 0] : Fin 2 → Nat) = fun _ => 0 := funext fun a => by fin_cases a <;> rfl
/-- The zero offset of a rank-1 buffer. -/
theorem hz1 : (![0] : Fin 1 → Nat) = fun _ => 0 := funext fun a => by fin_cases a <;> rfl

/-- CASE A (reduction step 0): the body stores the zero block into the scratch, reads it back and leaves its update by
    the product of the two input blocks. -/
theorem sout0_A_0_eq (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : cond0_0 i) (hc1 : ¬cond0_1 i)
    (x0 : Vec F S2560x2560 .bf16) (x1 : Vec F S2560x128 .bf16) (x2 : Vec F S128 .f32) (x3 : Vec F S128x128 .bf16) :
    sout0_A_0 c i arg2 harg2 arg3 harg3 arg4 harg4 arg5 harg5 arg6 harg6 arg7 harg7 hc0 hc1 x0 x1 x2 x3 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words

  rw [View.canon_cons_unit_zero (S := S2560x128) hz2]
  simp only [View.readAt_eq_ld, harg2.read_unread, harg3.read_unread, View.ld_unit_zero (S := S2560x2560) hz2, View.ld_unit_zero (S := S2560x128) hz2, View.readCov_unit_zero (S := S2560x128) _ hz2]

/-- CASE B (reduction steps 1, 2): the body leaves in the scratch, entered at `xs0`, its update by the product of the
    two input blocks. -/
theorem sout0_B_0_eq (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : ¬cond0_1 i)
    (x0 : Vec F S2560x2560 .bf16) (x1 : Vec F S2560x128 .bf16) (x2 : Vec F S128 .f32) (x3 : Vec F S128x128 .bf16) (xs0 : Vec F S2560x128 .f32) :
    sout0_B_0 c i arg2 harg2 arg3 harg3 arg4 harg4 arg5 harg5 arg6 harg6 arg7 harg7 hc0 hc1 x0 x1 x2 x3 xs0 = k0_pay2 xs0 x0 x1 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words

  rw [View.canon_unit_zero (S := S2560x128) hz2]
  simp only [View.readAt_eq_ld, harg2.read_unread, harg3.read_unread, harg7.read_unread, View.ld_unit_zero (S := S2560x2560) hz2, View.ld_unit_zero (S := S2560x128) hz2]

/-- CASE C (reduction step 3), the scratch: the same update. -/
theorem sout0_C_0_eq (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : cond0_1 i)
    (x0 : Vec F S2560x2560 .bf16) (x1 : Vec F S2560x128 .bf16) (x2 : Vec F S128 .f32) (x3 : Vec F S128x128 .bf16) (xs0 : Vec F S2560x128 .f32) :
    sout0_C_0 c i arg2 harg2 arg3 harg3 arg4 harg4 arg5 harg5 arg6 harg6 arg7 harg7 hc0 hc1 x0 x1 x2 x3 xs0 = k0_pay2 xs0 x0 x1 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words

  rw [View.canon_unit_zero (S := S2560x128) hz2]
  simp only [View.readAt_eq_ld, harg2.read_unread, harg3.read_unread, harg7.read_unread, View.ld_unit_zero (S := S2560x2560) hz2, View.ld_unit_zero (S := S2560x128) hz2]

/-- CASE C (reduction step 3), the output window: the epilogue of the updated scratch with the bias and the weight
    blocks. -/
theorem out0_C_4_eq (c : Dev nD) (i : grid0.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S2560x128 .bf16) (harg6 : arg6.IsWhole) (arg7 : Memref sig .tc .vmem S2560x128 .f32) (harg7 : arg7.IsWhole) (hc0 : ¬cond0_0 i) (hc1 : cond0_1 i)
    (x0 : Vec F S2560x2560 .bf16) (x1 : Vec F S2560x128 .bf16) (x2 : Vec F S128 .f32) (x3 : Vec F S128x128 .bf16) (xs0 : Vec F S2560x128 .f32) :
    out0_C_4 c i arg2 harg2 arg3 harg3 arg4 harg4 arg5 harg5 arg6 harg6 arg7 harg7 hc0 hc1 x0 x1 x2 x3 xs0 = k0_pay3 (k0_pay2 xs0 x0 x1) x2 x3 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words

  rw [View.canon_unit_zero (S := S2560x128) hz2]
  simp only [View.readAt_eq_ld, harg2.read_unread, harg3.read_unread, harg4.read_unread, harg5.read_unread, harg7.read_unread, View.ld_unit_zero (S := S2560x2560) hz2, View.ld_unit_zero (S := S2560x128) hz2, View.ld_unit_zero (S := S128x128) hz2, View.ld_unit_zero (S := S128) hz1, View.readCov_unit_zero (S := S2560x128) _ hz2]

end Cert.KernelIdeal.Hand

end
-- ==== Proof.BlockSum.lean ====
/-
  Three general facts at the ideal values.

  A plain `[M × K] · [K × N]` product, whether accumulated into a zero array or taken with no accumulator, read at
  `(r, c)` is `∑ k, a (r, k) · b (k, c)`: the dimension numbers put the left operand's row and the right operand's
  column on the result's two axes and contract the one remaining axis of each, so the operand indices at result
  index `(r, c)` and contraction position `k` are `(r, k)` and `(k, c)`.

  A sum over 10240 positions taken as four blocks of 2560 is the whole sum, and a left-nested running total of four
  terms started at zero is their sum.
-/
import Idealize.ShloMosaic.PureOps.Ideal
import Idealize.ShloMosaic.PureOps.Ideal.Laws
import Idealize.ShloMosaic.Lib.ValueIdx
import Idealize.ShloMosaic.Lib.ValueIdxRank1
import Idealize.ShloMosaic.Lib.Pipeline.Value

noncomputable section

namespace Cert.BlockSum

open Idealize.ShloMosaic Idealize.ShloMosaic.ValueIdx

section Axes

variable {M K N : ℕ} (d : DotDims ⟨2, ![M, K]⟩ ⟨2, ![K, N]⟩ ⟨2, ![M, N]⟩)

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hln : d.lhsNonContracting = [0]) (hrb : d.rhsBatch = [])
    (hrn : d.rhsNonContracting = [1]) (j : (⟨2, ![M, N]⟩ : Shape).Idx) (k : d.contr.Idx) :
    (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- One axis is contracted. -/
theorem contr_rank (hlc : d.lhsContracting = [1]) : d.contr.rank = 1 := by rw [d.rank_contr, hlc]; rfl

/-- Its extent is `K`. -/
theorem contr_size (hlc : d.lhsContracting = [1]) :
    d.contr.size ⟨0, by rw [contr_rank d hlc]; exact Nat.one_pos⟩ = K := by
  have h := d.size_contr 0 (by rw [hlc]; exact Nat.one_pos)
  have e : ∀ (l : List (Fin (⟨2, ![M, K]⟩ : Shape).rank)) (hl : 0 < l.length), l = [1] →
      (⟨2, ![M, K]⟩ : Shape).size l[0] = K := by
    intro l hl e; subst e; rfl
  exact h.trans (e _ _ hlc)

/-- The sum over the contracted shape of the products at the operand indices, as a sum over `Fin K`. -/
theorem sum_contr (hlc : d.lhsContracting = [1]) (hrc : d.rhsContracting = [0]) (hln : d.lhsNonContracting = [0])
    (hrn : d.rhsNonContracting = [1]) (hlb : d.lhsBatch = []) (hrb : d.rhsBatch = [])
    (a : (⟨2, ![M, K]⟩ : Shape).Idx → EReal) (b : (⟨2, ![K, N]⟩ : Shape).Idx → EReal) (r : Fin M) (c : Fin N) :
    ∑ q : d.contr.Idx, a (d.lhsIdx (ix2 r c) q) * b (d.rhsIdx (ix2 r c) q) = ∑ k : Fin K, a (ix2 r k) * b (ix2 k c) := by
  have hrank := contr_rank d hlc
  have hsize := contr_size d hlc
  rw [← (contrEquiv1 d K hrank hsize).symm.sum_comp]
  refine Finset.sum_congr rfl (fun k _ => ?_)
  have hk := contrEquiv1_symm_val d K hrank hsize k
  have e1 : d.lhsIdx (ix2 r c) ((contrEquiv1 d K hrank hsize).symm k) = ix2 r k := by
    funext ax
    apply Fin.ext
    match ax with
    | ⟨0, _⟩ => exact lhs_row d hlb hln _ _
    | ⟨1, _⟩ => exact (lhs_col d hlc _ _).trans hk
  have e2 : d.rhsIdx (ix2 r c) ((contrEquiv1 d K hrank hsize).symm k) = ix2 k c := by
    funext ax
    apply Fin.ext
    match ax with
    | ⟨0, _⟩ => exact (rhs_row d hrc _ _).trans hk
    | ⟨1, _⟩ => exact rhs_col d hlb hln hrb hrn _ _
  rw [e1, e2]

end Axes

/-- A plain product accumulated into a zero array, read at `(r, c)`. -/
theorem matmul_zero_apply {M K N : ℕ} {φl φr : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (a : FVec Ideal ⟨2, ![M, K]⟩ φl) (b : FVec Ideal ⟨2, ![K, N]⟩ φr)
    (z : FVec Ideal ⟨2, ![M, N]⟩ .f32) (hz : ∀ i, z i = (0 : EReal)) (r : Fin M) (c : Fin N) :
    matmul (F := Ideal) d prec a b z (ix2 r c) = ∑ k : Fin K, a (ix2 r k) * b (ix2 k c) := by
  show FloatOps.matmul d prec a b z (ix2 r c) = _
  rw [Ideal.matmul_apply, hz, zero_add]
  exact sum_contr d hlc hrc hln hrn hlb hrb a b r c

/-- A plain product with no accumulator, read at `(i, j)`. -/
theorem dotGeneral_apply2 {M K N : ℕ} {φl φr : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φl) (r : FVec Ideal ⟨2, ![K, N]⟩ φr)
    (i : Fin M) (j : Fin N) :
    Host.dotGeneral (F := Ideal) d prec l r (ix2 i j) = ∑ k : Fin K, l (ix2 i k) * r (ix2 k j) := by
  show FloatOps.dotGeneral d prec .single l r (ix2 i j) = _
  rw [Ideal.dotGeneral_apply]
  exact sum_contr d hlc hrc hln hrn hlb hrb l r i j

/-- A sum over `m · n` positions taken as `m` blocks of `n`. -/
theorem sum_blocks_gen {m n : ℕ} (f : Fin (m * n) → EReal) :
    ∑ k : Fin m, ∑ kk : Fin n, f ⟨n * k.val + kk.val, by
      have h1 := k.isLt; have h2 := kk.isLt
      calc n * k.val + kk.val < n * k.val + n := by omega
        _ = n * (k.val + 1) := by ring
        _ ≤ n * m := Nat.mul_le_mul_left n h1
        _ = m * n := Nat.mul_comm n m⟩ = ∑ j : Fin (m * n), f j := by
  rw [← Fintype.sum_prod_type']
  refine Fintype.sum_equiv finProdFinEquiv _ _ (fun x => congrArg f (Fin.ext ?_))
  show n * x.1.val + x.2.val = x.2.val + n * x.1.val
  omega

/-- Four blocks of 2560 make up 10240 positions. -/
theorem sum_blocks (f : Fin 10240 → EReal) :
    ∑ k : Fin 4, ∑ kk : Fin 2560, f ⟨2560 * k.val + kk.val, by have := k.isLt; have := kk.isLt; omega⟩
      = ∑ j : Fin 10240, f j :=
  sum_blocks_gen (m := 4) (n := 2560) f

/-- A running total of four terms started at zero. -/
theorem sum_four (g : Fin 4 → EReal) : (((0 + g 0) + g 1) + g 2) + g 3 = ∑ k, g k := by
  rw [Fin.sum_univ_four, zero_add]

end Cert.BlockSum

end
-- ==== Proof.KernelIdeal.R0Value.lean ====
/- Region 0 of the program at the ideal values: THE VALUE of its output array. Each payload of the kernel body read at an
   entry (the reset is zero; a reduction step adds the product of the adjacency block and the feature block; the epilogue
   adds the bias, rectifies and multiplies by the weight block); each input block read off its array (a block's
   coordinate is the block index times the block's extent plus the coordinate inside the block); the four reduction steps
   of a row block chained from the reset, whose four partial sums over 2560 columns regroup into ONE sum over the 10240
   padded nodes; and, the output's blocks tiling its array by row blocks, the array's entry `(p, q)` is the first layer of
   the dense aggregation there. -/
import proofs.«411342_j57234734186920_3_alg».proof.Proof.KernelIdeal.R0Pieces
import proofs.«411342_j57234734186920_3_alg».proof.Proof.Spec
import proofs.«411342_j57234734186920_3_alg».proof.Proof.BlockSum
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Cert.Spec Idealize.ShloMosaic.ValueIdx

/-! ## The payloads at an index, at the ideal values -/

/-- The reset block is zero everywhere. -/
theorem pay1_apply (j : S2560x128.Idx) : k0_pay1 (F := Ideal) j = 0 := by
  unfold k0_pay1
  simp only [shapeCast_self]
  exact Ideal.ofBits_zero_f32

/-- One reduction step: the accumulator plus the product of the two blocks, entry by entry. -/
theorem pay2_apply (acc : Vec Ideal S2560x128 .f32) (a : Vec Ideal S2560x2560 .bf16) (h : Vec Ideal S2560x128 .bf16)
    (r : Fin 2560) (d : Fin 128) :
    k0_pay2 (F := Ideal) acc a h (ix2 r d) = acc (ix2 r d) + ∑ kk : Fin 2560, a (ix2 r kk) * h (ix2 kk d) := by
  unfold k0_pay2
  simp only [shapeCast_self]
  exact congrArg (fun z => acc (ix2 r d) + z)
    (Cert.BlockSum.matmul_zero_apply dot_S2560x2560_S2560x128_S2560x128_1_0_0_1_n_n rfl rfl rfl rfl rfl rfl none a h
      (constant S2560x128 .f32 0x00000000#32) (fun _ => Ideal.ofBits_zero_f32) r d)

/-- The epilogue: bias, rectification, then the product with the weight block. -/
theorem pay3_apply (acc : Vec Ideal S2560x128 .f32) (b : Vec Ideal S128 .f32) (w : Vec Ideal S128x128 .bf16)
    (r : Fin 2560) (q : Fin 128) :
    k0_pay3 (F := Ideal) acc b w (ix2 r q) = ∑ d : Fin 128, max (acc (ix2 r d) + b (ix1 d)) 0 * w (ix2 d q) := by
  unfold k0_pay3
  simp only [shapeCast_self]
  refine (Cert.BlockSum.matmul_zero_apply (φl := .bf16) (φr := .bf16) dot_S2560x128_S128x128_S2560x128_1_0_0_1_n_n rfl rfl rfl rfl rfl rfl none _ w
      (constant S2560x128 .f32 0x00000000#32) (fun _ => Ideal.ofBits_zero_f32) r q).trans ?_
  refine Finset.sum_congr rfl (fun d _ => ?_)
  refine congrArg (fun z => z * w (ix2 d q)) ?_
  show max (acc (ix2 r d) + broadcastTo S2560x128 (shapeCast S1x128 b shapeCasts_S128_S1x128) broadcasts_S1x128_S2560x128 (ix2 r d)) (Ideal.ofBits .f32 0x00000000#32) = _
  rw [broadcastTo_1b_ab_apply, shapeCast_a_1a_apply, Ideal.ofBits_zero_f32]

/-- Four reduction steps from the reset. -/
def chain4 (a0 a1 a2 a3 : Vec Ideal S2560x2560 .bf16) (h0 h1 h2 h3 : Vec Ideal S2560x128 .bf16) : Vec Ideal S2560x128 .f32 :=
  k0_pay2 (k0_pay2 (k0_pay2 (k0_pay2 (k0_pay1 (F := Ideal)) a0 h0) a1 h1) a2 h2) a3 h3

theorem chain4_apply (a0 a1 a2 a3 : Vec Ideal S2560x2560 .bf16) (h0 h1 h2 h3 : Vec Ideal S2560x128 .bf16) (r : Fin 2560) (d : Fin 128) :
    chain4 a0 a1 a2 a3 h0 h1 h2 h3 (ix2 r d)
      = (((0 + ∑ kk : Fin 2560, a0 (ix2 r kk) * h0 (ix2 kk d)) + ∑ kk : Fin 2560, a1 (ix2 r kk) * h1 (ix2 kk d))
          + ∑ kk : Fin 2560, a2 (ix2 r kk) * h2 (ix2 kk d)) + ∑ kk : Fin 2560, a3 (ix2 r kk) * h3 (ix2 kk d) := by
  unfold chain4
  rw [pay2_apply, pay2_apply, pay2_apply, pay2_apply, pay1_apply]

/-! ## The index maps, decided over the grid -/

theorem idx_facts0 : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N, _)

section Region0
variable (V : (c : Dev nD) → (b : Ref sig .tc) → Buf (Elt Ideal) ((c : Thread nD τ).loc b)) (c : Dev nD)

/-! ## The input blocks, named at their literal types, and read off the arrays -/

abbrev X0 (t : Fin cfg0.N) : Vec Ideal S2560x2560 .bf16 := iblk0 V c 0 t
abbrev X1 (t : Fin cfg0.N) : Vec Ideal S2560x128 .bf16 := iblk0 V c 1 t
abbrev X2 (t : Fin cfg0.N) : Vec Ideal S128 .f32 := iblk0 V c 2 t
abbrev X3 (t : Fin cfg0.N) : Vec Ideal S128x128 .bf16 := iblk0 V c 3 t

/-- The arrays the region reads, over plain coordinates. -/
abbrev arrA (i j : Fin nP) : EReal := V c main_v45 (ix2 i j)
abbrev arrH (j : Fin nP) (d : Fin 128) : EReal := V c main_v50 (ix2 j d)
abbrev arrB (d : Fin 128) : EReal := V c main_arg3 (ix1 d)
abbrev arrW (d k : Fin 128) : EReal := V c main_v54 (ix2 d k)

/-- The adjacency block at point `t`: rows of row block `t / 4`, columns of column block `t % 4`. -/
theorem X0_apply (t : Fin cfg0.N) (r kk : Fin 2560) (i j : Fin nP)
    (hi : i.val = 2560 * (t.val / 4) + r.val) (hj : j.val = 2560 * (t.val % 4) + kk.val) :
    X0 V c t (ix2 r kk) = arrA V c i j := by
  obtain ⟨e0, e1, -⟩ := idx_facts0 t
  unfold X0 iblk0
  rw [View.read_apply]
  show V c main_v45 _ = V c main_v45 _
  congr 1
  funext a
  apply Fin.ext
  match a with
  | ⟨0, _⟩ => show win0_0.index t 0 * 2560 + 1 * r.val = i.val; rw [e0, hi]; omega
  | ⟨1, _⟩ => show win0_0.index t 1 * 2560 + 1 * kk.val = j.val; rw [e1, hj]; omega

/-- The feature block at point `t`: rows of block `t % 4`. -/
theorem X1_apply (t : Fin cfg0.N) (kk : Fin 2560) (d : Fin 128) (j : Fin nP)
    (hj : j.val = 2560 * (t.val % 4) + kk.val) :
    X1 V c t (ix2 kk d) = arrH V c j d := by
  obtain ⟨-, -, e0, e1, -⟩ := idx_facts0 t
  unfold X1 iblk0
  rw [View.read_apply]
  show V c main_v50 _ = V c main_v50 _
  congr 1
  funext a
  apply Fin.ext
  match a with
  | ⟨0, _⟩ => show win0_1.index t 0 * 2560 + 1 * kk.val = j.val; rw [e0, hj]; omega
  | ⟨1, _⟩ => show win0_1.index t 1 * 128 + 1 * d.val = d.val; rw [e1]; omega

/-- The bias block is the whole bias. -/
theorem X2_apply (t : Fin cfg0.N) (d : Fin 128) : X2 V c t (ix1 d) = arrB V c d := by
  obtain ⟨-, -, -, -, e0, -⟩ := idx_facts0 t
  unfold X2 iblk0
  rw [View.read_apply]
  show V c main_arg3 _ = V c main_arg3 _
  congr 1
  funext a
  apply Fin.ext
  match a with
  | ⟨0, _⟩ => show win0_2.index t 0 * 128 + 1 * d.val = d.val; rw [e0]; omega

/-- The weight block is the whole weight. -/
theorem X3_apply (t : Fin cfg0.N) (d k : Fin 128) : X3 V c t (ix2 d k) = arrW V c d k := by
  obtain ⟨-, -, -, -, -, e0, e1, -⟩ := idx_facts0 t
  unfold X3 iblk0
  rw [View.read_apply]
  show V c main_v54 _ = V c main_v54 _
  congr 1
  funext a
  apply Fin.ext
  match a with
  | ⟨0, _⟩ => show win0_3.index t 0 * 128 + 1 * d.val = d.val; rw [e0]; omega
  | ⟨1, _⟩ => show win0_3.index t 1 * 128 + 1 * k.val = k.val; rw [e1]; omega

/-! ## The scratch and the output's buffer after a point, case by case, as payloads of the blocks -/

/-- After the first reduction step of a row block the scratch holds the update of the zero block. -/
theorem scr_A (n : ℕ) (hn : n < cfg0.N) (h0 : n % 4 = 0) :
    (outsAt0 V c n hn).2 = k0_pay2 (k0_pay1 (F := Ideal)) (X0 V c ⟨n, hn⟩) (X1 V c ⟨n, hn⟩) := by
  have h1 : ¬ n % 4 = 3 := by omega
  rw [outsAt0_A V c ⟨n, hn⟩ h0 h1]
  dsimp only
  exact sout0_A_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) ((hcond0_0 ⟨n, hn⟩).mpr h0) (fun h => h1 ((hcond0_1 ⟨n, hn⟩).mp h)) (iblk0 V c 0 ⟨n, hn⟩) (iblk0 V c 1 ⟨n, hn⟩) (iblk0 V c 2 ⟨n, hn⟩) (iblk0 V c 3 ⟨n, hn⟩)

/-- After a middle reduction step it holds the update of what the step before left. -/
theorem scr_B (n n' : ℕ) (hn : n < cfg0.N) (hn' : n' < cfg0.N) (e : n' = n - 1) (h0 : ¬ n % 4 = 0) (h1 : ¬ n % 4 = 3) :
    (outsAt0 V c n hn).2 = k0_pay2 (outsAt0 V c n' hn').2 (X0 V c ⟨n, hn⟩) (X1 V c ⟨n, hn⟩) := by
  subst e
  rw [outsAt0_B V c ⟨n, hn⟩ h0 h1]
  dsimp only
  exact sout0_B_0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) (fun h => h0 ((hcond0_0 ⟨n, hn⟩).mp h)) (fun h => h1 ((hcond0_1 ⟨n, hn⟩).mp h)) (iblk0 V c 0 ⟨n, hn⟩) (iblk0 V c 1 ⟨n, hn⟩) (iblk0 V c 2 ⟨n, hn⟩) (iblk0 V c 3 ⟨n, hn⟩) (outsAt0 V c (n - 1) hn').2

/-- After the last reduction step the output's buffer holds the epilogue of the updated scratch. -/
theorem out_C (n n' : ℕ) (hn : n < cfg0.N) (hn' : n' < cfg0.N) (e : n' = n - 1) (h3 : n % 4 = 3) :
    (outsAt0 V c n hn).1 = k0_pay3 (k0_pay2 (outsAt0 V c n' hn').2 (X0 V c ⟨n, hn⟩) (X1 V c ⟨n, hn⟩)) (X2 V c ⟨n, hn⟩) (X3 V c ⟨n, hn⟩) := by
  subst e
  have h0 : ¬ n % 4 = 0 := by omega
  rw [outsAt0_C V c ⟨n, hn⟩ h0 h3]
  dsimp only
  exact out0_C_4_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) (fun h => h0 ((hcond0_0 ⟨n, hn⟩).mp h)) ((hcond0_1 ⟨n, hn⟩).mpr h3) (iblk0 V c 0 ⟨n, hn⟩) (iblk0 V c 1 ⟨n, hn⟩) (iblk0 V c 2 ⟨n, hn⟩) (iblk0 V c 3 ⟨n, hn⟩) (outsAt0 V c (n - 1) hn').2

/-- The output's buffer after the last point of row block `I`: the epilogue of the four steps' chain. -/
theorem out_rowblock (I : Fin 4) (h0 : 4 * I.val + 0 < cfg0.N) (h1 : 4 * I.val + 1 < cfg0.N) (h2 : 4 * I.val + 2 < cfg0.N) (h3 : 4 * I.val + 3 < cfg0.N) :
    (outsAt0 V c (4 * I.val + 3) h3).1
      = k0_pay3 (chain4 (X0 V c ⟨4 * I.val + 0, h0⟩) (X0 V c ⟨4 * I.val + 1, h1⟩) (X0 V c ⟨4 * I.val + 2, h2⟩) (X0 V c ⟨4 * I.val + 3, h3⟩)
          (X1 V c ⟨4 * I.val + 0, h0⟩) (X1 V c ⟨4 * I.val + 1, h1⟩) (X1 V c ⟨4 * I.val + 2, h2⟩) (X1 V c ⟨4 * I.val + 3, h3⟩))
          (X2 V c ⟨4 * I.val + 3, h3⟩) (X3 V c ⟨4 * I.val + 3, h3⟩) := by
  rw [out_C V c (4 * I.val + 3) (4 * I.val + 2) h3 h2 (by omega) (by omega),
    scr_B V c (4 * I.val + 2) (4 * I.val + 1) h2 h1 (by omega) (by omega) (by omega),
    scr_B V c (4 * I.val + 1) (4 * I.val + 0) h1 h0 (by omega) (by omega) (by omega),
    scr_A V c (4 * I.val + 0) h0 (by omega)]
  rfl

/-! ## The value of a row block -/

/-- One term of the aggregation's inner sum at row `p` and column `d`. -/
abbrev fterm (p : Fin nP) (d : Fin 128) (j : Fin nP) : EReal := arrA V c p j * arrH V c j d

/-- One column block's share of a sum over the padded nodes. -/
def gsum (f : Fin 10240 → EReal) (k : Fin 4) : EReal :=
  ∑ kk : Fin 2560, f ⟨2560 * k.val + kk.val, by have := k.isLt; have := kk.isLt; omega⟩

/-- The product of the two blocks at point `4 I + k`, at a row of row block `I`, is column block `k`'s share. -/
theorem blocksum_eq (I : Fin 4) (k : ℕ) (hk : k < 4) (ht : 4 * I.val + k < cfg0.N) (r : Fin 2560) (d : Fin 128) (p : Fin nP)
    (hp : p.val = 2560 * I.val + r.val) :
    ∑ kk : Fin 2560, X0 V c ⟨4 * I.val + k, ht⟩ (ix2 r kk) * X1 V c ⟨4 * I.val + k, ht⟩ (ix2 kk d)
      = gsum (fterm V c p d) ⟨k, hk⟩ := by
  unfold gsum
  refine Finset.sum_congr rfl (fun kk _ => ?_)
  have hI := I.isLt
  have hkk := kk.isLt
  rw [X0_apply V c ⟨4 * I.val + k, ht⟩ r kk p ⟨2560 * k + kk.val, by show _ < 10240; omega⟩
      (by show p.val = 2560 * ((4 * I.val + k) / 4) + r.val; omega)
      (by show 2560 * k + kk.val = 2560 * ((4 * I.val + k) % 4) + kk.val; omega),
    X1_apply V c ⟨4 * I.val + k, ht⟩ kk d ⟨2560 * k + kk.val, by show _ < 10240; omega⟩
      (by show 2560 * k + kk.val = 2560 * ((4 * I.val + k) % 4) + kk.val; omega)]

/-- The chain of the four steps of row block `I`, at a row, is the whole inner sum. -/
theorem acc_row (I : Fin 4) (h0 : 4 * I.val + 0 < cfg0.N) (h1 : 4 * I.val + 1 < cfg0.N) (h2 : 4 * I.val + 2 < cfg0.N) (h3 : 4 * I.val + 3 < cfg0.N)
    (r : Fin 2560) (d : Fin 128) (p : Fin nP) (hp : p.val = 2560 * I.val + r.val) :
    chain4 (X0 V c ⟨4 * I.val + 0, h0⟩) (X0 V c ⟨4 * I.val + 1, h1⟩) (X0 V c ⟨4 * I.val + 2, h2⟩) (X0 V c ⟨4 * I.val + 3, h3⟩)
        (X1 V c ⟨4 * I.val + 0, h0⟩) (X1 V c ⟨4 * I.val + 1, h1⟩) (X1 V c ⟨4 * I.val + 2, h2⟩) (X1 V c ⟨4 * I.val + 3, h3⟩) (ix2 r d)
      = ∑ j : Fin nP, arrA V c p j * arrH V c j d := by
  rw [chain4_apply, blocksum_eq V c I 0 (by omega) h0 r d p hp, blocksum_eq V c I 1 (by omega) h1 r d p hp,
    blocksum_eq V c I 2 (by omega) h2 r d p hp, blocksum_eq V c I 3 (by omega) h3 r d p hp]
  exact (Cert.BlockSum.sum_four (gsum (fterm V c p d))).trans (Cert.BlockSum.sum_blocks (fterm V c p d))

/-- The output's buffer after the last point of row block `I`, at a row: the layer's value there. -/
theorem out_rowblock_apply (I : Fin 4) (h0 : 4 * I.val + 0 < cfg0.N) (h1 : 4 * I.val + 1 < cfg0.N) (h2 : 4 * I.val + 2 < cfg0.N) (h3 : 4 * I.val + 3 < cfg0.N)
    (r : Fin 2560) (q : Fin 128) (p : Fin nP) (hp : p.val = 2560 * I.val + r.val) :
    (outsAt0 V c (4 * I.val + 3) h3).1 (ix2 r q) = layer1 (arrA V c) (arrH V c) (arrB V c) (arrW V c) p q := by
  rw [out_rowblock V c I h0 h1 h2 h3, pay3_apply]
  unfold layer1
  refine Finset.sum_congr rfl (fun d _ => ?_)
  rw [acc_row V c I h0 h1 h2 h3 r d p hp, X2_apply, X3_apply]

/-! ## From the row blocks to the array -/

/-- The array the region's output ends holding. -/
def G0 : Buf (Elt Ideal) ((c : Thread nD τ).loc main_v55) :=
  (fun i => layer1 (arrA V c) (arrH V c) (arrB V c) (arrW V c) (i 0) (i 1) : S10240x128.Idx → EReal)

theorem outsAt0_congr (n n' : ℕ) (hn : n < cfg0.N) (hn' : n' < cfg0.N) (e : n = n') : outsAt0 V c n hn = outsAt0 V c n' hn' := by
  subst e; rfl

/-- What a flushing point writes back is its block of that array. -/
theorem flushed_eq (t : Fin cfg0.N) (hf : (cfg0.win 4).flush t = true) :
    (dat0 V c).flushed 4 t = ((cfg0.win 4).blk t).view.read (Elt Ideal) (G0 V c) := by
  have h3 : t.val % 4 = 3 := (flush0_4 t).mp hf
  have hN : t.val < 16 := lt_of_lt_of_eq t.isLt (show cfg0.N = 16 from N_0)
  have hN' : cfg0.N = 16 := N_0
  have hb : ∀ k, k < 4 → 4 * (t.val / 4) + k < cfg0.N := fun k hk => lt_of_lt_of_eq (by omega) hN'.symm
  obtain ⟨-, -, -, -, -, -, -, e40, e41⟩ := idx_facts0 t
  show (cfg0.win 4).cut (grid0.coords t) ((dat0 V c).after 4 t) = _
  rw [after0_4]
  refine funext fun (y : S2560x128.Idx) => ?_
  obtain ⟨r, q, rfl⟩ : ∃ (r : Fin 2560) (q : Fin 128), y = ix2 r q := ⟨y 0, y 1, eq_ix2 y⟩
  have hq : (((cfg0.win 4).blk t).view.emb (ix2 r q)) 1 = q :=
    Fin.ext (by show win0_4.index t 1 * 128 + 1 * q.val = q.val; rw [e41]; omega)
  show (outsAt0 V c t.val t.isLt).1 (ix2 r q)
    = layer1 (arrA V c) (arrH V c) (arrB V c) (arrW V c) ((((cfg0.win 4).blk t).view.emb (ix2 r q)) 0) ((((cfg0.win 4).blk t).view.emb (ix2 r q)) 1)
  rw [hq, outsAt0_congr V c t.val (4 * (⟨t.val / 4, by omega⟩ : Fin 4).val + 3) t.isLt (hb 3 (by omega)) (by show t.val = 4 * (t.val / 4) + 3; omega)]
  exact out_rowblock_apply V c ⟨t.val / 4, by omega⟩ (hb 0 (by omega)) (hb 1 (by omega)) (hb 2 (by omega)) (hb 3 (by omega)) r q _
    (by show win0_4.index t 0 * 2560 + 1 * r.val = 2560 * (t.val / 4) + r.val; rw [e40]; omega)

/-- Every entry of the array is in the block of the last point of its row block. -/
theorem cover0 (i : S10240x128.Idx) : ∃ t : Fin cfg0.N, (cfg0.win 4).flush t = true ∧ i ∈ ((cfg0.win 4).blk t).view.set := by
  have hi0 : (i 0).val < 10240 := (i 0).isLt
  have hi1 : (i 1).val < 128 := (i 1).isLt
  have hN : cfg0.N = 16 := N_0
  obtain ⟨t, ht⟩ : ∃ t : Fin cfg0.N, t.val = 4 * ((i 0).val / 2560) + 3 := ⟨⟨4 * ((i 0).val / 2560) + 3, by rw [hN]; omega⟩, rfl⟩
  obtain ⟨-, -, -, -, -, -, -, e40, e41⟩ := idx_facts0 t
  refine ⟨t, (flush0_4 t).mpr (by omega), ?_⟩
  show i ∈ ((View.whole main_v55).slice (win0_4.rect t)).set
  rw [View.set_slice_whole, Rect.mem_set_unit]
  intro a
  match a with
  | ⟨0, _⟩ =>
    show win0_4.index t 0 * 2560 ≤ (i 0).val ∧ (i 0).val < win0_4.index t 0 * 2560 + 2560
    rw [e40]
    omega
  | ⟨1, _⟩ =>
    show win0_4.index t 1 * 128 ≤ (i 1).val ∧ (i 1).val < win0_4.index t 1 * 128 + 128
    rw [e41]
    omega

/-- THE VALUE of the region's output array: the first layer of the dense aggregation, entry by entry. -/
theorem final0 (p : Fin nP) (q : Fin 128) :
    (dat0 (F := Ideal) V c).arrAt 4 cfg0.N (ix2 p q)
      = layer1 (fun i j => V c main_v45 (ix2 i j)) (fun j d => V c main_v50 (ix2 j d)) (fun d => V c main_arg3 (ix1 d)) (fun d k => V c main_v54 (ix2 d k)) p q := by
  rw [(dat0 V c).arrAt_eq_of_cover 4 (G0 V c) (flushed_eq V c) cover0]
  rfl

end Region0

end Cert.KernelIdeal.Hand

end
-- ==== Proof.KernelIdeal.R1Pieces.lean ====
/- Region 1: each case's found pieces, read back, are the body's payloads of the input blocks and of the carried
   scratch. -/
import proofs.«411342_j57234734186920_3_alg».proof.Proof.KernelIdeal.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

namespace R1
/-- The zero offsets of a whole-buffer access, as constant functions. -/
theorem hz2 : (![0, 0] : Fin 2 → Nat) = fun _ => 0 := funext fun a => by fin_cases a <;> rfl
theorem hz1 : (![0] : Fin 1 → Nat) = fun _ => 0 := funext fun a => by fin_cases a <;> rfl
end R1

/-- At the first reduction step the scratch ends with the accumulation over the zero block: the zero block is stored,
    read back, and the product of the two input blocks is added to it. -/
theorem sout1_A_0_eq (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : cond1_0 i) (hc1 : ¬cond1_1 i)
    (x0 : Vec F S2560x2560 .bf16) (x1 : Vec F S2560x128 .bf16) (x2 : Vec F S128 .f32) :
    sout1_A_0 c i arg2 harg2 arg3 harg3 arg4 harg4 arg5 harg5 arg6 harg6 hc0 hc1 x0 x1 x2 = k1_pay2 (k1_pay1 (F := F)) x0 x1 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S2560x128) R1.hz2]
  simp only [View.readAt_eq_ld, harg2.read_unread, harg3.read_unread, harg4.read_unread, harg6.read_unread, View.ld_unit_zero (S := S2560x2560) R1.hz2, View.ld_unit_zero (S := S2560x128) R1.hz2, View.ld_unit_zero (S := S128) R1.hz1, View.readCov_unit_zero (S := S2560x128) _ R1.hz2]

/-- At a middle reduction step the scratch ends with the accumulation over what the step before left. -/
theorem sout1_B_0_eq (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : ¬cond1_1 i)
    (x0 : Vec F S2560x2560 .bf16) (x1 : Vec F S2560x128 .bf16) (x2 : Vec F S128 .f32) (xs0 : Vec F S2560x128 .f32) :
    sout1_B_0 c i arg2 harg2 arg3 harg3 arg4 harg4 arg5 harg5 arg6 harg6 hc0 hc1 x0 x1 x2 xs0 = k1_pay2 xs0 x0 x1 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero (S := S2560x128) R1.hz2]
  simp only [View.readAt_eq_ld, harg2.read_unread, harg3.read_unread, harg4.read_unread, harg6.read_unread, View.ld_unit_zero (S := S2560x2560) R1.hz2, View.ld_unit_zero (S := S2560x128) R1.hz2, View.ld_unit_zero (S := S128) R1.hz1, View.readCov_unit_zero (S := S2560x128) _ R1.hz2]

/-- At the last reduction step the scratch ends with the accumulation over what the step before left, -/
theorem sout1_C_0_eq (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : cond1_1 i)
    (x0 : Vec F S2560x2560 .bf16) (x1 : Vec F S2560x128 .bf16) (x2 : Vec F S128 .f32) (xs0 : Vec F S2560x128 .f32) :
    sout1_C_0 c i arg2 harg2 arg3 harg3 arg4 harg4 arg5 harg5 arg6 harg6 hc0 hc1 x0 x1 x2 xs0 = k1_pay2 xs0 x0 x1 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero (S := S2560x128) R1.hz2]
  simp only [View.readAt_eq_ld, harg2.read_unread, harg3.read_unread, harg4.read_unread, harg6.read_unread, View.ld_unit_zero (S := S2560x2560) R1.hz2, View.ld_unit_zero (S := S2560x128) R1.hz2, View.ld_unit_zero (S := S128) R1.hz1, View.readCov_unit_zero (S := S2560x128) _ R1.hz2]

/-- and the output's buffer with the epilogue of that accumulation and the third input block. -/
theorem out1_C_3_eq (c : Dev nD) (i : grid1.Coords) (arg2 : Memref sig .tc .vmem S2560x2560 .bf16) (harg2 : arg2.IsWhole) (arg3 : Memref sig .tc .vmem S2560x128 .bf16) (harg3 : arg3.IsWhole) (arg4 : Memref sig .tc .vmem S128 .f32) (harg4 : arg4.IsWhole) (arg5 : Memref sig .tc .vmem S2560x128 .f32) (harg5 : arg5.IsWhole) (arg6 : Memref sig .tc .vmem S2560x128 .f32) (harg6 : arg6.IsWhole) (hc0 : ¬cond1_0 i) (hc1 : cond1_1 i)
    (x0 : Vec F S2560x2560 .bf16) (x1 : Vec F S2560x128 .bf16) (x2 : Vec F S128 .f32) (xs0 : Vec F S2560x128 .f32) :
    out1_C_3 c i arg2 harg2 arg3 harg3 arg4 harg4 arg5 harg5 arg6 harg6 hc0 hc1 x0 x1 x2 xs0 = k1_pay3 (k1_pay2 xs0 x0 x1) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S2560x128) R1.hz2]
  simp only [View.readAt_eq_ld, harg2.read_unread, harg3.read_unread, harg4.read_unread, harg6.read_unread, View.ld_unit_zero (S := S2560x2560) R1.hz2, View.ld_unit_zero (S := S2560x128) R1.hz2, View.ld_unit_zero (S := S128) R1.hz1, View.readCov_unit_zero (S := S2560x128) _ R1.hz2]

end Cert.KernelIdeal.Hand

end
-- ==== Proof.KernelIdeal.R1Value.lean ====
/- Region 1 at the ideal values: the output array after the region is one dense aggregation followed by a bias,
   `layer2` of the three operand arrays as the region finds them. Each payload is read at an index; the carried
   accumulator after the four reduction steps of a row block is the left-nested total of four block products, which
   is the whole inner sum; the last step adds the bias and its block is written back; the four row blocks cover
   the array. -/
import proofs.«411342_j57234734186920_3_alg».proof.Proof.KernelIdeal.R1Pieces
import proofs.«411342_j57234734186920_3_alg».proof.Proof.Spec
import proofs.«411342_j57234734186920_3_alg».proof.Proof.BlockSum
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Cert.Spec Idealize.ShloMosaic.ValueIdx
open Idealize.ShloMosaic Idealize.ShloMosaic.TcCoe Idealize.ShloMosaic.Tactic
open Idealize.SL Idealize.SL.Sem
open Idealize.ShloMosaic.Pipeline (Dat Cfg Window)

variable (V : (c : Dev nD) → (b : Ref sig .tc) → Buf (Elt Ideal) ((c : Thread nD τ).loc b))

namespace R1

/-! ## The payloads at an index -/

/-- The block the first step stores is zero everywhere. -/
theorem pay1_apply (r : Fin 2560) (d : Fin 128) : (k1_pay1 (F := Ideal)) (ix2 r d) = (0 : EReal) := by
  unfold k1_pay1
  rw [shapeCast_self]
  exact Ideal.ofBits_zero_f32

/-- One accumulation step at `(r, d)`: the accumulator there plus the product row by column of the two blocks. -/
theorem pay2_apply (acc : FVec Ideal S2560x128 .f32) (a : FVec Ideal S2560x2560 .bf16) (h : FVec Ideal S2560x128 .bf16)
    (r : Fin 2560) (d : Fin 128) :
    k1_pay2 acc a h (ix2 r d) = acc (ix2 r d) + ∑ kk : Fin 2560, a (ix2 r kk) * h (ix2 kk d) := by
  unfold k1_pay2
  simp only [shapeCast_self]
  rw [addf_apply]
  refine congrArg (acc (ix2 r d) + ·) ?_
  exact Cert.BlockSum.matmul_zero_apply dot_S2560x2560_S2560x128_S2560x128_1_0_0_1_n_n rfl rfl rfl rfl rfl rfl none a h _
    (fun _ => Ideal.ofBits_zero_f32) r d

/-- The epilogue at `(r, d)`: the accumulator there plus the bias of column `d`. -/
theorem pay3_apply (acc : FVec Ideal S2560x128 .f32) (b : FVec Ideal S128 .f32) (r : Fin 2560) (d : Fin 128) :
    k1_pay3 acc b (ix2 r d) = acc (ix2 r d) + b (ix1 d) := by
  unfold k1_pay3
  simp only [shapeCast_self]
  rw [addf_apply]
  refine congrArg (acc (ix2 r d) + ·) ?_
  exact (broadcastTo_1b_ab_apply _ _ r d).trans (shapeCast_a_1a_apply _ _ (0 : Fin 1) d)

/-! ## The windows' blocks, read in the arrays -/

/-- The printed index maps, decided once over the grid: at point `t` the left operand's block is `(t / 4, t % 4)`, the
    right operand's `(t % 4, 0)`, the bias's `0`, the output's `(t / 4, 0)`. -/
theorem idx_facts1 : ∀ t : Fin cfg1.N, win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 1) = 0
    ∧ win1_3.index t (0 : Fin 2) = t.val / 4 ∧ win1_3.index t (1 : Fin 2) = 0 :=
  (by decide +kernel : ∀ t : Fin grid1.N, _)

/-- The left operand's block at point `t`, as a vector of its literal type. -/
abbrev ablk (c : Dev nD) (t : Fin cfg1.N) : FVec Ideal S2560x2560 .bf16 := iblk1 V c 0 t
/-- The right operand's block. -/
abbrev hblk (c : Dev nD) (t : Fin cfg1.N) : FVec Ideal S2560x128 .bf16 := iblk1 V c 1 t
/-- The bias's block. -/
abbrev bblk (c : Dev nD) (t : Fin cfg1.N) : FVec Ideal S128 .f32 := iblk1 V c 2 t

/-- The left operand's block at `(r, kk)` is the array at row `2560 (t / 4) + r`, column `2560 (t % 4) + kk`. -/
theorem ablk_apply (c : Dev nD) (t : Fin cfg1.N) (r kk : Fin 2560) (p j : Fin 10240)
    (hp : p.val = 2560 * (t.val / 4) + r.val) (hj : j.val = 2560 * (t.val % 4) + kk.val) :
    ablk V c t (ix2 r kk) = V c main_v45 (ix2 p j) := by
  obtain ⟨e0, e1, -⟩ := idx_facts1 t
  unfold ablk iblk1
  rw [View.read_apply]
  show V c main_v45 _ = V c main_v45 _
  congr 1
  funext a
  apply Fin.ext
  match a with
  | ⟨0, _⟩ => show win1_0.index t (0 : Fin 2) * 2560 + 1 * r.val = p.val; rw [e0, hp]; omega
  | ⟨1, _⟩ => show win1_0.index t (1 : Fin 2) * 2560 + 1 * kk.val = j.val; rw [e1, hj]; omega

/-- The right operand's block at `(kk, d)` is the array at row `2560 (t % 4) + kk`, column `d`. -/
theorem hblk_apply (c : Dev nD) (t : Fin cfg1.N) (kk : Fin 2560) (d : Fin 128) (j : Fin 10240)
    (hj : j.val = 2560 * (t.val % 4) + kk.val) :
    hblk V c t (ix2 kk d) = V c main_v55 (ix2 j d) := by
  obtain ⟨-, -, e2, e3, -⟩ := idx_facts1 t
  unfold hblk iblk1
  rw [View.read_apply]
  show V c main_v55 _ = V c main_v55 _
  congr 1
  funext a
  apply Fin.ext
  match a with
  | ⟨0, _⟩ => show win1_1.index t (0 : Fin 2) * 2560 + 1 * kk.val = j.val; rw [e2, hj]; omega
  | ⟨1, _⟩ => show win1_1.index t (1 : Fin 2) * 128 + 1 * d.val = d.val; rw [e3]; omega

/-- The bias's block is the bias. -/
theorem bblk_apply (c : Dev nD) (t : Fin cfg1.N) (d : Fin 128) :
    bblk V c t (ix1 d) = V c main_v58 (ix1 d) := by
  obtain ⟨-, -, -, -, e4, -⟩ := idx_facts1 t
  unfold bblk iblk1
  rw [View.read_apply]
  show V c main_v58 _ = V c main_v58 _
  congr 1
  funext a
  apply Fin.ext
  match a with
  | ⟨0, _⟩ => show win1_2.index t (0 : Fin 1) * 128 + 1 * d.val = d.val; rw [e4]; omega

/-! ## The carried accumulator, step by step -/

/-- After a first step the scratch holds one accumulation over the zero block. -/
theorem scr_A (c : Dev nD) (n : ℕ) (hn : n < cfg1.N) (h0 : n % 4 = 0) :
    (outsAt1 V c n hn).2 = k1_pay2 (F := Ideal) (k1_pay1 (F := Ideal)) (ablk V c ⟨n, hn⟩) (hblk V c ⟨n, hn⟩) := by
  have h1 : ¬ n % 4 = 3 := by omega
  rw [outsAt1_A V c ⟨n, hn⟩ h0 h1]
  dsimp only
  exact sout1_A_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) ((hcond1_0 ⟨n, hn⟩).mpr h0) (fun h => h1 ((hcond1_1 ⟨n, hn⟩).mp h)) (iblk1 V c 0 ⟨n, hn⟩) (iblk1 V c 1 ⟨n, hn⟩) (iblk1 V c 2 ⟨n, hn⟩)

/-- After a middle step it holds one more accumulation over what the step before left. -/
theorem scr_B (c : Dev nD) (n : ℕ) (hn : n < cfg1.N) (h0 : ¬ n % 4 = 0) (h1 : ¬ n % 4 = 3) (hp : n - 1 < cfg1.N) :
    (outsAt1 V c n hn).2 = k1_pay2 (F := Ideal) (outsAt1 V c (n - 1) hp).2 (ablk V c ⟨n, hn⟩) (hblk V c ⟨n, hn⟩) := by
  rw [outsAt1_B V c ⟨n, hn⟩ h0 h1]
  dsimp only
  exact sout1_B_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) (fun h => h0 ((hcond1_0 ⟨n, hn⟩).mp h)) (fun h => h1 ((hcond1_1 ⟨n, hn⟩).mp h)) (iblk1 V c 0 ⟨n, hn⟩) (iblk1 V c 1 ⟨n, hn⟩) (iblk1 V c 2 ⟨n, hn⟩) (outsAt1 V c (n - 1) hp).2

/-- After a last step likewise, -/
theorem scr_C (c : Dev nD) (n : ℕ) (hn : n < cfg1.N) (h0 : ¬ n % 4 = 0) (h1 : n % 4 = 3) (hp : n - 1 < cfg1.N) :
    (outsAt1 V c n hn).2 = k1_pay2 (F := Ideal) (outsAt1 V c (n - 1) hp).2 (ablk V c ⟨n, hn⟩) (hblk V c ⟨n, hn⟩) := by
  rw [outsAt1_C V c ⟨n, hn⟩ h0 h1]
  dsimp only
  exact sout1_C_0_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) (fun h => h0 ((hcond1_0 ⟨n, hn⟩).mp h)) ((hcond1_1 ⟨n, hn⟩).mpr h1) (iblk1 V c 0 ⟨n, hn⟩) (iblk1 V c 1 ⟨n, hn⟩) (iblk1 V c 2 ⟨n, hn⟩) (outsAt1 V c (n - 1) hp).2

/-- and the output's buffer holds the epilogue of that accumulation. -/
theorem out_C (c : Dev nD) (n : ℕ) (hn : n < cfg1.N) (h0 : ¬ n % 4 = 0) (h1 : n % 4 = 3) (hp : n - 1 < cfg1.N) :
    (outsAt1 V c n hn).1 = k1_pay3 (F := Ideal) (k1_pay2 (F := Ideal) (outsAt1 V c (n - 1) hp).2 (ablk V c ⟨n, hn⟩) (hblk V c ⟨n, hn⟩)) (bblk V c ⟨n, hn⟩) := by
  rw [outsAt1_C V c ⟨n, hn⟩ h0 h1]
  dsimp only
  exact out1_C_3_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) (ms1_3 ⟨n, hn⟩) (hs1_3 ⟨n, hn⟩) scM1_0 (Memref.isWhole_whole _) (fun h => h0 ((hcond1_0 ⟨n, hn⟩).mp h)) ((hcond1_1 ⟨n, hn⟩).mpr h1) (iblk1 V c 0 ⟨n, hn⟩) (iblk1 V c 1 ⟨n, hn⟩) (iblk1 V c 2 ⟨n, hn⟩) (outsAt1 V c (n - 1) hp).2

/-- The product, row `r` by column `d`, of the two operand blocks at point `n`. -/
def gsum (c : Dev nD) (n : ℕ) (hn : n < cfg1.N) (r : Fin 2560) (d : Fin 128) : EReal :=
  ∑ kk : Fin 2560, ablk V c ⟨n, hn⟩ (ix2 r kk) * hblk V c ⟨n, hn⟩ (ix2 kk d)

/-- After the last step of a row block the scratch at `(r, d)` is the running total, started at zero, of the four
    steps' block products. -/
theorem scr_last (c : Dev nD) (n : ℕ) (hn : n < cfg1.N) (h3 : n % 4 = 3) (r : Fin 2560) (d : Fin 128)
    (p1 : n - 1 < cfg1.N) (p2 : n - 1 - 1 < cfg1.N) (p3 : n - 1 - 1 - 1 < cfg1.N) :
    (outsAt1 V c n hn).2 (ix2 r d)
      = (((0 + gsum V c (n - 1 - 1 - 1) p3 r d) + gsum V c (n - 1 - 1) p2 r d) + gsum V c (n - 1) p1 r d) + gsum V c n hn r d := by
  rw [scr_C V c n hn (by omega) h3 p1, pay2_apply, scr_B V c (n - 1) p1 (by omega) (by omega) p2, pay2_apply,
    scr_B V c (n - 1 - 1) p2 (by omega) (by omega) p3, pay2_apply, scr_A V c (n - 1 - 1 - 1) p3 (by omega), pay2_apply,
    pay1_apply]
  rfl

/-- and the output's buffer there is that total plus the bias. -/
theorem out_last (c : Dev nD) (n : ℕ) (hn : n < cfg1.N) (h3 : n % 4 = 3) (r : Fin 2560) (d : Fin 128) (p1 : n - 1 < cfg1.N) :
    (outsAt1 V c n hn).1 (ix2 r d) = (outsAt1 V c n hn).2 (ix2 r d) + bblk V c ⟨n, hn⟩ (ix1 d) := by
  rw [out_C V c n hn (by omega) h3 p1, pay3_apply, scr_C V c n hn (by omega) h3 p1]

/-! ## The block products in the arrays -/

/-- The three operand arrays as the region finds them, over plain indices. -/
abbrev Aarr (c : Dev nD) : Fin nP → Fin nP → EReal := fun i j => V c main_v45 (ix2 i j)
abbrev Harr (c : Dev nD) : Fin nP → Fin 128 → EReal := fun j d => V c main_v55 (ix2 j d)
abbrev Barr (c : Dev nD) : Fin 128 → EReal := fun d => V c main_v58 (ix1 d)

/-- The block product at a point of reduction step `k` in row block `m / 4`: the `k`-th quarter of row `p`'s inner sum. -/
theorem gsum_eq (c : Dev nD) (m : ℕ) (hm : m < cfg1.N) (k : Fin 4) (hk : m % 4 = k.val) (r : Fin 2560) (d : Fin 128)
    (p : Fin nP) (hp : p.val = 2560 * (m / 4) + r.val) :
    gsum V c m hm r d
      = ∑ kk : Fin 2560, (fun j : Fin 10240 => Aarr V c p j * Harr V c j d)
          ⟨2560 * k.val + kk.val, by have := k.isLt; have := kk.isLt; omega⟩ := by
  unfold gsum
  refine Finset.sum_congr rfl fun kk _ => ?_
  have hkk := kk.isLt
  have hk4 := k.isLt
  rw [ablk_apply V c ⟨m, hm⟩ r kk p ⟨2560 * k.val + kk.val, by omega⟩ hp (by show 2560 * k.val + kk.val = 2560 * (m % 4) + kk.val; rw [hk]),
    hblk_apply V c ⟨m, hm⟩ kk d ⟨2560 * k.val + kk.val, by omega⟩ (by show 2560 * k.val + kk.val = 2560 * (m % 4) + kk.val; rw [hk])]

/-- WHAT THE LAST STEP OF A ROW BLOCK LEAVES in the output's buffer at `(r, d)`: the dense aggregation plus the bias
    at row `2560 (n / 4) + r`. -/
theorem out_value (c : Dev nD) (n : ℕ) (hn : n < cfg1.N) (h3 : n % 4 = 3) (r : Fin 2560) (d : Fin 128)
    (p : Fin nP) (hp : p.val = 2560 * (n / 4) + r.val) :
    (outsAt1 V c n hn).1 (ix2 r d) = layer2 (Aarr V c) (Harr V c) (Barr V c) p d := by
  have hN : cfg1.N = 16 := N_1
  have p1 : n - 1 < cfg1.N := by omega
  have p2 : n - 1 - 1 < cfg1.N := by omega
  have p3 : n - 1 - 1 - 1 < cfg1.N := by omega
  rw [out_last V c n hn h3 r d p1, scr_last V c n hn h3 r d p1 p2 p3,
    gsum_eq V c (n - 1 - 1 - 1) p3 (0 : Fin 4) (by show (n - 1 - 1 - 1) % 4 = 0; omega) r d p (by rw [hp]; omega),
    gsum_eq V c (n - 1 - 1) p2 (1 : Fin 4) (by show (n - 1 - 1) % 4 = 1; omega) r d p (by rw [hp]; omega),
    gsum_eq V c (n - 1) p1 (2 : Fin 4) (by show (n - 1) % 4 = 2; omega) r d p (by rw [hp]; omega),
    gsum_eq V c n hn (3 : Fin 4) (by show n % 4 = 3; omega) r d p hp,
    bblk_apply]
  unfold layer2
  refine congrArg (· + Barr V c d) ?_
  exact (Cert.BlockSum.sum_four (fun k : Fin 4 => ∑ kk : Fin 2560, (fun j : Fin 10240 => Aarr V c p j * Harr V c j d)
      ⟨2560 * k.val + kk.val, by have := k.isLt; have := kk.isLt; omega⟩)).trans
    (Cert.BlockSum.sum_blocks (fun j : Fin 10240 => Aarr V c p j * Harr V c j d))

/-! ## From the blocks to the array -/

/-- What the output array ends holding: the dense aggregation plus the bias, index by index. -/
abbrev G1 (c : Dev nD) : Buf (Elt Ideal) ((c : Thread nD τ).loc main_v59) := fun i =>
  layer2 (Aarr V c) (Harr V c) (Barr V c)
    ⟨(i 0).val, (by have h : (i 0).val < 10240 := (i 0).isLt; exact h)⟩
    ⟨(i 1).val, (by have h : (i 1).val < 128 := (i 1).isLt; exact h)⟩

/-- WHAT A WRITE-BACK WRITES: at a point that writes the output's block back (a last reduction step), the block of
    `G1` its rectangle names. -/
theorem flushed1_eq (c : Dev nD) (t : Fin cfg1.N) (hf : (cfg1.win 3).flush t = true) :
    (dat1 V c).flushed 3 t = ((cfg1.win 3).blk t).view.read (Elt Ideal) (G1 V c) := by
  have h3 : t.val % 4 = 3 := (flush1_3 t).mp hf
  have hN : cfg1.N = 16 := N_1
  have ht := t.isLt
  obtain ⟨-, -, -, -, -, e5, e6⟩ := idx_facts1 t
  show (cfg1.win 3).cut (grid1.coords t) ((dat1 V c).after 3 t) = _
  rw [after1_3]
  funext j
  obtain ⟨r, d, rfl⟩ : ∃ (r : Fin 2560) (d : Fin 128), j = ix2 r d := ⟨j 0, j 1, eq_ix2 j⟩
  have hr := r.isLt
  rw [View.read_apply]
  refine (out_value V c t.val t.isLt h3 r d ⟨2560 * (t.val / 4) + r.val, by show 2560 * (t.val / 4) + r.val < 10240; omega⟩ rfl).trans ?_
  show layer2 (Aarr V c) (Harr V c) (Barr V c) _ _ = layer2 (Aarr V c) (Harr V c) (Barr V c) _ _
  congr 1
  · apply Fin.ext
    show 2560 * (t.val / 4) + r.val = win1_3.index t (0 : Fin 2) * 2560 + 1 * r.val
    rw [e5]; omega
  · apply Fin.ext
    show d.val = win1_3.index t (1 : Fin 2) * 128 + 1 * d.val
    rw [e6]; omega

/-- An index of the array is in point `t`'s block iff each coordinate is in the block's range on its axis. -/
theorem mem_blk1 (t : Fin cfg1.N) (i : S10240x128.Idx) :
    i ∈ ((cfg1.win 3).blk t).view.set ↔ ∀ a : Fin 2, win1_3.index t a * S2560x128.size a ≤ (i a).val ∧ (i a).val < win1_3.index t a * S2560x128.size a + S2560x128.size a := by
  show i ∈ ((View.whole main_v59).slice (win1_3.rect t)).set ↔ _
  rw [View.set_slice_whole, Rect.mem_set_unit]
  exact Iff.rfl

/-- Every index of the array is in the block some last reduction step writes back: row `i` in row block `i / 2560`. -/
theorem cover1 (c : Dev nD) (i : ((cfg1.win 3).arr.view.loc (c.tc : Thread nD τ)).2.ty.Idx) :
    ∃ t : Fin cfg1.N, (cfg1.win 3).flush t = true ∧ i ∈ ((cfg1.win 3).blk t).view.set := by
  have hi0 : (i 0).val < 10240 := (i 0).isLt
  have hi1 : (i 1).val < 128 := (i 1).isLt
  have hN : cfg1.N = 16 := N_1
  have hlt : 4 * ((i 0).val / 2560) + 3 < cfg1.N := by omega
  obtain ⟨-, -, -, -, -, e5, e6⟩ := idx_facts1 ⟨4 * ((i 0).val / 2560) + 3, hlt⟩
  refine ⟨⟨4 * ((i 0).val / 2560) + 3, hlt⟩, (flush1_3 _).mpr (by show (4 * ((i 0).val / 2560) + 3) % 4 = 3; omega), ?_⟩
  rw [mem_blk1]
  intro a
  match a with
  | ⟨0, _⟩ =>
    show win1_3.index ⟨4 * ((i 0).val / 2560) + 3, hlt⟩ (0 : Fin 2) * 2560 ≤ (i 0).val ∧ (i 0).val < win1_3.index ⟨4 * ((i 0).val / 2560) + 3, hlt⟩ (0 : Fin 2) * 2560 + 2560
    rw [e5]
    show (4 * ((i 0).val / 2560) + 3) / 4 * 2560 ≤ (i 0).val ∧ (i 0).val < (4 * ((i 0).val / 2560) + 3) / 4 * 2560 + 2560
    omega
  | ⟨1, _⟩ =>
    show win1_3.index ⟨4 * ((i 0).val / 2560) + 3, hlt⟩ (1 : Fin 2) * 128 ≤ (i 1).val ∧ (i 1).val < win1_3.index ⟨4 * ((i 0).val / 2560) + 3, hlt⟩ (1 : Fin 2) * 128 + 128
    rw [e6]; omega

end R1

open R1 in
/-- THE OUTPUT ARRAY after the region, at the ideal values: one dense aggregation followed by the bias, of the operand
    arrays as the region finds them. -/
theorem final1 (c : Dev nD) (p : Fin nP) (q : Fin 128) :
    (dat1 (F := Ideal) V c).arrAt 3 cfg1.N (ix2 p q)
      = layer2 (fun i j => V c main_v45 (ix2 i j)) (fun j d => V c main_v55 (ix2 j d)) (fun d => V c main_v58 (ix1 d)) p q := by
  rw [(dat1 V c).arrAt_eq_of_cover 3 (G1 V c) (flushed1_eq V c) (cover1 c)]
  rfl

end Cert.KernelIdeal.Hand

end
-- ==== Proof.HostSet.lean ====
/-
  A scatter whose body returns the update, with ONE start index, at zero, and the whole update as its window: every
  update position lands on its own operand position, so the fold over the update positions writes the update into
  the leading corner of the operand — the first rows, the first columns, or the first entries. This is how the
  programs pad an array with zeros up to a larger extent.
-/
import Idealize.ShloMosaic.PureOps.Ideal
import Idealize.ShloMosaic.Lib.ValueIdx
import Idealize.ShloMosaic.Lib.ValueIdxRank1
import Idealize.ShloMosaic.Lib.Pipeline.Value

noncomputable section

namespace Cert.HostSet

open Idealize.ShloMosaic Idealize.ShloMosaic.ValueIdx

/-- The fold that scatters with "take the update": when the landing map is injective where it is defined and update
    position `j₀` lands at `i₀`, the result at `i₀` is the update at `j₀`. A write at `i₀` can only come from `j₀`
    (so it writes that same value), and every other write leaves `i₀` alone. -/
theorem scatter_set_of_inj {α : Type} {s si u : Shape} {w : ℕ} (d : ScatterDims s si u)
    (x : s.Idx → α) (idx : IVec si w) (upd : u.Idx → α)
    (hinj : ∀ j j' i, d.resultIdx? j idx = some i → d.resultIdx? j' idx = some i → j = j')
    (j₀ : u.Idx) (i₀ : s.Idx) (h₀ : d.resultIdx? j₀ idx = some i₀) :
    Host.scatter d (fun _ b => b) x idx upd i₀ = upd j₀ := by
  unfold Host.scatter
  -- once the value at i₀ is the update at j₀ it stays so; the step at j₀'s position makes it so
  have key : ∀ (l : List (Fin u.numel)) (r₀ : s.Idx → α), (u.rowMajor j₀ ∈ l ∨ r₀ i₀ = upd j₀) →
      (l.foldl (fun r n =>
        match d.resultIdx? (u.rowMajor.symm n) idx with
        | some i => fun i' => if i' = i then (fun _ b => b) (r i) (upd (u.rowMajor.symm n)) else r i'
        | none => r) r₀) i₀ = upd j₀ := by
    intro l
    induction l with
    | nil => intro r₀ h; rcases h with h | h
             · exact absurd h List.not_mem_nil
             · exact h
    | cons n l ih =>
      intro r₀ h
      rw [List.foldl_cons]
      apply ih
      by_cases hn : u.rowMajor j₀ = n
      · right
        subst hn
        rw [Equiv.symm_apply_apply, h₀]
        show (if i₀ = i₀ then upd j₀ else r₀ i₀) = upd j₀
        rw [if_pos rfl]
      · rcases h with h | h
        · left
          rcases List.mem_cons.1 h with h | h
          · exact absurd h hn
          · exact h
        · right
          cases hr : d.resultIdx? (u.rowMajor.symm n) idx with
          | none => exact h
          | some i =>
            show (if i₀ = i then upd (u.rowMajor.symm n) else r₀ i₀) = upd j₀
            by_cases hi : i₀ = i
            · rw [if_pos hi]
              subst hi
              rw [hinj _ _ _ hr h₀]
            · rw [if_neg hi]; exact h
  exact key _ _ (Or.inl (List.mem_finRange _))

/-- Every start is zero when every start index reads zero signed. -/
theorem start_eq_zero {s si u : Shape} {w : ℕ} (d : ScatterDims s si u) (idx : IVec si w)
    (h0 : ∀ i, (idx i).toInt = 0) (j : u.Idx) (a : Fin s.rank) : d.start j idx a = 0 := by
  unfold ScatterDims.start
  split
  · exact h0 _
  · rfl

/-- Operand and update of the same rank, every start zero, and the window coordinate of update position `j` on axis
    `a` is `j`'s own coordinate there: update position `j` lands on the operand position with the same coordinates,
    so the scatter writes the update into the operand's leading corner. -/
theorem scatter_corner {α : Type} {r : ℕ} {sz uz : Fin r → ℕ} {si : Shape} {w : ℕ}
    (d : ScatterDims ⟨r, sz⟩ si ⟨r, uz⟩) (hle : ∀ a, uz a ≤ sz a)
    (x : (⟨r, sz⟩ : Shape).Idx → α) (idx : IVec si w) (upd : (⟨r, uz⟩ : Shape).Idx → α)
    (hstart : ∀ j a, d.start j idx a = 0) (hwin : ∀ j a, d.window j a = (j a).val)
    (j : (⟨r, uz⟩ : Shape).Idx) :
    Host.scatter d (fun _ b => b) x idx upd (fun a => Fin.castLE (hle a) (j a)) = upd j := by
  have hres : ∀ j' : (⟨r, uz⟩ : Shape).Idx,
      d.resultIdx? j' idx = some (fun a => Fin.castLE (hle a) (j' a)) := by
    intro j'
    unfold ScatterDims.resultIdx?
    have hb : ∀ a, 0 ≤ d.start j' idx a + d.window j' a ∧ d.start j' idx a + d.window j' a < (⟨r, sz⟩ : Shape).size a := by
      intro a
      rw [hstart, hwin]
      have h1 : (j' a).val < uz a := (j' a).isLt
      have h2 := hle a
      show 0 ≤ (0 : ℤ) + ((j' a).val : ℤ) ∧ (0 : ℤ) + ((j' a).val : ℤ) < ((sz a : ℕ) : ℤ)
      omega
    rw [dif_pos hb]
    congr 1
    funext a
    apply Fin.ext
    show (d.start j' idx a + d.window j' a).toNat = (j' a).val
    rw [hstart, hwin]
    omega
  refine scatter_set_of_inj d x idx upd ?_ j _ (hres j)
  intro j₁ j₂ i h₁ h₂
  rw [hres] at h₁ h₂
  have e := (Option.some.inj h₁).trans (Option.some.inj h₂).symm
  funext a
  apply Fin.ext
  have := congrArg (fun t => (t a).val) e
  exact this

/-- Rank 2, both update axes window axes in order, no inserted axis: the window coordinate on an axis is the update
    position's coordinate on that axis. -/
theorem window_two {si : Shape} {sz uz : Fin 2 → ℕ} (d : ScatterDims ⟨2, sz⟩ si ⟨2, uz⟩)
    (huw : d.updateWindowDims = [0, 1]) (hin : d.insertedWindowDims = [])
    (j : (⟨2, uz⟩ : Shape).Idx) (a : Fin 2) : d.window j a = (j a).val := by
  have hk : d.sKept = [0, 1] := by
    show Shape.kept _ d.insertedWindowDims = _
    rw [hin]; rfl
  unfold ScatterDims.window
  have ha : a ∈ d.sKept := by rw [hk]; fin_cases a <;> simp
  rw [dif_pos ha]
  have key : ∀ x : Fin 2, x = a → (j x).val = (j a).val := by rintro _ rfl; rfl
  apply key
  have aux : ∀ (l : List (Fin 2)) (k : ℕ) (hk : k < l.length), l = [0, 1] → k = a.val → l[k] = a := by
    rintro l k hk rfl rfl; fin_cases a <;> rfl
  apply aux _ _ _ huw
  rw [hk]
  fin_cases a <;> rfl

/-- Rank 1, the one update axis the window axis, no inserted axis. -/
theorem window_one {si : Shape} {sz uz : Fin 1 → ℕ} (d : ScatterDims ⟨1, sz⟩ si ⟨1, uz⟩)
    (huw : d.updateWindowDims = [0]) (hin : d.insertedWindowDims = [])
    (j : (⟨1, uz⟩ : Shape).Idx) (a : Fin 1) : d.window j a = (j a).val := by
  have hk : d.sKept = [0] := by
    show Shape.kept _ d.insertedWindowDims = _
    rw [hin]; rfl
  unfold ScatterDims.window
  have ha : a ∈ d.sKept := by rw [hk]; fin_cases a; simp
  rw [dif_pos ha]
  have key : ∀ x : Fin 1, x = a → (j x).val = (j a).val := by rintro _ rfl; rfl
  apply key
  exact Subsingleton.elim _ _

/-- Rows: the update's rows become the operand's first rows. -/
theorem scatterSet_rows {α : Type} {P N D w : ℕ} (hNP : N ≤ P) (d : ScatterDims ⟨2, ![P, D]⟩ ⟨1, ![1]⟩ ⟨2, ![N, D]⟩)
    (huw : d.updateWindowDims = [0, 1]) (hin : d.insertedWindowDims = []) (hsd : d.scatterDimsToOperandDims = [0])
    (hiv : d.indexVectorDim = 0)
    (x : (⟨2, ![P, D]⟩ : Shape).Idx → α) (idx : IVec ⟨1, ![1]⟩ w) (h0 : ∀ i, (idx i).toInt = 0)
    (upd : (⟨2, ![N, D]⟩ : Shape).Idx → α) (j : Fin N) (q : Fin D) :
    Host.scatter d (fun _ b => b) x idx upd (ix2 (Fin.castLE hNP j) q) = upd (ix2 j q) := by
  have hle : ∀ a : Fin 2, (![N, D] : Fin 2 → ℕ) a ≤ (![P, D] : Fin 2 → ℕ) a := fun a =>
    match a with
    | ⟨0, _⟩ => hNP
    | ⟨1, _⟩ => le_rfl
  have e : ix2 (Fin.castLE hNP j) q = fun a => Fin.castLE (hle a) (ix2 j q a) := by
    funext a
    match a with
    | ⟨0, _⟩ => rfl
    | ⟨1, _⟩ => rfl
  rw [e]
  exact scatter_corner d hle x idx upd (start_eq_zero d idx h0) (window_two d huw hin) (ix2 j q)

/-- Columns: the update's columns become the operand's first columns. -/
theorem scatterSet_cols {α : Type} {P N D w : ℕ} (hNP : N ≤ P) (d : ScatterDims ⟨2, ![D, P]⟩ ⟨1, ![1]⟩ ⟨2, ![D, N]⟩)
    (huw : d.updateWindowDims = [0, 1]) (hin : d.insertedWindowDims = []) (hsd : d.scatterDimsToOperandDims = [1])
    (hiv : d.indexVectorDim = 0)
    (x : (⟨2, ![D, P]⟩ : Shape).Idx → α) (idx : IVec ⟨1, ![1]⟩ w) (h0 : ∀ i, (idx i).toInt = 0)
    (upd : (⟨2, ![D, N]⟩ : Shape).Idx → α) (r : Fin D) (j : Fin N) :
    Host.scatter d (fun _ b => b) x idx upd (ix2 r (Fin.castLE hNP j)) = upd (ix2 r j) := by
  have hle : ∀ a : Fin 2, (![D, N] : Fin 2 → ℕ) a ≤ (![D, P] : Fin 2 → ℕ) a := fun a =>
    match a with
    | ⟨0, _⟩ => le_rfl
    | ⟨1, _⟩ => hNP
  have e : ix2 r (Fin.castLE hNP j) = fun a => Fin.castLE (hle a) (ix2 r j a) := by
    funext a
    match a with
    | ⟨0, _⟩ => rfl
    | ⟨1, _⟩ => rfl
  rw [e]
  exact scatter_corner d hle x idx upd (start_eq_zero d idx h0) (window_two d huw hin) (ix2 r j)

/-- A vector: the update becomes the operand's first entries. -/
theorem scatterSet_vec {α : Type} {P N w : ℕ} (hNP : N ≤ P) (d : ScatterDims ⟨1, ![P]⟩ ⟨1, ![1]⟩ ⟨1, ![N]⟩)
    (huw : d.updateWindowDims = [0]) (hin : d.insertedWindowDims = []) (hsd : d.scatterDimsToOperandDims = [0])
    (hiv : d.indexVectorDim = 0)
    (x : (⟨1, ![P]⟩ : Shape).Idx → α) (idx : IVec ⟨1, ![1]⟩ w) (h0 : ∀ i, (idx i).toInt = 0)
    (upd : (⟨1, ![N]⟩ : Shape).Idx → α) (j : Fin N) :
    Host.scatter d (fun _ b => b) x idx upd (ix1 (Fin.castLE hNP j)) = upd (ix1 j) := by
  have hle : ∀ a : Fin 1, (![N] : Fin 1 → ℕ) a ≤ (![P] : Fin 1 → ℕ) a := fun a =>
    match a with
    | ⟨0, _⟩ => hNP
  have e : ix1 (Fin.castLE hNP j) = fun a => Fin.castLE (hle a) (ix1 j a) := by
    funext a
    match a with
    | ⟨0, _⟩ => rfl
  rw [e]
  exact scatter_corner d hle x idx upd (start_eq_zero d idx h0) (window_one d huw hin) (ix1 j)

end Cert.HostSet

end
-- ==== Proof.KernelIdeal.HostVal.lean ====
/-
  The host operations of the program before, between and after its two kernel regions, read at one index, at the
  extended reals.

  Before region 0 the program pads: the node features get zero rows up to 10240 nodes, the second weight zero columns
  up to 128, each by writing the array into the leading corner of a zero array; the first linear map is the padded
  features contracted with the first weight. Between the regions the second bias is padded to 128 entries the same
  way. After region 1 the output is the leading 10000 rows and 64 columns of the padded result. Each statement reads
  one of these arrays at a real node, a real column, or any padded position, in terms of the arrays the program was
  launched with; the first bias is not written at all.
-/
import proofs.«411342_j57234734186920_3_alg».proof.Proof.Gen.KernelIdeal.Regions
import proofs.«411342_j57234734186920_3_alg».proof.Proof.HostSet
import proofs.«411342_j57234734186920_3_alg».proof.Proof.Spec
import proofs.«411342_j57234734186920_3_alg».proof.Proof.BlockSum
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.HostVal

open Cert.KernelIdeal Cert.KernelIdeal.Gen Idealize.ShloMosaic Idealize.ShloMosaic.TcCoe Idealize.ShloMosaic.ValueIdx
open Idealize.ShloMosaic.StableHlo Idealize.SL.Sem Cert.Spec

variable (m : (ℓ : Loc nD τ sig) → Buf (Elt Ideal) ℓ) (c : Dev nD)

/-! ## The arguments no stretch writes -/

/-- The first bias reaches region 0 as launched. -/
theorem b1_eq : V3 m c main_arg3 = m ((c : Thread nD τ).loc main_arg3) :=
  (V3_of m c main_arg3 (by decide)).trans <| (V2_of m c main_arg3 (by decide)).trans <| (V1_of m c main_arg3 (by decide)).trans rfl

/-- The features reach region 0 as launched. -/
theorem arg0_eq : V3 m c main_arg0 = m ((c : Thread nD τ).loc main_arg0) :=
  (V3_of m c main_arg0 (by decide)).trans <| (V2_of m c main_arg0 (by decide)).trans <| (V1_of m c main_arg0 (by decide)).trans rfl

/-! ## The padded features -/

/-- The padded features as the operations spell them: the features written into the leading rows of a zero array. -/
theorem v48_eq : (V3 m c main_v48 : S10240x128.Idx → EReal) =
    Host.scatter scatter_S10240x128_S1_S10000x128_01_n_0_0 (fun _ b => b)
      (broadcastInDim S10240x128 ![] bcast_S_S10240x128 (constant (F := Ideal) S_ .f32 0x00000000#32))
      (broadcastInDim S1 ![] bcast_S_S1 (constantI S_ 32 0#32))
      (m ((c : Thread nD τ).loc main_arg0)) := by
  dsimp only [Gen.V3, Gen.V2, Gen.V1, Gen.V0]
  after_results_simp

/-- A real node's row of the padded features is its row of the features. -/
theorem xpad_apply (j : Fin nN) (k : Fin 128) :
    V3 m c main_v48 (ix2 (padN j) k) = m ((c : Thread nD τ).loc main_arg0) (ix2 j k) := by
  rw [v48_eq]
  exact HostSet.scatterSet_rows (by decide) _ rfl rfl rfl rfl _ _ (fun _ => rfl) _ j k

/-! ## The padded second weight -/

/-- The padded second weight before its conversion: the weight written into the leading columns of a zero array. -/
theorem v54_eq : (V3 m c main_v54 : S128x128.Idx → EReal) =
    truncf (F := Ideal) .bf16 (Host.scatter scatter_S128x128_S1_S128x64_01_n_1_0 (fun _ b => b)
      (broadcastInDim S128x128 ![] bcast_S_S128x128 (constant (F := Ideal) S_ .f32 0x00000000#32))
      (broadcastInDim S1 ![] bcast_S_S1 (constantI S_ 32 0#32))
      (m ((c : Thread nD τ).loc main_arg4))) bitsLt_bf16_f32 := by
  dsimp only [Gen.V3, Gen.V2, Gen.V1, Gen.V0]
  after_results_simp

/-- A real column of the padded second weight is that column of the weight. -/
theorem w2pad_apply (d : Fin 128) (k : Fin 64) :
    V3 m c main_v54 (ix2 d (padC k)) = m ((c : Thread nD τ).loc main_arg4) (ix2 d k) := by
  rw [v54_eq]
  rw [truncf_apply]
  exact HostSet.scatterSet_cols (by decide) _ rfl rfl rfl rfl _ _ (fun _ => rfl) _ d k

/-! ## Between the regions: the padded second bias -/

section Between

variable (X : Valuation τ sig (Elt Ideal))

/-- The stretch between the regions changes only what it writes. -/
theorem hostOps1_of (r : Ref sig .tc) (h : r ∉ hostOps1_W) :
    StableHlo.after (hostOps1 (F := Ideal)) X r = X r :=
  StableHlo.after_of_writes_sub hostOps1 _ hostOps1_writes h

/-- The padded second bias as the operations spell it: the bias written into the leading entries of a zero vector. -/
theorem v58_eq : (StableHlo.after (hostOps1 (F := Ideal)) X main_v58 : S128.Idx → EReal) =
    Host.scatter scatter_S128_S1_S64_0_n_0_0 (fun _ b => b)
      (broadcastInDim S128 ![] bcast_S_S128 (constant (F := Ideal) S_ .f32 0x00000000#32))
      (broadcastInDim S1 ![] bcast_S_S1 (constantI S_ 32 0#32))
      (X main_arg5) := by
  after_results

/-- A real entry of the padded second bias is that entry of the bias. -/
theorem b2pad_apply (k : Fin 64) :
    StableHlo.after (hostOps1 (F := Ideal)) X main_v58 (ix1 (padC k)) = X main_arg5 (ix1 k) := by
  rw [v58_eq]
  exact HostSet.scatterSet_vec (by decide) _ rfl rfl rfl rfl _ _ (fun _ => rfl) _ k

/-! ## After the regions: the output cut out of the padded result -/

/-- The last stretch changes only what it writes. -/
theorem hostOps2_of (r : Ref sig .tc) (h : r ∉ hostOps2_W) :
    StableHlo.after (hostOps2 (F := Ideal)) X r = X r :=
  StableHlo.after_of_writes_sub hostOps2 _ hostOps2_writes h

/-- The output is the leading rows and columns of region 1's result. -/
theorem v60_eq : (StableHlo.after (hostOps2 (F := Ideal)) X main_v60 : S10000x64.Idx → EReal) =
    extractStridedSlice S10000x64 ![0, 0] (X main_v59 : S10240x128.Idx → EReal) slices_S10240x128_S10000x64_0_0 := by
  after_results

/-- The output at a node and a column is the padded result there. -/
theorem out_apply (i : Fin nN) (k : Fin 64) :
    StableHlo.after (hostOps2 (F := Ideal)) X main_v60 (ix2 i k) = X main_v59 (ix2 (padN i) (padC k)) := by
  rw [v60_eq]
  exact extractStridedSlice_apply _ _ _ _ _ (fun ax => by
    match ax with
    | ⟨0, _⟩ => exact (Nat.zero_add _).symm
    | ⟨1, _⟩ => exact (Nat.zero_add _).symm)

end Between

/-! ## The first linear map on the padded features -/

/-- The first linear map as the operations spell it: the padded features contracted with the first weight, then
    converted. -/
theorem v50_eq : (V3 m c main_v50 : S10240x128.Idx → EReal) =
    truncf (F := Ideal) .bf16 (Host.dotGeneral (F := Ideal) (φ₁ := .f32) (φ₂ := .f32) dot_S10240x128_S128x128_S10240x128_1_0_0_1_n_n (some .fp32)
      (V3 m c main_v48) (m ((c : Thread nD τ).loc main_arg2))) bitsLt_bf16_f32 := by
  rw [v48_eq]
  dsimp only [Gen.V3, Gen.V2, Gen.V1, Gen.V0]
  after_results_simp <;> rfl

/-- Row `j`, column `d` of the first linear map is the sum over `q` of the padded features at `(j, q)` times the first
    weight at `(q, d)`. -/
theorem lin1_apply (j : Fin nP) (d : Fin 128) :
    V3 m c main_v50 (ix2 j d)
      = lin1p (fun j k => V3 m c main_v48 (ix2 j k)) (fun k d => m ((c : Thread nD τ).loc main_arg2) (ix2 k d)) j d := by
  rw [v50_eq, truncf_apply, Cert.BlockSum.dotGeneral_apply2 dot_S10240x128_S128x128_S10240x128_1_0_0_1_n_n rfl rfl rfl rfl rfl rfl]
  rfl

end Cert.KernelIdeal.HostVal

end
-- ==== Proof.KernelIdeal.Value.lean ====
/-
  The idealized kernel program's result, read at one index.

  After the last host line the result array is the leading [10000, 64] corner of region 1's output; region 1's
  output is a dense aggregation of region 0's output plus the padded second bias; region 0's output is the dense
  aggregation of the first linear map, plus the first bias, clipped at zero, times the padded second weight; and the
  arrays the regions read are the dense normalised adjacency, the first linear map of the padded features, and the
  paddings — each as the host lines before the regions leave it. Put together: `Spec.kerOut`.
-/
import proofs.«411342_j57234734186920_3_alg».proof.Proof.KernelIdeal.Main
import proofs.«411342_j57234734186920_3_alg».proof.Proof.KernelIdeal.R0Value
import proofs.«411342_j57234734186920_3_alg».proof.Proof.KernelIdeal.R1Value
import proofs.«411342_j57234734186920_3_alg».proof.Proof.KernelIdeal.HostVal
import proofs.«411342_j57234734186920_3_alg».proof.Proof.KernelIdeal.HostAdj
import proofs.«411342_j57234734186920_3_alg».proof.Proof.Spec
import proofs.«411342_j57234734186920_3_alg».proof.Proof.Edges
import Idealize.ShloMosaic.Lib.ValueIdx

noncomputable section

namespace Cert.KernelIdeal.Hand

open Cert.KernelIdeal Cert.KernelIdeal.Gen Idealize.ShloMosaic Idealize.ShloMosaic.TcCoe Idealize.ShloMosaic.ValueIdx Idealize.SL.Sem Cert.Spec
open Cert.KernelIdeal.HostVal (srcF dstF nrm)

variable (m : (ℓ : Loc nD τ sig) → Buf (Elt Ideal) ℓ) (c : Dev nD)

/-! ## What region 1 reads -/

/-- The dense adjacency is an input of region 0 and is not written between the regions: region 1 reads it as the
    host lines before region 0 left it. -/
theorem v45_at5 : W5 (F := Ideal) m c (Proc.devRef .tc main_v45) = Gen.V3 m c main_v45 :=
  calc W5 (F := Ideal) m c (Proc.devRef .tc main_v45)
    _ = W4 m c (Proc.devRef .tc main_v45) := W5_of m c main_v45 (by decide)
    _ = (dat0 (Vat (W3 m)) c).arrAt 0 cfg0.N := W4_arr m c 0
    _ = (dat0 (Vat (W3 m)) c).A 0 := (dat0 (Vat (W3 m)) c).arrAt_in 0 rfl _
    _ = Gen.V3 m c main_v45 := A_eq0 (Vat (W3 m)) c 0

/-- Entry by entry it is the dense weight matrix of the graph. -/
theorem adj_at5 (h : Cert.Edges.InRange (m ((c : Thread nD τ).loc main_arg1))) (a b : Fin nP) :
    W5 (F := Ideal) m c (Proc.devRef .tc main_v45) (ix2 a b) = adj (srcF m c h) (dstF m c h) (nrm m c) a b :=
  (congrFun (v45_at5 m c) (ix2 a b)).trans (HostVal.adj_apply m c h a b)

/-- Region 0's output reaches region 1 unchanged, and is the first layer on the arrays the host lines left. -/
theorem v55_at5 (h : Cert.Edges.InRange (m ((c : Thread nD τ).loc main_arg1))) (p : Fin nP) (q : Fin 128) :
    W5 (F := Ideal) m c (Proc.devRef .tc main_v55) (ix2 p q)
      = layer1 (adj (srcF m c h) (dstF m c h) (nrm m c))
          (lin1p (fun j k => Gen.V3 m c main_v48 (ix2 j k)) (fun k d => m ((c : Thread nD τ).loc main_arg2) (ix2 k d)))
          (fun d => m ((c : Thread nD τ).loc main_arg3) (ix1 d)) (fun d k => Gen.V3 m c main_v54 (ix2 d k)) p q := by
  have e : W5 (F := Ideal) m c (Proc.devRef .tc main_v55) = (dat0 (Vat (W3 m)) c).arrAt 4 cfg0.N :=
    (W5_of m c main_v55 (by decide)).trans (W4_arr m c 4)
  have hA : (fun i j => Vat (W3 m) c main_v45 (ix2 i j)) = adj (srcF m c h) (dstF m c h) (nrm m c) :=
    funext fun i => funext fun j => HostVal.adj_apply m c h i j
  have hL : (fun j d => Vat (W3 m) c main_v50 (ix2 j d))
      = lin1p (fun j k => Gen.V3 m c main_v48 (ix2 j k)) (fun k d => m ((c : Thread nD τ).loc main_arg2) (ix2 k d)) :=
    funext fun j => funext fun d => HostVal.lin1_apply m c j d
  have hB : (fun d => Vat (W3 m) c main_arg3 (ix1 d)) = fun d => m ((c : Thread nD τ).loc main_arg3) (ix1 d) :=
    funext fun d => congrFun (HostVal.b1_eq m c) (ix1 d)
  refine (congrFun e (ix2 p q)).trans ((final0 (Vat (W3 m)) c p q).trans ?_)
  rw [hA, hL, hB]

/-! ## The result -/

/-- THE KERNEL SIDE'S VALUE. The result array at node `i` and column `q` is the dense two-layer aggregation on the
    padded arrays the host lines leave. -/
theorem kres_apply (h : Cert.Edges.InRange (m ((c : Thread nD τ).loc main_arg1))) (i : Fin nN) (q : Fin 64) :
    W7 (F := Ideal) m c (Proc.devRef .tc main_v60) (ix2 i q)
      = kerOut (adj (srcF m c h) (dstF m c h) (nrm m c)) (fun j k => Gen.V3 m c main_v48 (ix2 j k))
          (fun k d => m ((c : Thread nD τ).loc main_arg2) (ix2 k d)) (fun d => m ((c : Thread nD τ).loc main_arg3) (ix1 d))
          (fun d k => Gen.V3 m c main_v54 (ix2 d k)) (fun d => W5 (F := Ideal) m c (Proc.devRef .tc main_v58) (ix1 d)) i q := by
  have e1 : W7 (F := Ideal) m c (Proc.devRef .tc main_v60) (ix2 i q)
      = W6 (F := Ideal) m c (Proc.devRef .tc main_v59) (ix2 (padN i) (padC q)) := HostVal.out_apply (W6 m c) i q
  have e2 : W6 (F := Ideal) m c (Proc.devRef .tc main_v59) = (dat1 (Vat (W5 m)) c).arrAt 3 cfg1.N := W6_arr m c 3
  have hA : (fun a b => Vat (W5 m) c main_v45 (ix2 a b)) = adj (srcF m c h) (dstF m c h) (nrm m c) :=
    funext fun a => funext fun b => adj_at5 m c h a b
  have hH : (fun j d => Vat (W5 m) c main_v55 (ix2 j d))
      = layer1 (adj (srcF m c h) (dstF m c h) (nrm m c))
          (lin1p (fun j k => Gen.V3 m c main_v48 (ix2 j k)) (fun k d => m ((c : Thread nD τ).loc main_arg2) (ix2 k d)))
          (fun d => m ((c : Thread nD τ).loc main_arg3) (ix1 d)) (fun d k => Gen.V3 m c main_v54 (ix2 d k)) :=
    funext fun p => funext fun d => v55_at5 m c h p d
  refine e1.trans ((congrFun e2 (ix2 (padN i) (padC q))).trans ((final1 (Vat (W5 m)) c (padN i) (padC q)).trans ?_))
  rw [hA, hH]
  rfl

/-! ## The padded arrays restrict to the arguments -/

/-- A real node's row of the padded features is its row of the features. -/
theorem kres_hx (j : Fin nN) (k : Fin 128) :
    Gen.V3 m c main_v48 (ix2 (padN j) k) = m ((c : Thread nD τ).loc main_arg0) (ix2 j k) := HostVal.xpad_apply m c j k

/-- A real column of the padded second weight is that column of the weight. -/
theorem kres_hW (d : Fin 128) (k : Fin 64) :
    Gen.V3 m c main_v54 (ix2 d (padC k)) = m ((c : Thread nD τ).loc main_arg4) (ix2 d k) := HostVal.w2pad_apply m c d k

/-- The second bias reaches the stretch between the regions as launched. -/
theorem arg5_at4 : W4 (F := Ideal) m c (Proc.devRef .tc main_arg5) = m ((c : Thread nD τ).loc main_arg5) :=
  calc W4 (F := Ideal) m c (Proc.devRef .tc main_arg5)
    _ = W3 m c (Proc.devRef .tc main_arg5) := W4_of_ne m c main_arg5 (by decide)
    _ = Gen.V2 m c main_arg5 := V3_of m c main_arg5 (by decide)
    _ = Gen.V1 m c main_arg5 := V2_of m c main_arg5 (by decide)
    _ = Gen.V0 m c main_arg5 := V1_of m c main_arg5 (by decide)
    _ = m ((c : Thread nD τ).loc main_arg5) := rfl

/-- A real entry of the padded second bias is that entry of the bias. -/
theorem kres_hb (k : Fin 64) :
    W5 (F := Ideal) m c (Proc.devRef .tc main_v58) (ix1 (padC k)) = m ((c : Thread nD τ).loc main_arg5) (ix1 k) :=
  (HostVal.b2pad_apply (W4 m c) k).trans (congrFun (arg5_at4 m c) (ix1 k))

end Cert.KernelIdeal.Hand

end
-- ==== Proof.RefValue.lean ====
/-
  The reference program's result read at one index, at the extended reals.

  The program builds the edge list (listed edges, then one self-loop per node), the in-degrees, the symmetric
  normalisation weight of every edge, and then twice: a dense linear map, a take of the rows at the edges' sources
  scaled by the weights, a segment sum of those rows by the edges' targets, and a bias (with a relu in between).
  Under the precondition every endpoint word is a node, so every take reads the row of the edge's source and every
  segment sum collects the edges into a node: stage by stage the program's values are the mathematics of `Cert.Spec`,
  and its result at node `i`, column `q` is `refOut … i q`.
-/
import proofs.«411342_j57234734186920_3_alg».proof.Proof.RefRead
import proofs.«411342_j57234734186920_3_alg».proof.Proof.HostRead
import proofs.«411342_j57234734186920_3_alg».proof.Proof.Edges
import proofs.«411342_j57234734186920_3_alg».proof.Proof.Spec

noncomputable section

namespace Cert.ReferenceIdeal.RefValue

open Cert.ReferenceIdeal Cert.ReferenceIdeal.Gen Cert.ReferenceIdeal.Read Cert.ReferenceIdeal.Value Idealize.ShloMosaic Idealize.ShloMosaic.TcCoe Idealize.SL.Sem Idealize.ShloMosaic.StableHlo Idealize.ShloMosaic.ValueIdx Cert.Spec

variable (x0 : (⟨S10000x128, .f32⟩ : BufTy).Contents (Elt Ideal)) (x1 : (⟨S2x640000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (h : Cert.Edges.InRange x1)

/-! ## The edge list and the weights, as the program spells them -/

/-- All 650000 sources, as words. -/
abbrev srcW : IVec S650000 32 :=
  Cert.Edges.endW x1 0 slices_S2x640000_S1x640000_0_0 shapeCasts_S1x640000_S640000 concatenates_S640000_S10000_S650000_d0
/-- All 650000 targets, as words. -/
abbrev dstW : IVec S650000 32 :=
  Cert.Edges.endW x1 1 slices_S2x640000_S1x640000_1_0 shapeCasts_S1x640000_S640000 concatenates_S640000_S10000_S650000_d0
/-- An edge's source, as a node. -/
abbrev src : Fin nE → Fin nN :=
  Cert.Edges.endF x1 h 0 (by decide) slices_S2x640000_S1x640000_0_0 shapeCasts_S1x640000_S640000 concatenates_S640000_S10000_S650000_d0
/-- An edge's target, as a node. -/
abbrev dst : Fin nE → Fin nN :=
  Cert.Edges.endF x1 h 1 (by decide) slices_S2x640000_S1x640000_1_0 shapeCasts_S1x640000_S640000 concatenates_S640000_S10000_S650000_d0
/-- An edge's weight. -/
abbrev nrm (e : Fin nE) : EReal :=
  Cert.Edges.normW x1 slices_S2x640000_S1x640000_0_0 slices_S2x640000_S1x640000_1_0 shapeCasts_S1x640000_S640000
    concatenates_S640000_S10000_S650000_d0 bcast_S_S650000 bcast_S_S10000 bcast_S650000_S650000x1_0
    scatter_S10000_S650000x1_S650000_n_0_0_1 gather_S10000_S650000x1_S650000_n_0_n_n_0_1_1 (ix1 e)

/-- The program's source words are row 0 of the edge list followed by the self-loops. -/
theorem v3_eq : val_main_v3 (F := Ideal) x1 = srcW x1 := rfl
/-- The program's target words are row 1 of the edge list followed by the self-loops. -/
theorem v6_eq : val_main_v6 (F := Ideal) x1 = dstW x1 := rfl
/-- The program's weights are the normalisation chain. -/
theorem norm_eq : val_main_v29 (F := Ideal) x1
    = Cert.Edges.normW x1 slices_S2x640000_S1x640000_0_0 slices_S2x640000_S1x640000_1_0 shapeCasts_S1x640000_S640000
        concatenates_S640000_S10000_S650000_d0 bcast_S_S650000 bcast_S_S10000 bcast_S650000_S650000x1_0
        scatter_S10000_S650000x1_S650000_n_0_0_1 gather_S10000_S650000x1_S650000_n_0_n_n_0_1_1 := rfl

/-! ## Reading a start-index word -/

include h in
/-- "A negative index counts from the end" changes nothing on the sources … -/
theorem wrap_src (n : BitVec 32) :
    select (cmpi .slt (srcW x1) (broadcastInDim S650000 ![] bcast_S_S650000 (constantI S_ 32 0#32)))
      (addi (srcW x1) (broadcastInDim S650000 ![] bcast_S_S650000 (constantI S_ 32 n))) (srcW x1) = srcW x1 :=
  Cert.Edges.wrap_eq (srcW x1) bcast_S_S650000 n (fun i => by
    rw [eq_ix1 i]
    exact (Cert.Edges.endW_range x1 h 0 (by decide) _ _ _ _).1)

include h in
/-- The source words the first take reads. -/
theorem v35_eq : val_main_v35 (F := Ideal) x1 = srcW x1 := wrap_src x1 h 10000#32
include h in
/-- The source words the second take reads. -/
theorem v53_eq : val_main_v53 (F := Ideal) x1 = srcW x1 := wrap_src x1 h 10000#32

/-- The source column at edge `e`, read signed, is the edge's source. -/
theorem srcCol_toInt (e : Fin nE) :
    (broadcastInDim S650000x1 ![0] bcast_S650000_S650000x1_0 (srcW x1) (ix2 e (0 : Fin 1))).toInt = ((src x1 h e).val : Int) := by
  rw [Cert.Edges.column_apply, Cert.Edges.endW_toInt]
/-- The target column at edge `e`, read signed, is the edge's target. -/
theorem dstCol_toInt (e : Fin nE) :
    (broadcastInDim S650000x1 ![0] bcast_S650000_S650000x1_0 (dstW x1) (ix2 e (0 : Fin 1))).toInt = ((dst x1 h e).val : Int) := by
  rw [Cert.Edges.column_apply, Cert.Edges.endW_toInt]

/-- "The target column at `e` names node `i`" is "edge `e` goes into `i`". -/
theorem dstCol_iff (e : Fin nE) (i : Fin nN) :
    (broadcastInDim S650000x1 ![0] bcast_S650000_S650000x1_0 (dstW x1) (ix2 e (0 : Fin 1))).toInt = (i.val : Int) ↔ dst x1 h e = i := by
  rw [dstCol_toInt x1 h e]
  exact ⟨fun hh => Fin.ext (Int.ofNat_inj.mp hh), fun hh => by rw [hh]⟩

/-! ## The weights broadcast along a row -/

theorem v39_at (e : Fin nE) (q : Fin 128) : val_main_v39 (F := Ideal) x1 (ix2 e q) = nrm x1 e := by
  rw [val_main_v39_apply, val_main_v38_apply, norm_eq]
  exact congrArg _ (funext fun a => match a with | ⟨0, _⟩ => rfl)
theorem v57_at (e : Fin nE) (q : Fin 64) : val_main_v57 (F := Ideal) x1 (ix2 e q) = nrm x1 e := by
  rw [val_main_v57_apply, val_main_v56_apply, norm_eq]
  exact congrArg _ (funext fun a => match a with | ⟨0, _⟩ => rfl)

/-! ## The accumulating scatters, as the ideal instance's sums -/

/-- The host's accumulating scatter is the float family's, at the one-device schedule. -/
theorem scatterAdd_eq {F : FTy → Type} [FloatOps F] {s si u : Shape} {φ : FTy} {w : Nat} (d : ScatterDims s si u)
    (x : FVec F s φ) (idx : IVec si w) (upd : FVec F u φ) :
    Host.scatterAdd d x idx upd = FloatOps.hostScatterAdd d .single x idx upd := rfl

/-- The first segment sum's operation, spelt out. -/
theorem v43_def : val_main_v43 (F := Ideal) x0 x1 x2
    = Host.scatterAdd (F := Ideal) (φ := .f32) scatter_S10000x128_S650000x1_S650000x128_1_0_0_1 (val_main_v41 (F := Ideal))
        (val_main_v42 (F := Ideal) x1) (val_main_v40 (F := Ideal) x0 x1 x2) := rfl
/-- The second segment sum's operation, spelt out. -/
theorem v61_def : val_main_v61 (F := Ideal) x0 x1 x2 x3 x4
    = Host.scatterAdd (F := Ideal) (φ := .f32) scatter_S10000x64_S650000x1_S650000x64_1_0_0_1 (val_main_v59 (F := Ideal))
        (val_main_v60 (F := Ideal) x1) (val_main_v58 (F := Ideal) x0 x1 x2 x3 x4) := rfl

/-- The first segment sum at an index is the ideal instance's accumulating scatter there. -/
theorem v43_scatter (i : Fin nN) (q : Fin 128) :
    val_main_v43 (F := Ideal) x0 x1 x2 (ix2 i q)
      = Ideal.hostScatterAdd scatter_S10000x128_S650000x1_S650000x128_1_0_0_1 (val_main_v41 (F := Ideal))
          (val_main_v42 (F := Ideal) x1) (val_main_v40 (F := Ideal) x0 x1 x2) (ix2 i q) :=
  (congrFun (v43_def x0 x1 x2) (ix2 i q)).trans ((congrFun (scatterAdd_eq _ _ _ _) (ix2 i q)).trans
    (congrFun (Ideal.hostScatterAdd_def _ _ _ _ _) (ix2 i q)))
/-- The second segment sum at an index is the ideal instance's accumulating scatter there. -/
theorem v61_scatter (i : Fin nN) (c : Fin 64) :
    val_main_v61 (F := Ideal) x0 x1 x2 x3 x4 (ix2 i c)
      = Ideal.hostScatterAdd scatter_S10000x64_S650000x1_S650000x64_1_0_0_1 (val_main_v59 (F := Ideal))
          (val_main_v60 (F := Ideal) x1) (val_main_v58 (F := Ideal) x0 x1 x2 x3 x4) (ix2 i c) :=
  (congrFun (v61_def x0 x1 x2 x3 x4) (ix2 i c)).trans ((congrFun (scatterAdd_eq _ _ _ _) (ix2 i c)).trans
    (congrFun (Ideal.hostScatterAdd_def _ _ _ _ _) (ix2 i c)))

/-! ## The first layer -/

/-- The first dense map. -/
theorem v30_at (j : Fin nN) (d : Fin 128) :
    val_main_v30 (F := Ideal) x0 x2 (ix2 j d) = lin1 (fun j k => x0 (ix2 j k)) (fun k d => x2 (ix2 k d)) j d := by
  rw [val_main_v30_apply]
  unfold lin1
  refine Finset.sum_congr rfl fun k _ => ?_
  have e1 : lidx_main_v30 (ix2 j d) k = ix2 j k := funext fun a => match a with | ⟨0, _⟩ => rfl | ⟨1, _⟩ => rfl
  have e2 : ridx_main_v30 (ix2 j d) k = ix2 k d := funext fun a => match a with | ⟨0, _⟩ => rfl | ⟨1, _⟩ => rfl
  rw [e1, e2]

/-- The take of its rows at the sources. -/
theorem v37_at (e : Fin nE) (q : Fin 128) :
    val_main_v37 (F := Ideal) x0 x1 x2 (ix2 e q) = val_main_v30 (F := Ideal) x0 x2 (ix2 (src x1 h e) q) := by
  unfold val_main_v37
  refine Cert.HostRead.gather_rows _ rfl rfl rfl rfl rfl rfl rfl _ _ e q (src x1 h e) ?_
  unfold val_main_v36
  rw [v35_eq x1 h]
  exact srcCol_toInt x1 h e

/-- One message: the source's row scaled by the edge's weight. -/
theorem v40_at (e : Fin nE) (q : Fin 128) :
    val_main_v40 (F := Ideal) x0 x1 x2 (ix2 e q)
      = lin1 (fun j k => x0 (ix2 j k)) (fun k d => x2 (ix2 k d)) (src x1 h e) q * nrm x1 e := by
  rw [val_main_v40_apply, Ideal.mulf_def, v37_at x0 x1 x2 h, v30_at, v39_at]

/-- The segment sum of the messages by target. -/
theorem v43_at (i : Fin nN) (q : Fin 128) :
    val_main_v43 (F := Ideal) x0 x1 x2 (ix2 i q)
      = agg1 (src x1 h) (dst x1 h) (nrm x1) (fun j k => x0 (ix2 j k)) (fun k d => x2 (ix2 k d)) i q := by
  rw [v43_scatter x0 x1 x2 i q, Cert.HostRead.scatterAdd_rows _ rfl rfl rfl rfl,
    val_main_v41_apply, val_main_cst_8_apply, Ideal.ofBits_def, Ideal.ofBits_zero_f32, zero_add]
  unfold agg1
  refine Finset.sum_congr (Finset.filter_congr fun e _ => ?_) fun e _ => v40_at x0 x1 x2 h e q
  unfold val_main_v42
  rw [v6_eq]
  exact dstCol_iff x1 h e i

/-- The hidden layer. -/
theorem v47_at (i : Fin nN) (d : Fin 128) :
    val_main_v47 (F := Ideal) x0 x1 x2 x3 (ix2 i d)
      = hid (src x1 h) (dst x1 h) (nrm x1) (fun j k => x0 (ix2 j k)) (fun k d => x2 (ix2 k d)) (fun d => x3 (ix1 d)) i d := by
  rw [val_main_v47_apply, Ideal.maximumf_def, val_main_v46_apply, Ideal.addf_def, v43_at x0 x1 x2 h,
    val_main_v45_apply, val_main_v44_apply, val_main_call1_v0_apply, val_main_call1_cst_apply, Ideal.ofBits_def,
    Ideal.ofBits_zero_f32]
  unfold hid
  have e1 : idx_main_v44 (idx_main_v45 (ix2 i d)) = ix1 d := funext fun a => match a with | ⟨0, _⟩ => rfl
  rw [e1]

/-! ## The second layer -/

/-- The second dense map, on the hidden layer. -/
theorem v48_at (j : Fin nN) (c : Fin 64) :
    val_main_v48 (F := Ideal) x0 x1 x2 x3 x4 (ix2 j c)
      = lin2 (src x1 h) (dst x1 h) (nrm x1) (fun j k => x0 (ix2 j k)) (fun k d => x2 (ix2 k d)) (fun d => x3 (ix1 d))
          (fun d c => x4 (ix2 d c)) j c := by
  rw [val_main_v48_apply]
  unfold lin2
  refine Finset.sum_congr rfl fun k _ => ?_
  have e1 : lidx_main_v48 (ix2 j c) k = ix2 j k := funext fun a => match a with | ⟨0, _⟩ => rfl | ⟨1, _⟩ => rfl
  have e2 : ridx_main_v48 (ix2 j c) k = ix2 k c := funext fun a => match a with | ⟨0, _⟩ => rfl | ⟨1, _⟩ => rfl
  rw [e1, e2, v47_at x0 x1 x2 x3 h]

/-- The take of its rows at the sources. -/
theorem v55_at (e : Fin nE) (c : Fin 64) :
    val_main_v55 (F := Ideal) x0 x1 x2 x3 x4 (ix2 e c) = val_main_v48 (F := Ideal) x0 x1 x2 x3 x4 (ix2 (src x1 h e) c) := by
  unfold val_main_v55
  refine Cert.HostRead.gather_rows _ rfl rfl rfl rfl rfl rfl rfl _ _ e c (src x1 h e) ?_
  unfold val_main_v54
  rw [v53_eq x1 h]
  exact srcCol_toInt x1 h e

/-- One message of the second layer. -/
theorem v58_at (e : Fin nE) (c : Fin 64) :
    val_main_v58 (F := Ideal) x0 x1 x2 x3 x4 (ix2 e c)
      = lin2 (src x1 h) (dst x1 h) (nrm x1) (fun j k => x0 (ix2 j k)) (fun k d => x2 (ix2 k d)) (fun d => x3 (ix1 d))
          (fun d c => x4 (ix2 d c)) (src x1 h e) c * nrm x1 e := by
  rw [val_main_v58_apply, Ideal.mulf_def, v55_at x0 x1 x2 x3 x4 h, v48_at x0 x1 x2 x3 x4 h, v57_at]

/-- The segment sum of the second layer's messages by target. -/
theorem v61_at (i : Fin nN) (c : Fin 64) :
    val_main_v61 (F := Ideal) x0 x1 x2 x3 x4 (ix2 i c)
      = ∑ e ∈ Finset.univ.filter (fun e => dst x1 h e = i),
          lin2 (src x1 h) (dst x1 h) (nrm x1) (fun j k => x0 (ix2 j k)) (fun k d => x2 (ix2 k d)) (fun d => x3 (ix1 d))
            (fun d c => x4 (ix2 d c)) (src x1 h e) c * nrm x1 e := by
  rw [v61_scatter x0 x1 x2 x3 x4 i c, Cert.HostRead.scatterAdd_rows _ rfl rfl rfl rfl,
    val_main_v59_apply, val_main_cst_11_apply, Ideal.ofBits_def, Ideal.ofBits_zero_f32, zero_add]
  refine Finset.sum_congr (Finset.filter_congr fun e _ => ?_) fun e _ => v58_at x0 x1 x2 x3 x4 h e c
  unfold val_main_v60
  rw [v6_eq]
  exact dstCol_iff x1 h e i

/-- The program's result at node `i`, column `c`. -/
theorem v64_at (i : Fin nN) (c : Fin 64) :
    val_main_v64 (F := Ideal) x0 x1 x2 x3 x4 x5 (ix2 i c)
      = refOut (src x1 h) (dst x1 h) (nrm x1) (fun j k => x0 (ix2 j k)) (fun k d => x2 (ix2 k d)) (fun d => x3 (ix1 d))
          (fun d c => x4 (ix2 d c)) (fun c => x5 (ix1 c)) i c := by
  rw [val_main_v64_apply, Ideal.addf_def, v61_at x0 x1 x2 x3 x4 h, val_main_v63_apply, val_main_v62_apply]
  unfold refOut
  have e1 : idx_main_v62 (idx_main_v63 (ix2 i c)) = ix1 c := funext fun a => match a with | ⟨0, _⟩ => rfl
  rw [e1]

end Cert.ReferenceIdeal.RefValue

namespace Cert.ReferenceIdeal.RefValue

open Cert.ReferenceIdeal Cert.ReferenceIdeal.Gen Cert.ReferenceIdeal.Read Cert.ReferenceIdeal.Value Idealize.ShloMosaic Idealize.ShloMosaic.TcCoe Idealize.SL.Sem Idealize.ShloMosaic.StableHlo Idealize.ShloMosaic.ValueIdx Cert.Spec

/-- THE REFERENCE READ AT AN INDEX. Under the precondition on the edge list, the reference program's result at node `i`,
    column `q` is the two-layer graph convolution of `Cert.Spec`, edge by edge, on the program's own edge list and weights. -/
theorem ref_apply (m : (ℓ : Loc nD τ sig) → Buf (Elt Ideal) ℓ) (c : Dev nD)
    (h : Cert.Edges.InRange (m ((c.tc : Thread nD τ).loc main_arg1))) (i : Fin nN) (q : Fin 64) :
    Value.res_main_v64 (F := Ideal) m c (ix2 i q)
      = refOut (Cert.Edges.endF (m ((c.tc : Thread nD τ).loc main_arg1)) h 0 (by decide) slices_S2x640000_S1x640000_0_0 shapeCasts_S1x640000_S640000 concatenates_S640000_S10000_S650000_d0)
               (Cert.Edges.endF (m ((c.tc : Thread nD τ).loc main_arg1)) h 1 (by decide) slices_S2x640000_S1x640000_1_0 shapeCasts_S1x640000_S640000 concatenates_S640000_S10000_S650000_d0)
               (fun e => Cert.Edges.normW (m ((c.tc : Thread nD τ).loc main_arg1)) slices_S2x640000_S1x640000_0_0 slices_S2x640000_S1x640000_1_0 shapeCasts_S1x640000_S640000 concatenates_S640000_S10000_S650000_d0 bcast_S_S650000 bcast_S_S10000 bcast_S650000_S650000x1_0 scatter_S10000_S650000x1_S650000_n_0_0_1 gather_S10000_S650000x1_S650000_n_0_n_n_0_1_1 (ix1 e))
               (fun j k => m ((c.tc : Thread nD τ).loc main_arg0) (ix2 j k)) (fun k d => m ((c.tc : Thread nD τ).loc main_arg2) (ix2 k d)) (fun d => m ((c.tc : Thread nD τ).loc main_arg3) (ix1 d))
               (fun d k => m ((c.tc : Thread nD τ).loc main_arg4) (ix2 d k)) (fun k => m ((c.tc : Thread nD τ).loc main_arg5) (ix1 k)) i q := by
  rw [val_main_v64_eq]
  exact v64_at _ _ _ _ _ _ h i q

end Cert.ReferenceIdeal.RefValue

end
-- ==== Proof.PreDecode.lean ====
/-
  The precondition read back. The printed precondition is a conjunction of "every entry is finite" for the float
  arguments and, last, "every listed endpoint is a node": the `and`-reduction over the whole [2 × 640000] index array of
  `0 ≤ · ` and ` · < 10000`, both signed compares against a broadcast constant. When the printed function is all ones,
  its last conjunct is one, so every entry of the `and`-reduced array is one, so at every position both compares hold.
-/
import proofs.«411342_j57234734186920_3_alg».proof.Pre_finite_inputs
import proofs.«411342_j57234734186920_3_alg».proof.Proof.Edges
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx

/-- The rank-0 shape has one index. -/
instance : Subsingleton Cert.Pre_finite_inputs.S_.Idx := ⟨fun _ _ => funext fun d => d.elim0⟩

/-- The signed "greater or equal" compare is one exactly when the values read signed are so ordered. -/
theorem sge_iff_toInt {x y : BitVec 32} : IntOp.cmpi .sge x y = 1#1 ↔ y.toInt ≤ x.toInt := by
  unfold IntOp.cmpi
  simp only [StableHlo.Predicate.ofBool_eq_one_iff, BitVec.sle, decide_eq_true_eq]

/-- The signed "less than" compare is one exactly when the values read signed are so ordered. -/
theorem slt_iff_toInt {x y : BitVec 32} : IntOp.cmpi .slt x y = 1#1 ↔ x.toInt < y.toInt := by
  unfold IntOp.cmpi
  simp only [StableHlo.Predicate.ofBool_eq_one_iff, BitVec.slt, decide_eq_true_eq]

/-- Under the precondition every listed endpoint is a node. -/
theorem inRange_of_pre {F : FTy → Type} [FloatOps F] [Cert.Pre_finite_inputs.Facts]
    (a0 : FVec F Cert.Pre_finite_inputs.S10000x128 .f32) (a1 : IVec Cert.Pre_finite_inputs.S2x640000 32)
    (a2 : FVec F Cert.Pre_finite_inputs.S128x128 .f32) (a3 : FVec F Cert.Pre_finite_inputs.S128 .f32)
    (a4 : FVec F Cert.Pre_finite_inputs.S128x64 .f32) (a5 : FVec F Cert.Pre_finite_inputs.S64 .f32)
    (h : Cert.Pre_finite_inputs.fn (F := F) a0 a1 a2 a3 a4 a5 = fun _ => 1#1) : Cert.Edges.InRange a1 := by
  intro i
  have h1 := congrFun h ix0
  unfold Cert.Pre_finite_inputs.fn Cert.Pre_finite_inputs.fn_part1 at h1
  dsimp only at h1
  -- the outermost `and`: its right conjunct is the reduction over the index array
  change IntOp.andi _ _ = 1#1 at h1
  have h2 := (IntOp.andi_eq_one.1 h1).2
  -- the reduction is one: every entry of the reduced array is one
  have h3 := Host.reduce_andi_all _ _ _ _ _ h2 i
  change IntOp.andi (IntOp.cmpi .sge (a1 i) (0#32)) (IntOp.cmpi .slt (a1 i) (10000#32)) = 1#1 at h3
  obtain ⟨hge, hlt⟩ := IntOp.andi_eq_one.1 h3
  have e0 : (0#32 : BitVec 32).toInt = 0 := by decide
  have e1 : (10000#32 : BitVec 32).toInt = 10000 := by decide
  have hge' := sge_iff_toInt.1 hge
  have hlt' := slt_iff_toInt.1 hlt
  rw [e0] at hge'
  rw [e1] at hlt'
  exact ⟨hge', hlt'⟩

end Cert.PreDecode

end
-- ==== Proof.Algebraic.lean ====
/-
  The top of the proof: under the precondition, the kernel program and the reference, from memories that agree on the
  six arguments, both run, end with equal results, and leave their arguments as launched.

  The kernel program's result at a real node and a real column is the dense aggregation `kerOut` over padded nodes of
  the edge list's weight matrix; the reference's is the aggregation `refOut` edge by edge, of the same edge list with
  the same weights. The precondition makes every listed endpoint a node, so both programs see the same 650000 edges,
  and each weight, a product of two entries of `where (deg > 0) (rsqrt deg) 0`, is nonnegative; with nonnegative
  weights the two aggregations agree on the extended reals (`Cert.Spec.kerOut_eq_refOut`). The runs themselves, and
  that the arguments end unchanged, are each program's own.
-/
import proofs.«411342_j57234734186920_3_alg».proof.Defs
import proofs.«411342_j57234734186920_3_alg».proof.Proof.Gen.KernelIdeal
import proofs.«411342_j57234734186920_3_alg».proof.Proof.Gen.ReferenceIdeal
import proofs.«411342_j57234734186920_3_alg».proof.Proof.Gen.Pre_finite_inputs
import proofs.«411342_j57234734186920_3_alg».proof.Proof.Gen.KernelIdeal.Regions
import proofs.«411342_j57234734186920_3_alg».proof.Proof.KernelIdeal.Main
import proofs.«411342_j57234734186920_3_alg».proof.Proof.KernelIdeal.HostAdj
import proofs.«411342_j57234734186920_3_alg».proof.Proof.KernelIdeal.Value
import proofs.«411342_j57234734186920_3_alg».proof.Proof.RefRun
import proofs.«411342_j57234734186920_3_alg».proof.Proof.RefValue
import proofs.«411342_j57234734186920_3_alg».proof.Proof.PreDecode
import proofs.«411342_j57234734186920_3_alg».proof.Proof.Spec
import proofs.«411342_j57234734186920_3_alg».proof.Proof.Edges

set_option maxRecDepth 16384

noncomputable section

namespace Cert.Proof

open Idealize.ShloMosaic Idealize.ShloMosaic.TcCoe Idealize.SL.Sem Idealize.ShloMosaic.ValueIdx Cert.Spec

/-- Under the precondition the two programs' results agree, element by element: the kernel program's result is the
    dense aggregation over padded nodes, the reference's the aggregation edge by edge, of the same edge list with the
    same nonnegative weights. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hin : Cert.Edges.InRange (m ((c.tc : Thread Cert.KernelIdeal.nD Cert.KernelIdeal.τ).loc Cert.KernelIdeal.main_arg1)))
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v64 (F := Ideal) m' c
      = Cert.KernelIdeal.Hand.W7 (F := Ideal) m c (Proc.devRef .tc Cert.KernelIdeal.main_v60) := by
  funext j
  obtain ⟨i, q, rfl⟩ : ∃ (i : Fin 10000) (q : Fin 64), j = ix2 i q := ⟨j 0, j 1, eq_ix2 j⟩
  have hin' : Cert.Edges.InRange (m' ((c.tc : Thread Cert.ReferenceIdeal.nD Cert.ReferenceIdeal.τ).loc Cert.ReferenceIdeal.main_arg1)) := by rw [e1]; exact hin
  rw [Cert.ReferenceIdeal.RefValue.ref_apply m' c hin' i q, Cert.KernelIdeal.Hand.kres_apply m c hin i q]
  revert hin'
  rw [e0, e1, e2, e3, e4, e5]
  intro hin'
  refine (kerOut_eq_refOut (Cert.KernelIdeal.HostVal.srcF m c hin) (Cert.KernelIdeal.HostVal.dstF m c hin)
    (Cert.KernelIdeal.HostVal.nrm m c) ?_ _ _ ?_ _ _ _ _ ?_ _ _ ?_ i q).symm
  · exact fun e => Cert.Edges.normW_nonneg _ _ _ _ _ _ _ _ _ _ (ix1 e)
  · exact Cert.KernelIdeal.Hand.kres_hx m c
  · exact Cert.KernelIdeal.Hand.kres_hW m c
  · exact Cert.KernelIdeal.Hand.kres_hb m c

/-- Both programs run, end with equal results, and leave their arguments as launched. -/
theorem algebraic : Cert.algebraic_KernelIdeal_ReferenceIdeal := by
  intro m ρ m' ρ' hpre hagree
  refine ⟨fun c => Cert.KernelIdeal.Hand.W7 (F := Ideal) m c (Proc.devRef .tc Cert.KernelIdeal.main_v60), ?_, ?_⟩
  · exact (θ_run Cert.KernelIdeal.defs _ _).mono (fun r h c =>
      ⟨h c _ (Cert.KernelIdeal.Hand.mem_uc Cert.KernelIdeal.main_v60 (by decide)),
       (h c _ (Cert.KernelIdeal.Hand.mem_uc Cert.KernelIdeal.main_arg0 (by decide))).trans (Cert.KernelIdeal.Hand.W7_main_arg0 m c),
       (h c _ (Cert.KernelIdeal.Hand.mem_uc Cert.KernelIdeal.main_arg1 (by decide))).trans (Cert.KernelIdeal.Hand.W7_main_arg1 m c),
       (h c _ (Cert.KernelIdeal.Hand.mem_uc Cert.KernelIdeal.main_arg2 (by decide))).trans (Cert.KernelIdeal.Hand.W7_main_arg2 m c),
       (h c _ (Cert.KernelIdeal.Hand.mem_uc Cert.KernelIdeal.main_arg3 (by decide))).trans (Cert.KernelIdeal.Hand.W7_main_arg3 m c),
       (h c _ (Cert.KernelIdeal.Hand.mem_uc Cert.KernelIdeal.main_arg4 (by decide))).trans (Cert.KernelIdeal.Hand.W7_main_arg4 m c),
       (h c _ (Cert.KernelIdeal.Hand.mem_uc Cert.KernelIdeal.main_arg5 (by decide))).trans (Cert.KernelIdeal.Hand.W7_main_arg5 m c)⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    have hin : Cert.Edges.InRange (m ((c.tc : Thread Cert.KernelIdeal.nD Cert.KernelIdeal.τ).loc Cert.KernelIdeal.main_arg1)) :=
      Cert.PreDecode.inRange_of_pre _ _ _ _ _ _ (hpre c)
    obtain ⟨e0, e1, e2, e3, e4, e5⟩ := hagree c
    exact res_eq m m' c hin e0 e1 e2 e3 e4 e5

end Cert.Proof

end
-- ==== Proof.lean ====
/- The proof of `Cert.Claim`: a two-layer graph convolution computed by two dense aggregation kernels over a padded,
   normalised adjacency matrix, against the same convolution computed edge by edge.

   The precondition says every float input is finite and every listed edge endpoint is a node, `0 ≤ · < 10000`
   read signed. Only the second part is used. With every endpoint a node, both programs compute ONE weight per edge
   (the product of two entries of `where (deg > 0) (rsqrt deg) 0`: nonnegative whatever the degrees are); the kernel
   program sums the weights of the edges from `j` into `i` into entry `(i, j)` of a dense matrix over 10240 padded
   nodes and aggregates by matrix products, one [2560 × 2560] block of the matrix at a time, the four blocks of a row
   accumulated across the grid's reduction axis; the reference aggregates edge by edge. Over the extended reals the
   two agree: multiplication distributes over a sum of NONNEGATIVE weights at the infinities too, a padded node has
   no edge, and the padding rows and columns of the features, of the second weight and of the second bias are never
   read at a real output (`Cert.Spec.kerOut_eq_refOut`).

   Frames: each kernel region is run point by point with its accumulator carried from one grid point to the next
   (zeroed at the first reduction step, read out at the last, where the output block is stored), and @main is seven
   segments: host, host, host, region, host, region, host. The reference is a straight line of host operations.
   The idealization rewrote no operation, so `preserves` is `True`. -/
import proofs.«411342_j57234734186920_3_alg».proof.Defs
import proofs.«411342_j57234734186920_3_alg».proof.Proof.Gen.Kernel
import proofs.«411342_j57234734186920_3_alg».proof.Proof.Gen.KernelIdeal
import proofs.«411342_j57234734186920_3_alg».proof.Proof.Gen.ReferenceIdeal
import proofs.«411342_j57234734186920_3_alg».proof.Proof.Gen.Pre_finite_inputs
import proofs.«411342_j57234734186920_3_alg».proof.Proof.Kernel.Main
import proofs.«411342_j57234734186920_3_alg».proof.Proof.KernelIdeal.Main
import proofs.«411342_j57234734186920_3_alg».proof.Proof.RefRun
import proofs.«411342_j57234734186920_3_alg».proof.Proof.Algebraic
import Idealize.ShloMosaic.Adequacy
import Idealize.ShloMosaic.Init

noncomputable section

namespace Cert.Proof

open Idealize.ShloMosaic Idealize.SL.Sem

/-- The printed kernel program runs to the end and leaves its six arguments as launched. -/
theorem frame_k : Cert.frame_Kernel := fun m ρ _ => Cert.Kernel.Hand.frame m ρ

/-- The same of the kernel program read over the extended reals. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
